-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S800000x6 : Shape := ⟨2, ![800000, 6]⟩
abbrev S128x128 : Shape := ⟨2, ![128, 128]⟩
abbrev S128 : Shape := ⟨1, ![128]⟩
abbrev S6x128 : Shape := ⟨2, ![6, 128]⟩
abbrev S_ : Shape := ⟨0, ![]⟩
abbrev S800000x1 : Shape := ⟨2, ![800000, 1]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x6 : S_.BroadcastsInDim S800000x6 (![] : Fin 0 → Fin S800000x6.rank)
  reducesTo_S800000x6_S_d0_1 : S800000x6.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128 : S_.BroadcastsInDim S6x128 (![] : Fin 0 → Fin S6x128.rank)
  reducesTo_S6x128_S_d0_1 : S6x128.ReducesTo [0, 1] S_
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000x2 32) (main_v28 : IVec S_ 1) (main_v33 : IVec S_ 1) : IVec S_ 1 :=
  let main_v34 : IVec S_ 1 := andi main_v28 main_v33
  let main_v35 : IVec S800000x1 32 := (extractStridedSlice S800000x1 ![0, 0] · slices_S800000x2_S800000x1_0_0) main_arg1
  let main_v36 : IVec S800000 32 := shapeCast S800000 main_v35 shapeCasts_S800000x1_S800000
  let main_c_12 : IVec S_ 32 := constantI S_ 32 50000#32
  let main_v37 : IVec S800000 32 := broadcastInDim S800000 ![] bcast_S_S800000 main_c_12
  let main_v38 : IVec S800000 1 := cmpi .slt main_v36 main_v37
  let main_c_13 : IVec S_ 1 := constantI S_ 1 1#1
  let main_v39 : IVec S_ 1 := (fun x v => Host.reduce IntOp.andi x v reducesTo_S800000_S_d0 h_S_) main_v38 main_c_13
  let main_v40 : IVec S_ 1 := andi main_v34 main_v39
  main_v40

def fn_part1 {F : FTy → Type} [FloatOps F] (main_arg1 : IVec S800000x2 32) (main_arg5 : FVec F S6x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S6x128 .f32 := Host.absf main_arg5
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S800000x1 32 := (extractStridedSlice S800000x1 ![0, 0] · slices_S800000x2_S800000x1_0_0) main_arg1
  let main_v30 : IVec S800000 32 := shapeCast S800000 main_v29 shapeCasts_S800000x1_S800000
  let main_c_10 : IVec S_ 32 := constantI S_ 32 0#32
  let main_v31 : IVec S800000 32 := broadcastInDim S800000 ![] bcast_S_S800000 main_c_10
  let main_v32 : IVec S800000 1 := cmpi .sge main_v30 main_v31
  let main_c_11 : IVec S_ 1 := constantI S_ 1 1#1
  let main_v33 : IVec S_ 1 := (fun x v => Host.reduce IntOp.andi x v reducesTo_S800000_S_d0 h_S_) main_v32 main_c_11
  fn_part2 (F := F) main_arg1 main_v28 main_v33

def fn {F : FTy → Type} [FloatOps F] (main_arg0 : FVec F S50000x128 .f32) (main_arg1 : IVec S800000x2 32) (main_arg2 : FVec F S800000x6 .f32) (main_arg3 : FVec F S128x128 .f32) (main_arg4 : FVec F S128 .f32) (main_arg5 : FVec F S6x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x6 .f32 := Host.absf main_arg2
  let main_cst_0 : FVec F S_ .f32 := constant S_ .f32 0x7F800000#32
  let main_v5 : FVec F S800000x6 .f32 := broadcastInDim S800000x6 ![] bcast_S_S800000x6 main_cst_0
  let main_v6 : IVec S800000x6 1 := cmpf .olt main_v4 main_v5
  let main_c_1 : IVec S_ 1 := constantI S_ 1 1#1
  let main_v7 : IVec S_ 1 := (fun x v => Host.reduce IntOp.andi x v reducesTo_S800000x6_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x128 : Shape := ⟨2, ![50000, 128]⟩
abbrev S800000x2 : Shape := ⟨2, ![800000, 2]⟩
abbrev S800000x6 : Shape := ⟨2, ![800000, 6]⟩
abbrev S128x128 : Shape := ⟨2, ![128, 128]⟩
abbrev S128 : Shape := ⟨1, ![128]⟩
abbrev S6x128 : Shape := ⟨2, ![6, 128]⟩
abbrev S1x128 : Shape := ⟨2, ![1, 128]⟩
abbrev S5000x128 : Shape := ⟨2, ![5000, 128]⟩
abbrev S50000x1x128 : Shape := ⟨3, ![50000, 1, 128]⟩
abbrev S800000x1 : Shape := ⟨2, ![800000, 1]⟩
abbrev S800000 : Shape := ⟨1, ![800000]⟩
abbrev S50000x6 : Shape := ⟨2, ![50000, 6]⟩
abbrev S50000x1x6 : Shape := ⟨3, ![50000, 1, 6]⟩
abbrev S50000 : Shape := ⟨1, ![50000]⟩
abbrev S1x1x128 : Shape := ⟨3, ![1, 1, 128]⟩
abbrev S1 : Shape := ⟨1, ![1]⟩
abbrev S1x1x6 : Shape := ⟨3, ![1, 1, 6]⟩
abbrev S1x6 : Shape := ⟨2, ![1, 6]⟩
abbrev S800000x128 : Shape := ⟨2, ![800000, 128]⟩
abbrev S_ : Shape := ⟨0, ![]⟩

abbrev nBuf : Space → Nat
  | .hbm => 87
  | .vmem => 134
  | .smem => 16
  | _ => 0

abbrev vmemTy0_0 (i : Nat) : BufTy := match i % 128 with
  | 0 => ⟨S5000x128, .f32⟩
  | 1 => ⟨S5000x128, .f32⟩
  | 2 => ⟨S128x128, .f32⟩
  | 3 => ⟨S1x128, .f32⟩
  | 4 => ⟨S5000x128, .f32⟩
  | 5 => ⟨S5000x128, .f32⟩
  | 6 => ⟨S1x1x128, .f32⟩
  | 7 => ⟨S1x1x128, .f32⟩
  | 8 => ⟨S1x1x6, .f32⟩
  | 9 => ⟨S1x1x6, .f32⟩
  | 10 => ⟨S6x128, .f32⟩
  | 11 => ⟨S1x128, .f32⟩
  | 12 => ⟨S1x1x128, .f32⟩
  | 13 => ⟨S1x1x128, .f32⟩
  | 14 => ⟨S1x1x128, .f32⟩
  | 15 => ⟨S1x1x128, .f32⟩
  | 16 => ⟨S1x1x6, .f32⟩
  | 17 => ⟨S1x1x6, .f32⟩
  | 18 => ⟨S6x128, .f32⟩
  | 19 => ⟨S1x128, .f32⟩
  | 20 => ⟨S1x1x128, .f32⟩
  | 21 => ⟨S1x1x128, .f32⟩
  | 22 => ⟨S1x1x128, .f32⟩
  | 23 => ⟨S1x1x128, .f32⟩
  | 24 => ⟨S1x1x6, .f32⟩
  | 25 => ⟨S1x1x6, .f32⟩
  | 26 => ⟨S6x128, .f32⟩
  | 27 => ⟨S1x128, .f32⟩
  | 28 => ⟨S1x1x128, .f32⟩
  | 29 => ⟨S1x1x128, .f32⟩
  | 30 => ⟨S1x1x128, .f32⟩
  | 31 => ⟨S1x1x128, .f32⟩
  | 32 => ⟨S1x1x6, .f32⟩
  | 33 => ⟨S1x1x6, .f32⟩
  | 34 => ⟨S6x128, .f32⟩
  | 35 => ⟨S1x128, .f32⟩
  | 36 => ⟨S1x1x128, .f32⟩
  | 37 => ⟨S1x1x128, .f32⟩
  | 38 => ⟨S1x1x128, .f32⟩
  | 39 => ⟨S1x1x128, .f32⟩
  | 40 => ⟨S1x1x6, .f32⟩
  | 41 => ⟨S1x1x6, .f32⟩
  | 42 => ⟨S6x128, .f32⟩
  | 43 => ⟨S1x128, .f32⟩
  | 44 => ⟨S1x1x128, .f32⟩
  | 45 => ⟨S1x1x128, .f32⟩
  | 46 => ⟨S1x1x128, .f32⟩
  | 47 => ⟨S1x1x128, .f32⟩
  | 48 => ⟨S1x1x6, .f32⟩
  | 49 => ⟨S1x1x6, .f32⟩
  | 50 => ⟨S6x128, .f32⟩
  | 51 => ⟨S1x128, .f32⟩
  | 52 => ⟨S1x1x128, .f32⟩
  | 53 => ⟨S1x1x128, .f32⟩
  | 54 => ⟨S1x1x128, .f32⟩
  | 55 => ⟨S1x1x128, .f32⟩
  | 56 => ⟨S1x1x6, .f32⟩
  | 57 => ⟨S1x1x6, .f32⟩
  | 58 => ⟨S6x128, .f32⟩
  | 59 => ⟨S1x128, .f32⟩
  | 60 => ⟨S1x1x128, .f32⟩
  | 61 => ⟨S1x1x128, .f32⟩
  | 62 => ⟨S1x1x128, .f32⟩
  | 63 => ⟨S1x1x128, .f32⟩
  | 64 => ⟨S1x1x6, .f32⟩
  | 65 => ⟨S1x1x6, .f32⟩
  | 66 => ⟨S6x128, .f32⟩
  | 67 => ⟨S1x128, .f32⟩
  | 68 => ⟨S1x1x128, .f32⟩
  | 69 => ⟨S1x1x128, .f32⟩
  | 70 => ⟨S1x1x128, .f32⟩
  | 71 => ⟨S1x1x128, .f32⟩
  | 72 => ⟨S1x1x6, .f32⟩
  | 73 => ⟨S1x1x6, .f32⟩
  | 74 => ⟨S6x128, .f32⟩
  | 75 => ⟨S1x128, .f32⟩
  | 76 => ⟨S1x1x128, .f32⟩
  | 77 => ⟨S1x1x128, .f32⟩
  | 78 => ⟨S1x1x128, .f32⟩
  | 79 => ⟨S1x1x128, .f32⟩
  | 80 => ⟨S1x1x6, .f32⟩
  | 81 => ⟨S1x1x6, .f32⟩
  | 82 => ⟨S6x128, .f32⟩
  | 83 => ⟨S1x128, .f32⟩
  | 84 => ⟨S1x1x128, .f32⟩
  | 85 => ⟨S1x1x128, .f32⟩
  | 86 => ⟨S1x1x128, .f32⟩
  | 87 => ⟨S1x1x128, .f32⟩
  | 88 => ⟨S1x1x6, .f32⟩
  | 89 => ⟨S1x1x6, .f32⟩
  | 90 => ⟨S6x128, .f32⟩
  | 91 => ⟨S1x128, .f32⟩
  | 92 => ⟨S1x1x128, .f32⟩
  | 93 => ⟨S1x1x128, .f32⟩
  | 94 => ⟨S1x1x128, .f32⟩
  | 95 => ⟨S1x1x128, .f32⟩
  | 96 => ⟨S1x1x6, .f32⟩
  | 97 => ⟨S1x1x6, .f32⟩
  | 98 => ⟨S6x128, .f32⟩
  | 99 => ⟨S1x128, .f32⟩
  | 100 => ⟨S1x1x128, .f32⟩
  | 101 => ⟨S1x1x128, .f32⟩
  | 102 => ⟨S1x1x128, .f32⟩
  | 103 => ⟨S1x1x128, .f32⟩
  | 104 => ⟨S1x1x6, .f32⟩
  | 105 => ⟨S1x1x6, .f32⟩
  | 106 => ⟨S6x128, .f32⟩
  | 107 => ⟨S1x128, .f32⟩
  | 108 => ⟨S1x1x128, .f32⟩
  | 109 => ⟨S1x1x128, .f32⟩
  | 110 => ⟨S1x1x128, .f32⟩
  | 111 => ⟨S1x1x128, .f32⟩
  | 112 => ⟨S1x1x6, .f32⟩
  | 113 => ⟨S1x1x6, .f32⟩
  | 114 => ⟨S6x128, .f32⟩
  | 115 => ⟨S1x128, .f32⟩
  | 116 => ⟨S1x1x128, .f32⟩
  | 117 => ⟨S1x1x128, .f32⟩
  | 118 => ⟨S1x1x128, .f32⟩
  | 119 => ⟨S1x1x128, .f32⟩
  | 120 => ⟨S1x1x6, .f32⟩
  | 121 => ⟨S1x1x6, .f32⟩
  | 122 => ⟨S6x128, .f32⟩
  | 123 => ⟨S1x128, .f32⟩
  | 124 => ⟨S1x1x128, .f32⟩
  | 125 => ⟨S1x1x128, .f32⟩
  | 126 => ⟨S1x1x128, .f32⟩
  | 127 => ⟨S1x1x128, .f32⟩
  | _ => ⟨S50000x128, .f32⟩

abbrev vmemTy0_1 (i : Nat) : BufTy := match i % 128 with
  | 0 => ⟨S1x1x6, .f32⟩
  | 1 => ⟨S1x1x6, .f32⟩
  | 2 => ⟨S6x128, .f32⟩
  | 3 => ⟨S1x128, .f32⟩
  | 4 => ⟨S1x1x128, .f32⟩
  | 5 => ⟨S1x1x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S800000x6, .f32⟩
  | .hbm, ⟨3, _⟩ => ⟨S128x128, .f32⟩
  | .hbm, ⟨4, _⟩ => ⟨S128, .f32⟩
  | .hbm, ⟨5, _⟩ => ⟨S6x128, .f32⟩
  | .hbm, ⟨6, _⟩ => ⟨S128, .f32⟩
  | .hbm, ⟨7, _⟩ => ⟨S1x128, .f32⟩
  | .hbm, ⟨8, _⟩ => ⟨S50000x128, .f32⟩
  | .hbm, ⟨9, _⟩ => ⟨S50000x1x128, .f32⟩
  | .hbm, ⟨10, _⟩ => ⟨S800000x1, .i32⟩
  | .hbm, ⟨11, _⟩ => ⟨S800000, .i32⟩
  | .hbm, ⟨12, _⟩ => ⟨S800000x1, .i32⟩
  | .hbm, ⟨13, _⟩ => ⟨S800000, .i32⟩
  | .hbm, ⟨14, _⟩ => ⟨S1x128, .f32⟩
  | .hbm, ⟨15, _⟩ => ⟨S50000x6, .f32⟩
  | .hbm, ⟨16, _⟩ => ⟨S50000x1x6, .f32⟩
  | .hbm, ⟨17, _⟩ => ⟨S50000x1x128, .f32⟩
  | .hbm, ⟨18, _⟩ => ⟨S50000x128, .f32⟩
  | .hbm, ⟨19, _⟩ => ⟨S50000x6, .f32⟩
  | .hbm, ⟨20, _⟩ => ⟨S50000x1x6, .f32⟩
  | .hbm, ⟨21, _⟩ => ⟨S50000x1x128, .f32⟩
  | .hbm, ⟨22, _⟩ => ⟨S50000x128, .f32⟩
  | .hbm, ⟨23, _⟩ => ⟨S50000x6, .f32⟩
  | .hbm, ⟨24, _⟩ => ⟨S50000x1x6, .f32⟩
  | .hbm, ⟨25, _⟩ => ⟨S50000x1x128, .f32⟩
  | .hbm, ⟨26, _⟩ => ⟨S50000x128, .f32⟩
  | .hbm, ⟨27, _⟩ => ⟨S50000x6, .f32⟩
  | .hbm, ⟨28, _⟩ => ⟨S50000x1x6, .f32⟩
  | .hbm, ⟨29, _⟩ => ⟨S50000x1x128, .f32⟩
  | .hbm, ⟨30, _⟩ => ⟨S50000x128, .f32⟩
  | .hbm, ⟨31, _⟩ => ⟨S50000x6, .f32⟩
  | .hbm, ⟨32, _⟩ => ⟨S50000x1x6, .f32⟩
  | .hbm, ⟨33, _⟩ => ⟨S50000x1x128, .f32⟩
  | .hbm, ⟨34, _⟩ => ⟨S50000x128, .f32⟩
  | .hbm, ⟨35, _⟩ => ⟨S50000x6, .f32⟩
  | .hbm, ⟨36, _⟩ => ⟨S50000x1x6, .f32⟩
  | .hbm, ⟨37, _⟩ => ⟨S50000x1x128, .f32⟩
  | .hbm, ⟨38, _⟩ => ⟨S50000x128, .f32⟩
  | .hbm, ⟨39, _⟩ => ⟨S50000x6, .f32⟩
  | .hbm, ⟨40, _⟩ => ⟨S50000x1x6, .f32⟩
  | .hbm, ⟨41, _⟩ => ⟨S50000x1x128, .f32⟩
  | .hbm, ⟨42, _⟩ => ⟨S50000x128, .f32⟩
  | .hbm, ⟨43, _⟩ => ⟨S50000x6, .f32⟩
  | .hbm, ⟨44, _⟩ => ⟨S50000x1x6, .f32⟩
  | .hbm, ⟨45, _⟩ => ⟨S50000x1x128, .f32⟩
  | .hbm, ⟨46, _⟩ => ⟨S50000x128, .f32⟩
  | .hbm, ⟨47, _⟩ => ⟨S50000x6, .f32⟩
  | .hbm, ⟨48, _⟩ => ⟨S50000x1x6, .f32⟩
  | .hbm, ⟨49, _⟩ => ⟨S50000x1x128, .f32⟩
  | .hbm, ⟨50, _⟩ => ⟨S50000x128, .f32⟩
  | .hbm, ⟨51, _⟩ => ⟨S50000x6, .f32⟩
  | .hbm, ⟨52, _⟩ => ⟨S50000x1x6, .f32⟩
  | .hbm, ⟨53, _⟩ => ⟨S50000x1x128, .f32⟩
  | .hbm, ⟨54, _⟩ => ⟨S50000x128, .f32⟩
  | .hbm, ⟨55, _⟩ => ⟨S50000x6, .f32⟩
  | .hbm, ⟨56, _⟩ => ⟨S50000x1x6, .f32⟩
  | .hbm, ⟨57, _⟩ => ⟨S50000x1x128, .f32⟩
  | .hbm, ⟨58, _⟩ => ⟨S50000x128, .f32⟩
  | .hbm, ⟨59, _⟩ => ⟨S50000x6, .f32⟩
  | .hbm, ⟨60, _⟩ => ⟨S50000x1x6, .f32⟩
  | .hbm, ⟨61, _⟩ => ⟨S50000x1x128, .f32⟩
  | .hbm, ⟨62, _⟩ => ⟨S50000x128, .f32⟩
  | .hbm, ⟨63, _⟩ => ⟨S50000x6, .f32⟩
  | .hbm, ⟨64, _⟩ => ⟨S50000x1x6, .f32⟩
  | .hbm, ⟨65, _⟩ => ⟨S50000x1x128, .f32⟩
  | .hbm, ⟨66, _⟩ => ⟨S50000x128, .f32⟩
  | .hbm, ⟨67, _⟩ => ⟨S50000x6, .f32⟩
  | .hbm, ⟨68, _⟩ => ⟨S50000x1x6, .f32⟩
  | .hbm, ⟨69, _⟩ => ⟨S50000x1x128, .f32⟩
  | .hbm, ⟨70, _⟩ => ⟨S50000x128, .f32⟩
  | .hbm, ⟨71, _⟩ => ⟨S50000x6, .f32⟩
  | .hbm, ⟨72, _⟩ => ⟨S50000x1x6, .f32⟩
  | .hbm, ⟨73, _⟩ => ⟨S50000x1x128, .f32⟩
  | .hbm, ⟨74, _⟩ => ⟨S50000x128, .f32⟩
  | .hbm, ⟨75, _⟩ => ⟨S50000x6, .f32⟩
  | .hbm, ⟨76, _⟩ => ⟨S50000x1x6, .f32⟩
  | .hbm, ⟨77, _⟩ => ⟨S50000x1x128, .f32⟩
  | .hbm, ⟨78, _⟩ => ⟨S50000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .local _ .vmem, ⟨i, _⟩ => vmemTy i
  | .local _ .smem, ⟨0, _⟩ => ⟨S50000, .i32⟩
  | .local _ .smem, ⟨1, _⟩ => ⟨S50000, .i32⟩
  | .local _ .smem, ⟨2, _⟩ => ⟨S50000, .i32⟩
  | .local _ .smem, ⟨3, _⟩ => ⟨S50000, .i32⟩
  | .local _ .smem, ⟨4, _⟩ => ⟨S50000, .i32⟩
  | .local _ .smem, ⟨5, _⟩ => ⟨S50000, .i32⟩
  | .local _ .smem, ⟨6, _⟩ => ⟨S50000, .i32⟩
  | .local _ .smem, ⟨7, _⟩ => ⟨S50000, .i32⟩
  | .local _ .smem, ⟨8, _⟩ => ⟨S50000, .i32⟩
  | .local _ .smem, ⟨9, _⟩ => ⟨S50000, .i32⟩
  | .local _ .smem, ⟨10, _⟩ => ⟨S50000, .i32⟩
  | .local _ .smem, ⟨11, _⟩ => ⟨S50000, .i32⟩
  | .local _ .smem, ⟨12, _⟩ => ⟨S50000, .i32⟩
  | .local _ .smem, ⟨13, _⟩ => ⟨S50000, .i32⟩
  | .local _ .smem, ⟨14, _⟩ => ⟨S50000, .i32⟩
  | .local _ .smem, ⟨15, _⟩ => ⟨S50000, .i32⟩
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v41 : Ref sig .tc := ⟨.hbm, 41, rfl⟩
abbrev main_v42 : Ref sig .tc := ⟨.hbm, 42, rfl⟩
abbrev main_v43 : Ref sig .tc := ⟨.hbm, 43, rfl⟩
abbrev main_v44 : Ref sig .tc := ⟨.hbm, 44, rfl⟩
abbrev main_v46 : Ref sig .tc := ⟨.hbm, 45, rfl⟩
abbrev main_v47 : Ref sig .tc := ⟨.hbm, 46, rfl⟩
abbrev main_v48 : Ref sig .tc := ⟨.hbm, 47, rfl⟩
abbrev main_v49 : Ref sig .tc := ⟨.hbm, 48, rfl⟩
abbrev main_v51 : Ref sig .tc := ⟨.hbm, 49, rfl⟩
abbrev main_v52 : Ref sig .tc := ⟨.hbm, 50, rfl⟩
abbrev main_v53 : Ref sig .tc := ⟨.hbm, 51, rfl⟩
abbrev main_v54 : Ref sig .tc := ⟨.hbm, 52, rfl⟩
abbrev main_v56 : Ref sig .tc := ⟨.hbm, 53, rfl⟩
abbrev main_v57 : Ref sig .tc := ⟨.hbm, 54, rfl⟩
abbrev main_v58 : Ref sig .tc := ⟨.hbm, 55, rfl⟩
abbrev main_v59 : Ref sig .tc := ⟨.hbm, 56, rfl⟩
abbrev main_v61 : Ref sig .tc := ⟨.hbm, 57, rfl⟩
abbrev main_v62 : Ref sig .tc := ⟨.hbm, 58, rfl⟩
abbrev main_v63 : Ref sig .tc := ⟨.hbm, 59, rfl⟩
abbrev main_v64 : Ref sig .tc := ⟨.hbm, 60, rfl⟩
abbrev main_v66 : Ref sig .tc := ⟨.hbm, 61, rfl⟩
abbrev main_v67 : Ref sig .tc := ⟨.hbm, 62, rfl⟩
abbrev main_v68 : Ref sig .tc := ⟨.hbm, 63, rfl⟩
abbrev main_v69 : Ref sig .tc := ⟨.hbm, 64, rfl⟩
abbrev main_v71 : Ref sig .tc := ⟨.hbm, 65, rfl⟩
abbrev main_v72 : Ref sig .tc := ⟨.hbm, 66, rfl⟩
abbrev main_v73 : Ref sig .tc := ⟨.hbm, 67, rfl⟩
abbrev main_v74 : Ref sig .tc := ⟨.hbm, 68, rfl⟩
abbrev main_v76 : Ref sig .tc := ⟨.hbm, 69, rfl⟩
abbrev main_v77 : Ref sig .tc := ⟨.hbm, 70, rfl⟩
abbrev main_v78 : Ref sig .tc := ⟨.hbm, 71, rfl⟩
abbrev main_v79 : Ref sig .tc := ⟨.hbm, 72, rfl⟩
abbrev main_v81 : Ref sig .tc := ⟨.hbm, 73, rfl⟩
abbrev main_v82 : Ref sig .tc := ⟨.hbm, 74, rfl⟩
abbrev main_v83 : Ref sig .tc := ⟨.hbm, 75, rfl⟩
abbrev main_v84 : Ref sig .tc := ⟨.hbm, 76, rfl⟩
abbrev main_v86 : Ref sig .tc := ⟨.hbm, 77, rfl⟩
abbrev main_v87 : Ref sig .tc := ⟨.hbm, 78, rfl⟩
abbrev main_v88 : Ref sig .tc := ⟨.hbm, 79, rfl⟩
abbrev main_cst : Ref sig .tc := ⟨.hbm, 80, rfl⟩
abbrev main_v89 : Ref sig .tc := ⟨.hbm, 81, rfl⟩
abbrev main_v90 : Ref sig .tc := ⟨.hbm, 82, rfl⟩
abbrev main_v91 : Ref sig .tc := ⟨.hbm, 83, rfl⟩
abbrev main_call0_cst : Ref sig .tc := ⟨.hbm, 84, rfl⟩
abbrev main_call0_v0 : Ref sig .tc := ⟨.hbm, 85, rfl⟩
abbrev main_v92 : Ref sig .tc := ⟨.hbm, 86, rfl⟩
abbrev main_v10 : Ref sig .tc := ⟨.smem, 0, rfl⟩
abbrev main_v15 : Ref sig .tc := ⟨.smem, 1, rfl⟩
abbrev main_v20 : Ref sig .tc := ⟨.smem, 2, rfl⟩
abbrev main_v25 : Ref sig .tc := ⟨.smem, 3, rfl⟩
abbrev main_v30 : Ref sig .tc := ⟨.smem, 4, rfl⟩
abbrev main_v35 : Ref sig .tc := ⟨.smem, 5, rfl⟩
abbrev main_v40 : Ref sig .tc := ⟨.smem, 6, rfl⟩
abbrev main_v45 : Ref sig .tc := ⟨.smem, 7, rfl⟩
abbrev main_v50 : Ref sig .tc := ⟨.smem, 8, rfl⟩
abbrev main_v55 : Ref sig .tc := ⟨.smem, 9, rfl⟩
abbrev main_v60 : Ref sig .tc := ⟨.smem, 10, rfl⟩
abbrev main_v65 : Ref sig .tc := ⟨.smem, 11, rfl⟩
abbrev main_v70 : Ref sig .tc := ⟨.smem, 12, rfl⟩
abbrev main_v75 : Ref sig .tc := ⟨.smem, 13, rfl⟩
abbrev main_v80 : Ref sig .tc := ⟨.smem, 14, rfl⟩
abbrev main_v85 : Ref sig .tc := ⟨.smem, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg4_0 : Ref sig .tc := ⟨.vmem, 68, rfl⟩
abbrev cc8_stg4_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg4_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg1_1 : Ref sig .tc := ⟨.vmem, 89, rfl⟩
abbrev cc11_stg2_0 : Ref sig .tc := ⟨.vmem, 90, rfl⟩
abbrev cc11_stg3_0 : Ref sig .tc := ⟨.vmem, 91, rfl⟩
abbrev cc11_stg4_0 : Ref sig .tc := ⟨.vmem, 92, rfl⟩
abbrev cc11_stg4_1 : Ref sig .tc := ⟨.vmem, 93, rfl⟩
abbrev cc12_stg0_0 : Ref sig .tc := ⟨.vmem, 94, rfl⟩
abbrev cc12_stg0_1 : Ref sig .tc := ⟨.vmem, 95, rfl⟩
abbrev cc12_stg1_0 : Ref sig .tc := ⟨.vmem, 96, rfl⟩
abbrev cc12_stg1_1 : Ref sig .tc := ⟨.vmem, 97, rfl⟩
abbrev cc12_stg2_0 : Ref sig .tc := ⟨.vmem, 98, rfl⟩
abbrev cc12_stg3_0 : Ref sig .tc := ⟨.vmem, 99, rfl⟩
abbrev cc12_stg4_0 : Ref sig .tc := ⟨.vmem, 100, rfl⟩
abbrev cc12_stg4_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg1_1 : Ref sig .tc := ⟨.vmem, 105, rfl⟩
abbrev cc13_stg2_0 : Ref sig .tc := ⟨.vmem, 106, rfl⟩
abbrev cc13_stg3_0 : Ref sig .tc := ⟨.vmem, 107, rfl⟩
abbrev cc13_stg4_0 : Ref sig .tc := ⟨.vmem, 108, rfl⟩
abbrev cc13_stg4_1 : Ref sig .tc := ⟨.vmem, 109, rfl⟩
abbrev cc14_stg0_0 : Ref sig .tc := ⟨.vmem, 110, rfl⟩
abbrev cc14_stg0_1 : Ref sig .tc := ⟨.vmem, 111, rfl⟩
abbrev cc14_stg1_0 : Ref sig .tc := ⟨.vmem, 112, rfl⟩
abbrev cc14_stg1_1 : Ref sig .tc := ⟨.vmem, 113, rfl⟩
abbrev cc14_stg2_0 : Ref sig .tc := ⟨.vmem, 114, rfl⟩
abbrev cc14_stg3_0 : Ref sig .tc := ⟨.vmem, 115, rfl⟩
abbrev cc14_stg4_0 : Ref sig .tc := ⟨.vmem, 116, rfl⟩
abbrev cc14_stg4_1 : Ref sig .tc := ⟨.vmem, 117, rfl⟩
abbrev cc15_stg0_0 : Ref sig .tc := ⟨.vmem, 118, rfl⟩
abbrev cc15_stg0_1 : Ref sig .tc := ⟨.vmem, 119, rfl⟩
abbrev cc15_stg1_0 : Ref sig .tc := ⟨.vmem, 120, rfl⟩
abbrev cc15_stg1_1 : Ref sig .tc := ⟨.vmem, 121, rfl⟩
abbrev cc15_stg2_0 : Ref sig .tc := ⟨.vmem, 122, rfl⟩
abbrev cc15_stg3_0 : Ref sig .tc := ⟨.vmem, 123, rfl⟩
abbrev cc15_stg4_0 : Ref sig .tc := ⟨.vmem, 124, rfl⟩
abbrev cc15_stg4_1 : Ref sig .tc := ⟨.vmem, 125, rfl⟩
abbrev cc16_stg0_0 : Ref sig .tc := ⟨.vmem, 126, rfl⟩
abbrev cc16_stg0_1 : Ref sig .tc := ⟨.vmem, 127, rfl⟩
abbrev cc16_stg1_0 : Ref sig .tc := ⟨.vmem, 128, rfl⟩
abbrev cc16_stg1_1 : Ref sig .tc := ⟨.vmem, 129, rfl⟩
abbrev cc16_stg2_0 : Ref sig .tc := ⟨.vmem, 130, rfl⟩
abbrev cc16_stg3_0 : Ref sig .tc := ⟨.vmem, 131, rfl⟩
abbrev cc16_stg4_0 : Ref sig .tc := ⟨.vmem, 132, rfl⟩
abbrev cc16_stg4_1 : Ref sig .tc := ⟨.vmem, 133, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem4_1 : DmaSem sig := 61
abbrev cc8_sem0_0 : DmaSem sig := 62
abbrev cc8_sem0_1 : DmaSem sig := 63
abbrev cc8_sem1_0 : DmaSem sig := 64
abbrev cc8_sem1_1 : DmaSem sig := 65
abbrev cc8_sem2_0 : DmaSem sig := 66
abbrev cc8_sem3_0 : DmaSem sig := 67
abbrev cc8_sem4_0 : DmaSem sig := 68
abbrev cc8_sem4_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem4_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem3_0 : DmaSem sig := 83
abbrev cc10_sem4_0 : DmaSem sig := 84
abbrev cc10_sem4_1 : DmaSem sig := 85
abbrev cc11_sem0_0 : DmaSem sig := 86
abbrev cc11_sem0_1 : DmaSem sig := 87
abbrev cc11_sem1_0 : DmaSem sig := 88
abbrev cc11_sem1_1 : DmaSem sig := 89
abbrev cc11_sem2_0 : DmaSem sig := 90
abbrev cc11_sem3_0 : DmaSem sig := 91
abbrev cc11_sem4_0 : DmaSem sig := 92
abbrev cc11_sem4_1 : DmaSem sig := 93
abbrev cc12_sem0_0 : DmaSem sig := 94
abbrev cc12_sem0_1 : DmaSem sig := 95
abbrev cc12_sem1_0 : DmaSem sig := 96
abbrev cc12_sem1_1 : DmaSem sig := 97
abbrev cc12_sem2_0 : DmaSem sig := 98
abbrev cc12_sem3_0 : DmaSem sig := 99
abbrev cc12_sem4_0 : DmaSem sig := 100
abbrev cc12_sem4_1 : DmaSem sig := 101
abbrev cc13_sem0_0 : DmaSem sig := 102
abbrev cc13_sem0_1 : DmaSem sig := 103
abbrev cc13_sem1_0 : DmaSem sig := 104
abbrev cc13_sem1_1 : DmaSem sig := 105
abbrev cc13_sem2_0 : DmaSem sig := 106
abbrev cc13_sem3_0 : DmaSem sig := 107
abbrev cc13_sem4_0 : DmaSem sig := 108
abbrev cc13_sem4_1 : DmaSem sig := 109
abbrev cc14_sem0_0 : DmaSem sig := 110
abbrev cc14_sem0_1 : DmaSem sig := 111
abbrev cc14_sem1_0 : DmaSem sig := 112
abbrev cc14_sem1_1 : DmaSem sig := 113
abbrev cc14_sem2_0 : DmaSem sig := 114
abbrev cc14_sem3_0 : DmaSem sig := 115
abbrev cc14_sem4_0 : DmaSem sig := 116
abbrev cc14_sem4_1 : DmaSem sig := 117
abbrev cc15_sem0_0 : DmaSem sig := 118
abbrev cc15_sem0_1 : DmaSem sig := 119
abbrev cc15_sem1_0 : DmaSem sig := 120
abbrev cc15_sem1_1 : DmaSem sig := 121
abbrev cc15_sem2_0 : DmaSem sig := 122
abbrev cc15_sem3_0 : DmaSem sig := 123
abbrev cc15_sem4_0 : DmaSem sig := 124
abbrev cc15_sem4_1 : DmaSem sig := 125
abbrev cc16_sem0_0 : DmaSem sig := 126
abbrev cc16_sem0_1 : DmaSem sig := 127
abbrev cc16_sem1_0 : DmaSem sig := 128
abbrev cc16_sem1_1 : DmaSem sig := 129
abbrev cc16_sem2_0 : DmaSem sig := 130
abbrev cc16_sem3_0 : DmaSem sig := 131
abbrev cc16_sem4_0 : DmaSem sig := 132
abbrev cc16_sem4_1 : DmaSem sig := 133

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50000], ![false]⟩

abbrev pre1 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S50000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50000], ![false]⟩

abbrev pre2 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S50000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x6 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S6x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50000], ![false]⟩

abbrev pre3 : Pipeline.Prefetch sig := ⟨1, ![main_v20.idx], fun | 0 => main_v20.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S50000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x6 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S6x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50000], ![false]⟩

abbrev pre4 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S50000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x6 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S6x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x1x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50000], ![false]⟩

abbrev pre5 : Pipeline.Prefetch sig := ⟨1, ![main_v30.idx], fun | 0 => main_v30.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S50000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x6 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S6x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x1x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50000], ![false]⟩

abbrev pre6 : Pipeline.Prefetch sig := ⟨1, ![main_v35.idx], fun | 0 => main_v35.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S50000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x6 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S6x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x1x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50000], ![false]⟩

abbrev pre7 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S50000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x6 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S6x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x1x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50000], ![false]⟩

abbrev pre8 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S50000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x6 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S6x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x1x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![50000], ![false]⟩

abbrev pre9 : Pipeline.Prefetch sig := ⟨1, ![main_v50.idx], fun | 0 => main_v50.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S50000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x6 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S6x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x1x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![50000], ![false]⟩

abbrev pre10 : Pipeline.Prefetch sig := ⟨1, ![main_v55.idx], fun | 0 => main_v55.names | ⟨_ + 1, h⟩ => absurd h (Nat.not_lt.2 (Nat.le_add_left _ _)), fun | 0 => rfl | ⟨_ + 1, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S50000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x6 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S6x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S1x1x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![50000], ![false]⟩

abbrev pre11 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S50000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x1x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x6 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S6x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1x1x128 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![50000], ![false]⟩

abbrev pre12 : Pipeline.Prefetch sig := ⟨1, ![main_v65.idx], fun | 0 => main_v65.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S50000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x1x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x6 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S6x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1x1x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![50000], ![false]⟩

abbrev pre13 : Pipeline.Prefetch sig := ⟨1, ![main_v70.idx], fun | 0 => main_v70.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S50000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x1x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x6 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S6x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S1x1x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![50000], ![false]⟩

abbrev pre14 : Pipeline.Prefetch sig := ⟨1, ![main_v75.idx], fun | 0 => main_v75.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S50000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage14_0 : Fin 2 → Memref sig .tc .vmem S1x1x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x6 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S6x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S1x1x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![50000], ![false]⟩

abbrev pre15 : Pipeline.Prefetch sig := ⟨1, ![main_v80.idx], fun | 0 => main_v80.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S50000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x1x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x6 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S6x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S1x1x128 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![50000], ![false]⟩

abbrev pre16 : Pipeline.Prefetch sig := ⟨1, ![main_v85.idx], fun | 0 => main_v85.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 1 → Nat :=
  let arg0 : BitVec 32 := BitVec.ofNat 32 (i 0).val
  let v0 : Index := Scalar.indexCast arg0
  ![v0.toNat]
def cc16_transform_0 (k16_off1_inb : ∀ i : grid16.Coords, ∀ a, (k16_off1 i) a + S1.size a ≤ S50000.size a) (numel1_S1 : S1.numel = 1) (pf : pre16.Contents (Elt F)) (i : grid16.Coords) : Fin 3 → Nat :=
  let arg0 : BitVec 32 := BitVec.ofNat 32 (i 0).val
  let v0 : Index := Scalar.indexCast arg0
  let v1 : BitVec 32 := pf.at 0 (Rect.unit (s := S50000) ![v0.toNat] S1.size (k16_off1_inb i)) numel1_S1
  let c0_i32 : BitVec 32 := 0#32
  let c0_i32_0 : BitVec 32 := 0#32
  let c0_i32_1 : BitVec 32 := 0#32
  ![v1.toNat, c0_i32.toNat, c0_i32_0.toNat]

def cc16_transform_1 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x1x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S1x1x6 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S6x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 2 → Memref sig .tc .vmem S1x1x128 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S50000x1x128 : S50000x128.ShapeCasts S50000x1x128
  slices_S800000x2_S800000x1_0_0 : S800000x2.Slices ![0, 0] S800000x1
  shapeCasts_S800000x1_S800000 : S800000x1.ShapeCasts S800000
  slices_S800000x2_S800000x1_0_1 : S800000x2.Slices ![0, 1] S800000x1
  slices_S800000x6_S50000x6_0_0 : S800000x6.Slices ![0, 0] S50000x6
  shapeCasts_S50000x6_S50000x1x6 : S50000x6.ShapeCasts S50000x1x6
  slices_S800000_S50000_0 : S800000.Slices ![0] S50000
  numel1_S1 : S1.numel = 1
  inb_S1x1x6_S1x1x6_0_0_0 : ∀ a, (![0, 0, 0] : Fin 3 → Nat) a + S1x1x6.size a ≤ S1x1x6.size a
  h_S1x1x6 : 0 < S1x1x6.numel
  shapeCasts_S1x1x6_S1x6 : S1x1x6.ShapeCasts S1x6
  inb_S6x128_S6x128_0_0 : ∀ a, (![0, 0] : Fin 2 → Nat) a + S6x128.size a ≤ S6x128.size a
  h_S6x128 : 0 < S6x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S50000x1x128_S50000x128 : S50000x1x128.ShapeCasts S50000x128
  slices_S800000x6_S50000x6_50000_0 : S800000x6.Slices ![50000, 0] S50000x6
  slices_S800000_S50000_50000 : S800000.Slices ![50000] S50000
  slices_S800000x6_S50000x6_100000_0 : S800000x6.Slices ![100000, 0] S50000x6
  slices_S800000_S50000_100000 : S800000.Slices ![100000] S50000
  slices_S800000x6_S50000x6_150000_0 : S800000x6.Slices ![150000, 0] S50000x6
  slices_S800000_S50000_150000 : S800000.Slices ![150000] S50000
  slices_S800000x6_S50000x6_200000_0 : S800000x6.Slices ![200000, 0] S50000x6
  slices_S800000_S50000_200000 : S800000.Slices ![200000] S50000
  slices_S800000x6_S50000x6_250000_0 : S800000x6.Slices ![250000, 0] S50000x6
  slices_S800000_S50000_250000 : S800000.Slices ![250000] S50000
  slices_S800000x6_S50000x6_300000_0 : S800000x6.Slices ![300000, 0] S50000x6
  slices_S800000_S50000_300000 : S800000.Slices ![300000] S50000
  slices_S800000x6_S50000x6_350000_0 : S800000x6.Slices ![350000, 0] S50000x6
  slices_S800000_S50000_350000 : S800000.Slices ![350000] S50000
  slices_S800000x6_S50000x6_400000_0 : S800000x6.Slices ![400000, 0] S50000x6
  slices_S800000_S50000_400000 : S800000.Slices ![400000] S50000
  slices_S800000x6_S50000x6_450000_0 : S800000x6.Slices ![450000, 0] S50000x6
  slices_S800000_S50000_450000 : S800000.Slices ![450000] S50000
  slices_S800000x6_S50000x6_500000_0 : S800000x6.Slices ![500000, 0] S50000x6
  slices_S800000_S50000_500000 : S800000.Slices ![500000] S50000
  slices_S800000x6_S50000x6_550000_0 : S800000x6.Slices ![550000, 0] S50000x6
  slices_S800000_S50000_550000 : S800000.Slices ![550000] S50000
  slices_S800000x6_S50000x6_600000_0 : S800000x6.Slices ![600000, 0] S50000x6
  slices_S800000_S50000_600000 : S800000.Slices ![600000] S50000
  slices_S800000x6_S50000x6_650000_0 : S800000x6.Slices ![650000, 0] S50000x6
  slices_S800000_S50000_650000 : S800000.Slices ![650000] S50000
  slices_S800000x6_S50000x6_700000_0 : S800000x6.Slices ![700000, 0] S50000x6
  slices_S800000_S50000_700000 : S800000.Slices ![700000] S50000
  slices_S800000x6_S50000x6_750000_0 : S800000x6.Slices ![750000, 0] S50000x6
  slices_S800000_S50000_750000 : S800000.Slices ![750000] S50000
  concatenates_S50000x128_S50000x128_S50000x128_S50000x128_S50000x128_S50000x128_S50000x128_S50000x128_S50000x128_S50000x128_S50000x128_S50000x128_S50000x128_S50000x128_S50000x128_S50000x128_S800000x128_d0 : Shape.Concatenates [S50000x128, S50000x128, S50000x128, S50000x128, S50000x128, S50000x128, S50000x128, S50000x128, S50000x128, S50000x128, S50000x128, S50000x128, S50000x128, S50000x128, S50000x128, S50000x128] S800000x128 0
  bcast_S_S50000x128 : S_.BroadcastsInDim S50000x128 (![] : Fin 0 → Fin S50000x128.rank)
  bcast_S800000_S800000x1_0 : S800000.BroadcastsInDim S800000x1 (![0] : Fin 1 → Fin S800000x1.rank)
  dot_S5000x128_S128x128_S5000x128_1_0_0_1_n_n_wf : DotDims.WF S5000x128 S128x128 S5000x128 [1] [0] [0] [1] [] []
  dot_S1x6_S6x128_S1x128_1_0_0_1_n_n_wf : DotDims.WF S1x6 S6x128 S1x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  k1_off1_inb : ∀ i : grid1.Coords, ∀ a, (k1_off1 i) a + S1.size a ≤ S50000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x6.size a ≤ S50000x1x6.size a
  hwx1_1 : ∀ i : grid1.Coords, EltTy.bits .f32 = 32 ∨ (Rect.block (s := S50000x1x6) S1x1x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x128.size a ≤ S6x128.size a
  hwx1_2 : ∀ i : grid1.Coords, EltTy.bits .f32 = 32 ∨ (Rect.block (s := S6x128) S6x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S50000x1x128.size a
  hwx1_4 : ∀ i : grid1.Coords, EltTy.bits .f32 = 32 ∨ (Rect.block (s := S50000x1x128) S1x1x128.size (cc1_transform_4 i) (hinb1_4 i)).WholeWords (EltTy.packing .f32)
  hrank2 : 0 < grid2.rank
  k2_off1_inb : ∀ i : grid2.Coords, ∀ a, (k2_off1 i) a + S1.size a ≤ S50000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x6.size a ≤ S50000x1x6.size a
  hwx2_1 : ∀ i : grid2.Coords, EltTy.bits .f32 = 32 ∨ (Rect.block (s := S50000x1x6) S1x1x6.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S6x128.size a ≤ S6x128.size a
  hwx2_2 : ∀ i : grid2.Coords, EltTy.bits .f32 = 32 ∨ (Rect.block (s := S6x128) S6x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S50000x1x128.size a
  hwx2_4 : ∀ i : grid2.Coords, EltTy.bits .f32 = 32 ∨ (Rect.block (s := S50000x1x128) S1x1x128.size (cc2_transform_4 i) (hinb2_4 i)).WholeWords (EltTy.packing .f32)
  hrank3 : 0 < grid3.rank
  k3_off1_inb : ∀ i : grid3.Coords, ∀ a, (k3_off1 i) a + S1.size a ≤ S50000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x6.size a ≤ S50000x1x6.size a
  hwx3_1 : ∀ i : grid3.Coords, EltTy.bits .f32 = 32 ∨ (Rect.block (s := S50000x1x6) S1x1x6.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S6x128.size a ≤ S6x128.size a
  hwx3_2 : ∀ i : grid3.Coords, EltTy.bits .f32 = 32 ∨ (Rect.block (s := S6x128) S6x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x128.size a ≤ S50000x1x128.size a
  hwx3_4 : ∀ i : grid3.Coords, EltTy.bits .f32 = 32 ∨ (Rect.block (s := S50000x1x128) S1x1x128.size (cc3_transform_4 i) (hinb3_4 i)).WholeWords (EltTy.packing .f32)
  hrank4 : 0 < grid4.rank
  k4_off1_inb : ∀ i : grid4.Coords, ∀ a, (k4_off1 i) a + S1.size a ≤ S50000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x6.size a ≤ S50000x1x6.size a
  hwx4_1 : ∀ i : grid4.Coords, EltTy.bits .f32 = 32 ∨ (Rect.block (s := S50000x1x6) S1x1x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S6x128.size a ≤ S6x128.size a
  hwx4_2 : ∀ i : grid4.Coords, EltTy.bits .f32 = 32 ∨ (Rect.block (s := S6x128) S6x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x1x128.size a ≤ S50000x1x128.size a
  hwx4_4 : ∀ i : grid4.Coords, EltTy.bits .f32 = 32 ∨ (Rect.block (s := S50000x1x128) S1x1x128.size (cc4_transform_4 i) (hinb4_4 i)).WholeWords (EltTy.packing .f32)
  hrank5 : 0 < grid5.rank
  k5_off1_inb : ∀ i : grid5.Coords, ∀ a, (k5_off1 i) a + S1.size a ≤ S50000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x6.size a ≤ S50000x1x6.size a
  hwx5_1 : ∀ i : grid5.Coords, EltTy.bits .f32 = 32 ∨ (Rect.block (s := S50000x1x6) S1x1x6.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S6x128.size a ≤ S6x128.size a
  hwx5_2 : ∀ i : grid5.Coords, EltTy.bits .f32 = 32 ∨ (Rect.block (s := S6x128) S6x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1x128.size a ≤ S50000x1x128.size a
  hwx5_4 : ∀ i : grid5.Coords, EltTy.bits .f32 = 32 ∨ (Rect.block (s := S50000x1x128) S1x1x128.size (cc5_transform_4 i) (hinb5_4 i)).WholeWords (EltTy.packing .f32)
  hrank6 : 0 < grid6.rank
  k6_off1_inb : ∀ i : grid6.Coords, ∀ a, (k6_off1 i) a + S1.size a ≤ S50000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x6.size a ≤ S50000x1x6.size a
  hwx6_1 : ∀ i : grid6.Coords, EltTy.bits .f32 = 32 ∨ (Rect.block (s := S50000x1x6) S1x1x6.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S6x128.size a ≤ S6x128.size a
  hwx6_2 : ∀ i : grid6.Coords, EltTy.bits .f32 = 32 ∨ (Rect.block (s := S6x128) S6x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x1x128.size a ≤ S50000x1x128.size a
  hwx6_4 : ∀ i : grid6.Coords, EltTy.bits .f32 = 32 ∨ (Rect.block (s := S50000x1x128) S1x1x128.size (cc6_transform_4 i) (hinb6_4 i)).WholeWords (EltTy.packing .f32)
  hrank7 : 0 < grid7.rank
  k7_off1_inb : ∀ i : grid7.Coords, ∀ a, (k7_off1 i) a + S1.size a ≤ S50000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x1x6.size a ≤ S50000x1x6.size a
  hwx7_1 : ∀ i : grid7.Coords, EltTy.bits .f32 = 32 ∨ (Rect.block (s := S50000x1x6) S1x1x6.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S6x128.size a ≤ S6x128.size a
  hwx7_2 : ∀ i : grid7.Coords, EltTy.bits .f32 = 32 ∨ (Rect.block (s := S6x128) S6x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x1x128.size a ≤ S50000x1x128.size a
  hwx7_4 : ∀ i : grid7.Coords, EltTy.bits .f32 = 32 ∨ (Rect.block (s := S50000x1x128) S1x1x128.size (cc7_transform_4 i) (hinb7_4 i)).WholeWords (EltTy.packing .f32)
  hrank8 : 0 < grid8.rank
  k8_off1_inb : ∀ i : grid8.Coords, ∀ a, (k8_off1 i) a + S1.size a ≤ S50000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1x6.size a ≤ S50000x1x6.size a
  hwx8_1 : ∀ i : grid8.Coords, EltTy.bits .f32 = 32 ∨ (Rect.block (s := S50000x1x6) S1x1x6.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S6x128.size a ≤ S6x128.size a
  hwx8_2 : ∀ i : grid8.Coords, EltTy.bits .f32 = 32 ∨ (Rect.block (s := S6x128) S6x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x1x128.size a ≤ S50000x1x128.size a
  hwx8_4 : ∀ i : grid8.Coords, EltTy.bits .f32 = 32 ∨ (Rect.block (s := S50000x1x128) S1x1x128.size (cc8_transform_4 i) (hinb8_4 i)).WholeWords (EltTy.packing .f32)
  hrank9 : 0 < grid9.rank
  k9_off1_inb : ∀ i : grid9.Coords, ∀ a, (k9_off1 i) a + S1.size a ≤ S50000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x1x6.size a ≤ S50000x1x6.size a
  hwx9_1 : ∀ i : grid9.Coords, EltTy.bits .f32 = 32 ∨ (Rect.block (s := S50000x1x6) S1x1x6.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S6x128.size a ≤ S6x128.size a
  hwx9_2 : ∀ i : grid9.Coords, EltTy.bits .f32 = 32 ∨ (Rect.block (s := S6x128) S6x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x1x128.size a ≤ S50000x1x128.size a
  hwx9_4 : ∀ i : grid9.Coords, EltTy.bits .f32 = 32 ∨ (Rect.block (s := S50000x1x128) S1x1x128.size (cc9_transform_4 i) (hinb9_4 i)).WholeWords (EltTy.packing .f32)
  hrank10 : 0 < grid10.rank
  k10_off1_inb : ∀ i : grid10.Coords, ∀ a, (k10_off1 i) a + S1.size a ≤ S50000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1x6.size a ≤ S50000x1x6.size a
  hwx10_1 : ∀ i : grid10.Coords, EltTy.bits .f32 = 32 ∨ (Rect.block (s := S50000x1x6) S1x1x6.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S6x128.size a ≤ S6x128.size a
  hwx10_2 : ∀ i : grid10.Coords, EltTy.bits .f32 = 32 ∨ (Rect.block (s := S6x128) S6x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1x1x128.size a ≤ S50000x1x128.size a
  hwx10_4 : ∀ i : grid10.Coords, EltTy.bits .f32 = 32 ∨ (Rect.block (s := S50000x1x128) S1x1x128.size (cc10_transform_4 i) (hinb10_4 i)).WholeWords (EltTy.packing .f32)
  hrank11 : 0 < grid11.rank
  k11_off1_inb : ∀ i : grid11.Coords, ∀ a, (k11_off1 i) a + S1.size a ≤ S50000.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x1x6.size a ≤ S50000x1x6.size a
  hwx11_1 : ∀ i : grid11.Coords, EltTy.bits .f32 = 32 ∨ (Rect.block (s := S50000x1x6) S1x1x6.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S6x128.size a ≤ S6x128.size a
  hwx11_2 : ∀ i : grid11.Coords, EltTy.bits .f32 = 32 ∨ (Rect.block (s := S6x128) S6x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1x1x128.size a ≤ S50000x1x128.size a
  hwx11_4 : ∀ i : grid11.Coords, EltTy.bits .f32 = 32 ∨ (Rect.block (s := S50000x1x128) S1x1x128.size (cc11_transform_4 i) (hinb11_4 i)).WholeWords (EltTy.packing .f32)
  hrank12 : 0 < grid12.rank
  k12_off1_inb : ∀ i : grid12.Coords, ∀ a, (k12_off1 i) a + S1.size a ≤ S50000.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1x1x6.size a ≤ S50000x1x6.size a
  hwx12_1 : ∀ i : grid12.Coords, EltTy.bits .f32 = 32 ∨ (Rect.block (s := S50000x1x6) S1x1x6.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S6x128.size a ≤ S6x128.size a
  hwx12_2 : ∀ i : grid12.Coords, EltTy.bits .f32 = 32 ∨ (Rect.block (s := S6x128) S6x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1x1x128.size a ≤ S50000x1x128.size a
  hwx12_4 : ∀ i : grid12.Coords, EltTy.bits .f32 = 32 ∨ (Rect.block (s := S50000x1x128) S1x1x128.size (cc12_transform_4 i) (hinb12_4 i)).WholeWords (EltTy.packing .f32)
  hrank13 : 0 < grid13.rank
  k13_off1_inb : ∀ i : grid13.Coords, ∀ a, (k13_off1 i) a + S1.size a ≤ S50000.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1x1x6.size a ≤ S50000x1x6.size a
  hwx13_1 : ∀ i : grid13.Coords, EltTy.bits .f32 = 32 ∨ (Rect.block (s := S50000x1x6) S1x1x6.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S6x128.size a ≤ S6x128.size a
  hwx13_2 : ∀ i : grid13.Coords, EltTy.bits .f32 = 32 ∨ (Rect.block (s := S6x128) S6x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S1x1x128.size a ≤ S50000x1x128.size a
  hwx13_4 : ∀ i : grid13.Coords, EltTy.bits .f32 = 32 ∨ (Rect.block (s := S50000x1x128) S1x1x128.size (cc13_transform_4 i) (hinb13_4 i)).WholeWords (EltTy.packing .f32)
  hrank14 : 0 < grid14.rank
  k14_off1_inb : ∀ i : grid14.Coords, ∀ a, (k14_off1 i) a + S1.size a ≤ S50000.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1x1x6.size a ≤ S50000x1x6.size a
  hwx14_1 : ∀ i : grid14.Coords, EltTy.bits .f32 = 32 ∨ (Rect.block (s := S50000x1x6) S1x1x6.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S6x128.size a ≤ S6x128.size a
  hwx14_2 : ∀ i : grid14.Coords, EltTy.bits .f32 = 32 ∨ (Rect.block (s := S6x128) S6x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S1x1x128.size a ≤ S50000x1x128.size a
  hwx14_4 : ∀ i : grid14.Coords, EltTy.bits .f32 = 32 ∨ (Rect.block (s := S50000x1x128) S1x1x128.size (cc14_transform_4 i) (hinb14_4 i)).WholeWords (EltTy.packing .f32)
  hrank15 : 0 < grid15.rank
  k15_off1_inb : ∀ i : grid15.Coords, ∀ a, (k15_off1 i) a + S1.size a ≤ S50000.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1x1x6.size a ≤ S50000x1x6.size a
  hwx15_1 : ∀ i : grid15.Coords, EltTy.bits .f32 = 32 ∨ (Rect.block (s := S50000x1x6) S1x1x6.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S6x128.size a ≤ S6x128.size a
  hwx15_2 : ∀ i : grid15.Coords, EltTy.bits .f32 = 32 ∨ (Rect.block (s := S6x128) S6x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x128.size a ≤ S1x128.size a
  hwx15_3 : ∀ i : grid15.Coords, EltTy.bits .f32 = 32 ∨ (Rect.block (s := S1x128) S1x128.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S1x1x128.size a ≤ S50000x1x128.size a
  hwx15_4 : ∀ i : grid15.Coords, EltTy.bits .f32 = 32 ∨ (Rect.block (s := S50000x1x128) S1x1x128.size (cc15_transform_4 i) (hinb15_4 i)).WholeWords (EltTy.packing .f32)
  hrank16 : 0 < grid16.rank
  k16_off1_inb : ∀ i : grid16.Coords, ∀ a, (k16_off1 i) a + S1.size a ≤ S50000.size a
  hstage16_0 : ∀ j, (stage16_0 j).IsWhole
  nbuf16_0 : grid16.bufCount reads16_0 false = 2
  hreads16_0 : ∀ {F : FTy → Type} [FloatOps F] (pf : pre16.Contents (Elt F)) (i i' : grid16.Coords), (∀ a, reads16_0 a = true → i a = i' a) → cc16_transform_0 k16_off1_inb numel1_S1 pf i = cc16_transform_0 k16_off1_inb numel1_S1 pf i'
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1x1x6.size a ≤ S50000x1x6.size a
  hwx16_1 : ∀ i : grid16.Coords, EltTy.bits .f32 = 32 ∨ (Rect.block (s := S50000x1x6) S1x1x6.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S6x128.size a ≤ S6x128.size a
  hwx16_2 : ∀ i : grid16.Coords, EltTy.bits .f32 = 32 ∨ (Rect.block (s := S6x128) S6x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x128.size a ≤ S1x128.size a
  hwx16_3 : ∀ i : grid16.Coords, EltTy.bits .f32 = 32 ∨ (Rect.block (s := S1x128) S1x128.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S1x1x128.size a ≤ S50000x1x128.size a
  hwx16_4 : ∀ i : grid16.Coords, EltTy.bits .f32 = 32 ∨ (Rect.block (s := S50000x1x128) S1x1x128.size (cc16_transform_4 i) (hinb16_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x6_S6x128_S1x128_1_0_0_1_n_n : DotDims S1x6 S6x128 S1x128 where
  lhsContracting := [1]
  rhsContracting := [0]
  lhsNonContracting := [0]
  rhsNonContracting := [1]
  lhsBatch := []
  rhsBatch := []
  wf := dot_S1x6_S6x128_S1x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v2) S1x1x128.size reads1_0 false false 2 stage1_0 sem1_0 nbuf1_0 hstage1_0

abbrev spec1_1 : Pipeline.WinSpec sig grid1.rank :=
  Pipeline.WinSpec.ofSpec (Memref.whole main_v9) S1x1x6.size reads1_1 false false 2 stage1_1 sem1_1 nbuf1_1 hstage1_1

abbrev spec1_2 : Pipeline.WinSpec sig grid1.rank :=
  Pipeline.WinSpec.ofSpec (Memref.whole main_arg5) S6x128.size reads1_2 false true 1 stage1_2 sem1_2 nbuf1_2 hstage1_2

abbrev spec1_3 : Pipeline.WinSpec sig grid1.rank :=
  Pipeline.WinSpec.ofSpec (Memref.whole main_v7) S1x128.size reads1_3 false true 1 stage1_3 sem1_3 nbuf1_3 hstage1_3

abbrev spec1_4 : Pipeline.WinSpec sig grid1.rank :=
  Pipeline.WinSpec.ofSpec (Memref.whole main_v11) S1x1x128.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 k1_off1_inb numel1_S1 pf | 1 => cc1_transform_1 | 2 => cc1_transform_2 | 3 => cc1_transform_3 | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 | 3 => hreads1_3 | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x128.size a ≤ S50000x1x128.size a), EltTy.bits .f32 = 32 ∨ (Rect.block (s := S50000x1x128) S1x1x128.size (cc1_transform_0 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | 2 => hinb1_2 | 3 => hinb1_3 | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | 2 => hwx1_2 | 3 => hwx1_3 | 4 => hwx1_4 | ⟨_ + 5, h⟩ => absurd h (Nat.not_lt.2 (Nat.le_add_left _ _))
abbrev spec2_0 : Pipeline.WinSpec sig grid2.rank :=
  Pipeline.WinSpec.ofSpec (Memref.whole main_v2) S1x1x128.size reads2_0 false false 2 stage2_0 sem2_0 nbuf2_0 hstage2_0

abbrev spec2_1 : Pipeline.WinSpec sig grid2.rank :=
  Pipeline.WinSpec.ofSpec (Memref.whole main_v14) S1x1x6.size reads2_1 false false 2 stage2_1 sem2_1 nbuf2_1 hstage2_1

abbrev spec2_2 : Pipeline.WinSpec sig grid2.rank :=
  Pipeline.WinSpec.ofSpec (Memref.whole main_arg5) S6x128.size reads2_2 false true 1 stage2_2 sem2_2 nbuf2_2 hstage2_2

abbrev spec2_3 : Pipeline.WinSpec sig grid2.rank :=
  Pipeline.WinSpec.ofSpec (Memref.whole main_v7) S1x128.size reads2_3 false true 1 stage2_3 sem2_3 nbuf2_3 hstage2_3

abbrev spec2_4 : Pipeline.WinSpec sig grid2.rank :=
  Pipeline.WinSpec.ofSpec (Memref.whole main_v16) S1x1x128.size reads2_4 true false 2 stage2_4 sem2_4 nbuf2_4 hstage2_4

abbrev spec2 : Fin 5 → Pipeline.WinSpec sig grid2.rank := fun | 0 => spec2_0 | 1 => spec2_1 | 2 => spec2_2 | 3 => spec2_3 | 4 => spec2_4 | ⟨_ + 5, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | ⟨_ + 5, h⟩ => absurd h (Nat.not_lt.2 (Nat.le_add_left _ _))
abbrev ix2 (pf : pre2.Contents (Elt F)) : (w : Fin 5) → grid2.Coords → Fin (spec2 w).shape.rank → Nat := fun | 0 => cc2_transform_0 k2_off1_inb numel1_S1 pf | 1 => cc2_transform_1 | 2 => cc2_transform_2 | 3 => cc2_transform_3 | 4 => cc2_transform_4 | ⟨_ + 5, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | 2 => hreads2_2 | 3 => hreads2_3 | 4 => hreads2_4 | ⟨_ + 5, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x128.size a ≤ S50000x1x128.size a), EltTy.bits .f32 = 32 ∨ (Rect.block (s := S50000x1x128) S1x1x128.size (cc2_transform_0 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | 2 => hinb2_2 | 3 => hinb2_3 | 4 => hinb2_4 | ⟨_ + 5, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | 2 => hwx2_2 | 3 => hwx2_3 | 4 => hwx2_4 | ⟨_ + 5, h⟩ => absurd h (Nat.not_lt.2 (Nat.le_add_left _ _))
abbrev spec3_0 : Pipeline.WinSpec sig grid3.rank :=
  Pipeline.WinSpec.ofSpec (Memref.whole main_v2) S1x1x128.size reads3_0 false false 2 stage3_0 sem3_0 nbuf3_0 hstage3_0

abbrev spec3_1 : Pipeline.WinSpec sig grid3.rank :=
  Pipeline.WinSpec.ofSpec (Memref.whole main_v19) S1x1x6.size reads3_1 false false 2 stage3_1 sem3_1 nbuf3_1 hstage3_1

abbrev spec3_2 : Pipeline.WinSpec sig grid3.rank :=
  Pipeline.WinSpec.ofSpec (Memref.whole main_arg5) S6x128.size reads3_2 false true 1 stage3_2 sem3_2 nbuf3_2 hstage3_2

abbrev spec3_3 : Pipeline.WinSpec sig grid3.rank :=
  Pipeline.WinSpec.ofSpec (Memref.whole main_v7) S1x128.size reads3_3 false true 1 stage3_3 sem3_3 nbuf3_3 hstage3_3

abbrev spec3_4 : Pipeline.WinSpec sig grid3.rank :=
  Pipeline.WinSpec.ofSpec (Memref.whole main_v21) S1x1x128.size reads3_4 true false 2 stage3_4 sem3_4 nbuf3_4 hstage3_4

abbrev spec3 : Fin 5 → Pipeline.WinSpec sig grid3.rank := fun | 0 => spec3_0 | 1 => spec3_1 | 2 => spec3_2 | 3 => spec3_3 | 4 => spec3_4 | ⟨_ + 5, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | ⟨_ + 5, h⟩ => absurd h (Nat.not_lt.2 (Nat.le_add_left _ _))
abbrev ix3 (pf : pre3.Contents (Elt F)) : (w : Fin 5) → grid3.Coords → Fin (spec3 w).shape.rank → Nat := fun | 0 => cc3_transform_0 k3_off1_inb numel1_S1 pf | 1 => cc3_transform_1 | 2 => cc3_transform_2 | 3 => cc3_transform_3 | 4 => cc3_transform_4 | ⟨_ + 5, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | 2 => hreads3_2 | 3 => hreads3_3 | 4 => hreads3_4 | ⟨_ + 5, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x128.size a ≤ S50000x1x128.size a), EltTy.bits .f32 = 32 ∨ (Rect.block (s := S50000x1x128) S1x1x128.size (cc3_transform_0 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | 2 => hinb3_2 | 3 => hinb3_3 | 4 => hinb3_4 | ⟨_ + 5, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | 2 => hwx3_2 | 3 => hwx3_3 | 4 => hwx3_4 | ⟨_ + 5, h⟩ => absurd h (Nat.not_lt.2 (Nat.le_add_left _ _))
abbrev spec4_0 : Pipeline.WinSpec sig grid4.rank :=
  Pipeline.WinSpec.ofSpec (Memref.whole main_v2) S1x1x128.size reads4_0 false false 2 stage4_0 sem4_0 nbuf4_0 hstage4_0

abbrev spec4_1 : Pipeline.WinSpec sig grid4.rank :=
  Pipeline.WinSpec.ofSpec (Memref.whole main_v24) S1x1x6.size reads4_1 false false 2 stage4_1 sem4_1 nbuf4_1 hstage4_1

abbrev spec4_2 : Pipeline.WinSpec sig grid4.rank :=
  Pipeline.WinSpec.ofSpec (Memref.whole main_arg5) S6x128.size reads4_2 false true 1 stage4_2 sem4_2 nbuf4_2 hstage4_2

abbrev spec4_3 : Pipeline.WinSpec sig grid4.rank :=
  Pipeline.WinSpec.ofSpec (Memref.whole main_v7) S1x128.size reads4_3 false true 1 stage4_3 sem4_3 nbuf4_3 hstage4_3

abbrev spec4_4 : Pipeline.WinSpec sig grid4.rank :=
  Pipeline.WinSpec.ofSpec (Memref.whole main_v26) S1x1x128.size reads4_4 true false 2 stage4_4 sem4_4 nbuf4_4 hstage4_4

abbrev spec4 : Fin 5 → Pipeline.WinSpec sig grid4.rank := fun | 0 => spec4_0 | 1 => spec4_1 | 2 => spec4_2 | 3 => spec4_3 | 4 => spec4_4 | ⟨_ + 5, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | 4 => nbuf4_4 | ⟨_ + 5, h⟩ => absurd h (Nat.not_lt.2 (Nat.le_add_left _ _))
abbrev ix4 (pf : pre4.Contents (Elt F)) : (w : Fin 5) → grid4.Coords → Fin (spec4 w).shape.rank → Nat := fun | 0 => cc4_transform_0 k4_off1_inb numel1_S1 pf | 1 => cc4_transform_1 | 2 => cc4_transform_2 | 3 => cc4_transform_3 | 4 => cc4_transform_4 | ⟨_ + 5, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | 2 => hreads4_2 | 3 => hreads4_3 | 4 => hreads4_4 | ⟨_ + 5, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x128.size a ≤ S50000x1x128.size a), EltTy.bits .f32 = 32 ∨ (Rect.block (s := S50000x1x128) S1x1x128.size (cc4_transform_0 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | 2 => hinb4_2 | 3 => hinb4_3 | 4 => hinb4_4 | ⟨_ + 5, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | 2 => hwx4_2 | 3 => hwx4_3 | 4 => hwx4_4 | ⟨_ + 5, h⟩ => absurd h (Nat.not_lt.2 (Nat.le_add_left _ _))
abbrev spec5_0 : Pipeline.WinSpec sig grid5.rank :=
  Pipeline.WinSpec.ofSpec (Memref.whole main_v2) S1x1x128.size reads5_0 false false 2 stage5_0 sem5_0 nbuf5_0 hstage5_0

abbrev spec5_1 : Pipeline.WinSpec sig grid5.rank :=
  Pipeline.WinSpec.ofSpec (Memref.whole main_v29) S1x1x6.size reads5_1 false false 2 stage5_1 sem5_1 nbuf5_1 hstage5_1

abbrev spec5_2 : Pipeline.WinSpec sig grid5.rank :=
  Pipeline.WinSpec.ofSpec (Memref.whole main_arg5) S6x128.size reads5_2 false true 1 stage5_2 sem5_2 nbuf5_2 hstage5_2

abbrev spec5_3 : Pipeline.WinSpec sig grid5.rank :=
  Pipeline.WinSpec.ofSpec (Memref.whole main_v7) S1x128.size reads5_3 false true 1 stage5_3 sem5_3 nbuf5_3 hstage5_3

abbrev spec5_4 : Pipeline.WinSpec sig grid5.rank :=
  Pipeline.WinSpec.ofSpec (Memref.whole main_v31) S1x1x128.size reads5_4 true false 2 stage5_4 sem5_4 nbuf5_4 hstage5_4

abbrev spec5 : Fin 5 → Pipeline.WinSpec sig grid5.rank := fun | 0 => spec5_0 | 1 => spec5_1 | 2 => spec5_2 | 3 => spec5_3 | 4 => spec5_4 | ⟨_ + 5, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | 4 => nbuf5_4 | ⟨_ + 5, h⟩ => absurd h (Nat.not_lt.2 (Nat.le_add_left _ _))
abbrev ix5 (pf : pre5.Contents (Elt F)) : (w : Fin 5) → grid5.Coords → Fin (spec5 w).shape.rank → Nat := fun | 0 => cc5_transform_0 k5_off1_inb numel1_S1 pf | 1 => cc5_transform_1 | 2 => cc5_transform_2 | 3 => cc5_transform_3 | 4 => cc5_transform_4 | ⟨_ + 5, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | 2 => hreads5_2 | 3 => hreads5_3 | 4 => hreads5_4 | ⟨_ + 5, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x128.size a ≤ S50000x1x128.size a), EltTy.bits .f32 = 32 ∨ (Rect.block (s := S50000x1x128) S1x1x128.size (cc5_transform_0 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | 2 => hinb5_2 | 3 => hinb5_3 | 4 => hinb5_4 | ⟨_ + 5, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | 2 => hwx5_2 | 3 => hwx5_3 | 4 => hwx5_4 | ⟨_ + 5, h⟩ => absurd h (Nat.not_lt.2 (Nat.le_add_left _ _))
abbrev spec6_0 : Pipeline.WinSpec sig grid6.rank :=
  Pipeline.WinSpec.ofSpec (Memref.whole main_v2) S1x1x128.size reads6_0 false false 2 stage6_0 sem6_0 nbuf6_0 hstage6_0

abbrev spec6_1 : Pipeline.WinSpec sig grid6.rank :=
  Pipeline.WinSpec.ofSpec (Memref.whole main_v34) S1x1x6.size reads6_1 false false 2 stage6_1 sem6_1 nbuf6_1 hstage6_1

abbrev spec6_2 : Pipeline.WinSpec sig grid6.rank :=
  Pipeline.WinSpec.ofSpec (Memref.whole main_arg5) S6x128.size reads6_2 false true 1 stage6_2 sem6_2 nbuf6_2 hstage6_2

abbrev spec6_3 : Pipeline.WinSpec sig grid6.rank :=
  Pipeline.WinSpec.ofSpec (Memref.whole main_v7) S1x128.size reads6_3 false true 1 stage6_3 sem6_3 nbuf6_3 hstage6_3

abbrev spec6_4 : Pipeline.WinSpec sig grid6.rank :=
  Pipeline.WinSpec.ofSpec (Memref.whole main_v36) S1x1x128.size reads6_4 true false 2 stage6_4 sem6_4 nbuf6_4 hstage6_4

abbrev spec6 : Fin 5 → Pipeline.WinSpec sig grid6.rank := fun | 0 => spec6_0 | 1 => spec6_1 | 2 => spec6_2 | 3 => spec6_3 | 4 => spec6_4 | ⟨_ + 5, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | 3 => nbuf6_3 | 4 => nbuf6_4 | ⟨_ + 5, h⟩ => absurd h (Nat.not_lt.2 (Nat.le_add_left _ _))
abbrev ix6 (pf : pre6.Contents (Elt F)) : (w : Fin 5) → grid6.Coords → Fin (spec6 w).shape.rank → Nat := fun | 0 => cc6_transform_0 k6_off1_inb numel1_S1 pf | 1 => cc6_transform_1 | 2 => cc6_transform_2 | 3 => cc6_transform_3 | 4 => cc6_transform_4 | ⟨_ + 5, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 | 2 => hreads6_2 | 3 => hreads6_3 | 4 => hreads6_4 | ⟨_ + 5, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x128.size a ≤ S50000x1x128.size a), EltTy.bits .f32 = 32 ∨ (Rect.block (s := S50000x1x128) S1x1x128.size (cc6_transform_0 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok i).elim fun h _ => h a | 1 => hinb6_1 | 2 => hinb6_2 | 3 => hinb6_3 | 4 => hinb6_4 | ⟨_ + 5, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok i).elim fun _ h => h | 1 => hwx6_1 | 2 => hwx6_2 | 3 => hwx6_3 | 4 => hwx6_4 | ⟨_ + 5, h⟩ => absurd h (Nat.not_lt.2 (Nat.le_add_left _ _))
abbrev spec7_0 : Pipeline.WinSpec sig grid7.rank :=
  Pipeline.WinSpec.ofSpec (Memref.whole main_v2) S1x1x128.size reads7_0 false false 2 stage7_0 sem7_0 nbuf7_0 hstage7_0

abbrev spec7_1 : Pipeline.WinSpec sig grid7.rank :=
  Pipeline.WinSpec.ofSpec (Memref.whole main_v39) S1x1x6.size reads7_1 false false 2 stage7_1 sem7_1 nbuf7_1 hstage7_1

abbrev spec7_2 : Pipeline.WinSpec sig grid7.rank :=
  Pipeline.WinSpec.ofSpec (Memref.whole main_arg5) S6x128.size reads7_2 false true 1 stage7_2 sem7_2 nbuf7_2 hstage7_2

abbrev spec7_3 : Pipeline.WinSpec sig grid7.rank :=
  Pipeline.WinSpec.ofSpec (Memref.whole main_v7) S1x128.size reads7_3 false true 1 stage7_3 sem7_3 nbuf7_3 hstage7_3

abbrev spec7_4 : Pipeline.WinSpec sig grid7.rank :=
  Pipeline.WinSpec.ofSpec (Memref.whole main_v41) S1x1x128.size reads7_4 true false 2 stage7_4 sem7_4 nbuf7_4 hstage7_4

abbrev spec7 : Fin 5 → Pipeline.WinSpec sig grid7.rank := fun | 0 => spec7_0 | 1 => spec7_1 | 2 => spec7_2 | 3 => spec7_3 | 4 => spec7_4 | ⟨_ + 5, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | 3 => nbuf7_3 | 4 => nbuf7_4 | ⟨_ + 5, h⟩ => absurd h (Nat.not_lt.2 (Nat.le_add_left _ _))
abbrev ix7 (pf : pre7.Contents (Elt F)) : (w : Fin 5) → grid7.Coords → Fin (spec7 w).shape.rank → Nat := fun | 0 => cc7_transform_0 k7_off1_inb numel1_S1 pf | 1 => cc7_transform_1 | 2 => cc7_transform_2 | 3 => cc7_transform_3 | 4 => cc7_transform_4 | ⟨_ + 5, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 | 2 => hreads7_2 | 3 => hreads7_3 | 4 => hreads7_4 | ⟨_ + 5, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x128.size a ≤ S50000x1x128.size a), EltTy.bits .f32 = 32 ∨ (Rect.block (s := S50000x1x128) S1x1x128.size (cc7_transform_0 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok i).elim fun h _ => h a | 1 => hinb7_1 | 2 => hinb7_2 | 3 => hinb7_3 | 4 => hinb7_4 | ⟨_ + 5, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok i).elim fun _ h => h | 1 => hwx7_1 | 2 => hwx7_2 | 3 => hwx7_3 | 4 => hwx7_4 | ⟨_ + 5, h⟩ => absurd h (Nat.not_lt.2 (Nat.le_add_left _ _))
abbrev spec8_0 : Pipeline.WinSpec sig grid8.rank :=
  Pipeline.WinSpec.ofSpec (Memref.whole main_v2) S1x1x128.size reads8_0 false false 2 stage8_0 sem8_0 nbuf8_0 hstage8_0

abbrev spec8_1 : Pipeline.WinSpec sig grid8.rank :=
  Pipeline.WinSpec.ofSpec (Memref.whole main_v44) S1x1x6.size reads8_1 false false 2 stage8_1 sem8_1 nbuf8_1 hstage8_1

abbrev spec8_2 : Pipeline.WinSpec sig grid8.rank :=
  Pipeline.WinSpec.ofSpec (Memref.whole main_arg5) S6x128.size reads8_2 false true 1 stage8_2 sem8_2 nbuf8_2 hstage8_2

abbrev spec8_3 : Pipeline.WinSpec sig grid8.rank :=
  Pipeline.WinSpec.ofSpec (Memref.whole main_v7) S1x128.size reads8_3 false true 1 stage8_3 sem8_3 nbuf8_3 hstage8_3

abbrev spec8_4 : Pipeline.WinSpec sig grid8.rank :=
  Pipeline.WinSpec.ofSpec (Memref.whole main_v46) S1x1x128.size reads8_4 true false 2 stage8_4 sem8_4 nbuf8_4 hstage8_4

abbrev spec8 : Fin 5 → Pipeline.WinSpec sig grid8.rank := fun | 0 => spec8_0 | 1 => spec8_1 | 2 => spec8_2 | 3 => spec8_3 | 4 => spec8_4 | ⟨_ + 5, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | 3 => nbuf8_3 | 4 => nbuf8_4 | ⟨_ + 5, h⟩ => absurd h (Nat.not_lt.2 (Nat.le_add_left _ _))
abbrev ix8 (pf : pre8.Contents (Elt F)) : (w : Fin 5) → grid8.Coords → Fin (spec8 w).shape.rank → Nat := fun | 0 => cc8_transform_0 k8_off1_inb numel1_S1 pf | 1 => cc8_transform_1 | 2 => cc8_transform_2 | 3 => cc8_transform_3 | 4 => cc8_transform_4 | ⟨_ + 5, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 | 2 => hreads8_2 | 3 => hreads8_3 | 4 => hreads8_4 | ⟨_ + 5, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x128.size a ≤ S50000x1x128.size a), EltTy.bits .f32 = 32 ∨ (Rect.block (s := S50000x1x128) S1x1x128.size (cc8_transform_0 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok i).elim fun h _ => h a | 1 => hinb8_1 | 2 => hinb8_2 | 3 => hinb8_3 | 4 => hinb8_4 | ⟨_ + 5, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok i).elim fun _ h => h | 1 => hwx8_1 | 2 => hwx8_2 | 3 => hwx8_3 | 4 => hwx8_4 | ⟨_ + 5, h⟩ => absurd h (Nat.not_lt.2 (Nat.le_add_left _ _))
abbrev spec9_0 : Pipeline.WinSpec sig grid9.rank :=
  Pipeline.WinSpec.ofSpec (Memref.whole main_v2) S1x1x128.size reads9_0 false false 2 stage9_0 sem9_0 nbuf9_0 hstage9_0

abbrev spec9_1 : Pipeline.WinSpec sig grid9.rank :=
  Pipeline.WinSpec.ofSpec (Memref.whole main_v49) S1x1x6.size reads9_1 false false 2 stage9_1 sem9_1 nbuf9_1 hstage9_1

abbrev spec9_2 : Pipeline.WinSpec sig grid9.rank :=
  Pipeline.WinSpec.ofSpec (Memref.whole main_arg5) S6x128.size reads9_2 false true 1 stage9_2 sem9_2 nbuf9_2 hstage9_2

abbrev spec9_3 : Pipeline.WinSpec sig grid9.rank :=
  Pipeline.WinSpec.ofSpec (Memref.whole main_v7) S1x128.size reads9_3 false true 1 stage9_3 sem9_3 nbuf9_3 hstage9_3

abbrev spec9_4 : Pipeline.WinSpec sig grid9.rank :=
  Pipeline.WinSpec.ofSpec (Memref.whole main_v51) S1x1x128.size reads9_4 true false 2 stage9_4 sem9_4 nbuf9_4 hstage9_4

abbrev spec9 : Fin 5 → Pipeline.WinSpec sig grid9.rank := fun | 0 => spec9_0 | 1 => spec9_1 | 2 => spec9_2 | 3 => spec9_3 | 4 => spec9_4 | ⟨_ + 5, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | 3 => nbuf9_3 | 4 => nbuf9_4 | ⟨_ + 5, h⟩ => absurd h (Nat.not_lt.2 (Nat.le_add_left _ _))
abbrev ix9 (pf : pre9.Contents (Elt F)) : (w : Fin 5) → grid9.Coords → Fin (spec9 w).shape.rank → Nat := fun | 0 => cc9_transform_0 k9_off1_inb numel1_S1 pf | 1 => cc9_transform_1 | 2 => cc9_transform_2 | 3 => cc9_transform_3 | 4 => cc9_transform_4 | ⟨_ + 5, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 | 2 => hreads9_2 | 3 => hreads9_3 | 4 => hreads9_4 | ⟨_ + 5, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x128.size a ≤ S50000x1x128.size a), EltTy.bits .f32 = 32 ∨ (Rect.block (s := S50000x1x128) S1x1x128.size (cc9_transform_0 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok i).elim fun h _ => h a | 1 => hinb9_1 | 2 => hinb9_2 | 3 => hinb9_3 | 4 => hinb9_4 | ⟨_ + 5, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok i).elim fun _ h => h | 1 => hwx9_1 | 2 => hwx9_2 | 3 => hwx9_3 | 4 => hwx9_4 | ⟨_ + 5, h⟩ => absurd h (Nat.not_lt.2 (Nat.le_add_left _ _))
abbrev spec10_0 : Pipeline.WinSpec sig grid10.rank :=
  Pipeline.WinSpec.ofSpec (Memref.whole main_v2) S1x1x128.size reads10_0 false false 2 stage10_0 sem10_0 nbuf10_0 hstage10_0

abbrev spec10_1 : Pipeline.WinSpec sig grid10.rank :=
  Pipeline.WinSpec.ofSpec (Memref.whole main_v54) S1x1x6.size reads10_1 false false 2 stage10_1 sem10_1 nbuf10_1 hstage10_1

abbrev spec10_2 : Pipeline.WinSpec sig grid10.rank :=
  Pipeline.WinSpec.ofSpec (Memref.whole main_arg5) S6x128.size reads10_2 false true 1 stage10_2 sem10_2 nbuf10_2 hstage10_2

abbrev spec10_3 : Pipeline.WinSpec sig grid10.rank :=
  Pipeline.WinSpec.ofSpec (Memref.whole main_v7) S1x128.size reads10_3 false true 1 stage10_3 sem10_3 nbuf10_3 hstage10_3

abbrev spec10_4 : Pipeline.WinSpec sig grid10.rank :=
  Pipeline.WinSpec.ofSpec (Memref.whole main_v56) S1x1x128.size reads10_4 true false 2 stage10_4 sem10_4 nbuf10_4 hstage10_4

abbrev spec10 : Fin 5 → Pipeline.WinSpec sig grid10.rank := fun | 0 => spec10_0 | 1 => spec10_1 | 2 => spec10_2 | 3 => spec10_3 | 4 => spec10_4 | ⟨_ + 5, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | 3 => nbuf10_3 | 4 => nbuf10_4 | ⟨_ + 5, h⟩ => absurd h (Nat.not_lt.2 (Nat.le_add_left _ _))
abbrev ix10 (pf : pre10.Contents (Elt F)) : (w : Fin 5) → grid10.Coords → Fin (spec10 w).shape.rank → Nat := fun | 0 => cc10_transform_0 k10_off1_inb numel1_S1 pf | 1 => cc10_transform_1 | 2 => cc10_transform_2 | 3 => cc10_transform_3 | 4 => cc10_transform_4 | ⟨_ + 5, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 | 2 => hreads10_2 | 3 => hreads10_3 | 4 => hreads10_4 | ⟨_ + 5, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x128.size a ≤ S50000x1x128.size a), EltTy.bits .f32 = 32 ∨ (Rect.block (s := S50000x1x128) S1x1x128.size (cc10_transform_0 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok i).elim fun h _ => h a | 1 => hinb10_1 | 2 => hinb10_2 | 3 => hinb10_3 | 4 => hinb10_4 | ⟨_ + 5, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok i).elim fun _ h => h | 1 => hwx10_1 | 2 => hwx10_2 | 3 => hwx10_3 | 4 => hwx10_4 | ⟨_ + 5, h⟩ => absurd h (Nat.not_lt.2 (Nat.le_add_left _ _))
abbrev spec11_0 : Pipeline.WinSpec sig grid11.rank :=
  Pipeline.WinSpec.ofSpec (Memref.whole main_v2) S1x1x128.size reads11_0 false false 2 stage11_0 sem11_0 nbuf11_0 hstage11_0

abbrev spec11_1 : Pipeline.WinSpec sig grid11.rank :=
  Pipeline.WinSpec.ofSpec (Memref.whole main_v59) S1x1x6.size reads11_1 false false 2 stage11_1 sem11_1 nbuf11_1 hstage11_1

abbrev spec11_2 : Pipeline.WinSpec sig grid11.rank :=
  Pipeline.WinSpec.ofSpec (Memref.whole main_arg5) S6x128.size reads11_2 false true 1 stage11_2 sem11_2 nbuf11_2 hstage11_2

abbrev spec11_3 : Pipeline.WinSpec sig grid11.rank :=
  Pipeline.WinSpec.ofSpec (Memref.whole main_v7) S1x128.size reads11_3 false true 1 stage11_3 sem11_3 nbuf11_3 hstage11_3

abbrev spec11_4 : Pipeline.WinSpec sig grid11.rank :=
  Pipeline.WinSpec.ofSpec (Memref.whole main_v61) S1x1x128.size reads11_4 true false 2 stage11_4 sem11_4 nbuf11_4 hstage11_4

abbrev spec11 : Fin 5 → Pipeline.WinSpec sig grid11.rank := fun | 0 => spec11_0 | 1 => spec11_1 | 2 => spec11_2 | 3 => spec11_3 | 4 => spec11_4 | ⟨_ + 5, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | 3 => nbuf11_3 | 4 => nbuf11_4 | ⟨_ + 5, h⟩ => absurd h (Nat.not_lt.2 (Nat.le_add_left _ _))
abbrev ix11 (pf : pre11.Contents (Elt F)) : (w : Fin 5) → grid11.Coords → Fin (spec11 w).shape.rank → Nat := fun | 0 => cc11_transform_0 k11_off1_inb numel1_S1 pf | 1 => cc11_transform_1 | 2 => cc11_transform_2 | 3 => cc11_transform_3 | 4 => cc11_transform_4 | ⟨_ + 5, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 | 2 => hreads11_2 | 3 => hreads11_3 | 4 => hreads11_4 | ⟨_ + 5, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x128.size a ≤ S50000x1x128.size a), EltTy.bits .f32 = 32 ∨ (Rect.block (s := S50000x1x128) S1x1x128.size (cc11_transform_0 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok i).elim fun h _ => h a | 1 => hinb11_1 | 2 => hinb11_2 | 3 => hinb11_3 | 4 => hinb11_4 | ⟨_ + 5, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok i).elim fun _ h => h | 1 => hwx11_1 | 2 => hwx11_2 | 3 => hwx11_3 | 4 => hwx11_4 | ⟨_ + 5, h⟩ => absurd h (Nat.not_lt.2 (Nat.le_add_left _ _))
abbrev spec12_0 : Pipeline.WinSpec sig grid12.rank :=
  Pipeline.WinSpec.ofSpec (Memref.whole main_v2) S1x1x128.size reads12_0 false false 2 stage12_0 sem12_0 nbuf12_0 hstage12_0

abbrev spec12_1 : Pipeline.WinSpec sig grid12.rank :=
  Pipeline.WinSpec.ofSpec (Memref.whole main_v64) S1x1x6.size reads12_1 false false 2 stage12_1 sem12_1 nbuf12_1 hstage12_1

abbrev spec12_2 : Pipeline.WinSpec sig grid12.rank :=
  Pipeline.WinSpec.ofSpec (Memref.whole main_arg5) S6x128.size reads12_2 false true 1 stage12_2 sem12_2 nbuf12_2 hstage12_2

abbrev spec12_3 : Pipeline.WinSpec sig grid12.rank :=
  Pipeline.WinSpec.ofSpec (Memref.whole main_v7) S1x128.size reads12_3 false true 1 stage12_3 sem12_3 nbuf12_3 hstage12_3

abbrev spec12_4 : Pipeline.WinSpec sig grid12.rank :=
  Pipeline.WinSpec.ofSpec (Memref.whole main_v66) S1x1x128.size reads12_4 true false 2 stage12_4 sem12_4 nbuf12_4 hstage12_4

abbrev spec12 : Fin 5 → Pipeline.WinSpec sig grid12.rank := fun | 0 => spec12_0 | 1 => spec12_1 | 2 => spec12_2 | 3 => spec12_3 | 4 => spec12_4 | ⟨_ + 5, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | 3 => nbuf12_3 | 4 => nbuf12_4 | ⟨_ + 5, h⟩ => absurd h (Nat.not_lt.2 (Nat.le_add_left _ _))
abbrev ix12 (pf : pre12.Contents (Elt F)) : (w : Fin 5) → grid12.Coords → Fin (spec12 w).shape.rank → Nat := fun | 0 => cc12_transform_0 k12_off1_inb numel1_S1 pf | 1 => cc12_transform_1 | 2 => cc12_transform_2 | 3 => cc12_transform_3 | 4 => cc12_transform_4 | ⟨_ + 5, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 | 2 => hreads12_2 | 3 => hreads12_3 | 4 => hreads12_4 | ⟨_ + 5, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x128.size a ≤ S50000x1x128.size a), EltTy.bits .f32 = 32 ∨ (Rect.block (s := S50000x1x128) S1x1x128.size (cc12_transform_0 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok i).elim fun h _ => h a | 1 => hinb12_1 | 2 => hinb12_2 | 3 => hinb12_3 | 4 => hinb12_4 | ⟨_ + 5, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok i).elim fun _ h => h | 1 => hwx12_1 | 2 => hwx12_2 | 3 => hwx12_3 | 4 => hwx12_4 | ⟨_ + 5, h⟩ => absurd h (Nat.not_lt.2 (Nat.le_add_left _ _))
abbrev spec13_0 : Pipeline.WinSpec sig grid13.rank :=
  Pipeline.WinSpec.ofSpec (Memref.whole main_v2) S1x1x128.size reads13_0 false false 2 stage13_0 sem13_0 nbuf13_0 hstage13_0

abbrev spec13_1 : Pipeline.WinSpec sig grid13.rank :=
  Pipeline.WinSpec.ofSpec (Memref.whole main_v69) S1x1x6.size reads13_1 false false 2 stage13_1 sem13_1 nbuf13_1 hstage13_1

abbrev spec13_2 : Pipeline.WinSpec sig grid13.rank :=
  Pipeline.WinSpec.ofSpec (Memref.whole main_arg5) S6x128.size reads13_2 false true 1 stage13_2 sem13_2 nbuf13_2 hstage13_2

abbrev spec13_3 : Pipeline.WinSpec sig grid13.rank :=
  Pipeline.WinSpec.ofSpec (Memref.whole main_v7) S1x128.size reads13_3 false true 1 stage13_3 sem13_3 nbuf13_3 hstage13_3

abbrev spec13_4 : Pipeline.WinSpec sig grid13.rank :=
  Pipeline.WinSpec.ofSpec (Memref.whole main_v71) S1x1x128.size reads13_4 true false 2 stage13_4 sem13_4 nbuf13_4 hstage13_4

abbrev spec13 : Fin 5 → Pipeline.WinSpec sig grid13.rank := fun | 0 => spec13_0 | 1 => spec13_1 | 2 => spec13_2 | 3 => spec13_3 | 4 => spec13_4 | ⟨_ + 5, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | 3 => nbuf13_3 | 4 => nbuf13_4 | ⟨_ + 5, h⟩ => absurd h (Nat.not_lt.2 (Nat.le_add_left _ _))
abbrev ix13 (pf : pre13.Contents (Elt F)) : (w : Fin 5) → grid13.Coords → Fin (spec13 w).shape.rank → Nat := fun | 0 => cc13_transform_0 k13_off1_inb numel1_S1 pf | 1 => cc13_transform_1 | 2 => cc13_transform_2 | 3 => cc13_transform_3 | 4 => cc13_transform_4 | ⟨_ + 5, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 | 2 => hreads13_2 | 3 => hreads13_3 | 4 => hreads13_4 | ⟨_ + 5, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x128.size a ≤ S50000x1x128.size a), EltTy.bits .f32 = 32 ∨ (Rect.block (s := S50000x1x128) S1x1x128.size (cc13_transform_0 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok i).elim fun h _ => h a | 1 => hinb13_1 | 2 => hinb13_2 | 3 => hinb13_3 | 4 => hinb13_4 | ⟨_ + 5, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok i).elim fun _ h => h | 1 => hwx13_1 | 2 => hwx13_2 | 3 => hwx13_3 | 4 => hwx13_4 | ⟨_ + 5, h⟩ => absurd h (Nat.not_lt.2 (Nat.le_add_left _ _))
abbrev spec14_0 : Pipeline.WinSpec sig grid14.rank :=
  Pipeline.WinSpec.ofSpec (Memref.whole main_v2) S1x1x128.size reads14_0 false false 2 stage14_0 sem14_0 nbuf14_0 hstage14_0

abbrev spec14_1 : Pipeline.WinSpec sig grid14.rank :=
  Pipeline.WinSpec.ofSpec (Memref.whole main_v74) S1x1x6.size reads14_1 false false 2 stage14_1 sem14_1 nbuf14_1 hstage14_1

abbrev spec14_2 : Pipeline.WinSpec sig grid14.rank :=
  Pipeline.WinSpec.ofSpec (Memref.whole main_arg5) S6x128.size reads14_2 false true 1 stage14_2 sem14_2 nbuf14_2 hstage14_2

abbrev spec14_3 : Pipeline.WinSpec sig grid14.rank :=
  Pipeline.WinSpec.ofSpec (Memref.whole main_v7) S1x128.size reads14_3 false true 1 stage14_3 sem14_3 nbuf14_3 hstage14_3

abbrev spec14_4 : Pipeline.WinSpec sig grid14.rank :=
  Pipeline.WinSpec.ofSpec (Memref.whole main_v76) S1x1x128.size reads14_4 true false 2 stage14_4 sem14_4 nbuf14_4 hstage14_4

abbrev spec14 : Fin 5 → Pipeline.WinSpec sig grid14.rank := fun | 0 => spec14_0 | 1 => spec14_1 | 2 => spec14_2 | 3 => spec14_3 | 4 => spec14_4 | ⟨_ + 5, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | 3 => nbuf14_3 | 4 => nbuf14_4 | ⟨_ + 5, h⟩ => absurd h (Nat.not_lt.2 (Nat.le_add_left _ _))
abbrev ix14 (pf : pre14.Contents (Elt F)) : (w : Fin 5) → grid14.Coords → Fin (spec14 w).shape.rank → Nat := fun | 0 => cc14_transform_0 k14_off1_inb numel1_S1 pf | 1 => cc14_transform_1 | 2 => cc14_transform_2 | 3 => cc14_transform_3 | 4 => cc14_transform_4 | ⟨_ + 5, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 | 2 => hreads14_2 | 3 => hreads14_3 | 4 => hreads14_4 | ⟨_ + 5, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x128.size a ≤ S50000x1x128.size a), EltTy.bits .f32 = 32 ∨ (Rect.block (s := S50000x1x128) S1x1x128.size (cc14_transform_0 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok i).elim fun h _ => h a | 1 => hinb14_1 | 2 => hinb14_2 | 3 => hinb14_3 | 4 => hinb14_4 | ⟨_ + 5, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok i).elim fun _ h => h | 1 => hwx14_1 | 2 => hwx14_2 | 3 => hwx14_3 | 4 => hwx14_4 | ⟨_ + 5, h⟩ => absurd h (Nat.not_lt.2 (Nat.le_add_left _ _))
abbrev spec15_0 : Pipeline.WinSpec sig grid15.rank :=
  Pipeline.WinSpec.ofSpec (Memref.whole main_v2) S1x1x128.size reads15_0 false false 2 stage15_0 sem15_0 nbuf15_0 hstage15_0

abbrev spec15_1 : Pipeline.WinSpec sig grid15.rank :=
  Pipeline.WinSpec.ofSpec (Memref.whole main_v79) S1x1x6.size reads15_1 false false 2 stage15_1 sem15_1 nbuf15_1 hstage15_1

abbrev spec15_2 : Pipeline.WinSpec sig grid15.rank :=
  Pipeline.WinSpec.ofSpec (Memref.whole main_arg5) S6x128.size reads15_2 false true 1 stage15_2 sem15_2 nbuf15_2 hstage15_2

abbrev spec15_3 : Pipeline.WinSpec sig grid15.rank :=
  Pipeline.WinSpec.ofSpec (Memref.whole main_v7) S1x128.size reads15_3 false true 1 stage15_3 sem15_3 nbuf15_3 hstage15_3

abbrev spec15_4 : Pipeline.WinSpec sig grid15.rank :=
  Pipeline.WinSpec.ofSpec (Memref.whole main_v81) S1x1x128.size reads15_4 true false 2 stage15_4 sem15_4 nbuf15_4 hstage15_4

abbrev spec15 : Fin 5 → Pipeline.WinSpec sig grid15.rank := fun | 0 => spec15_0 | 1 => spec15_1 | 2 => spec15_2 | 3 => spec15_3 | 4 => spec15_4 | ⟨_ + 5, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | 3 => nbuf15_3 | 4 => nbuf15_4 | ⟨_ + 5, h⟩ => absurd h (Nat.not_lt.2 (Nat.le_add_left _ _))
abbrev ix15 (pf : pre15.Contents (Elt F)) : (w : Fin 5) → grid15.Coords → Fin (spec15 w).shape.rank → Nat := fun | 0 => cc15_transform_0 k15_off1_inb numel1_S1 pf | 1 => cc15_transform_1 | 2 => cc15_transform_2 | 3 => cc15_transform_3 | 4 => cc15_transform_4 | ⟨_ + 5, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 | 2 => hreads15_2 | 3 => hreads15_3 | 4 => hreads15_4 | ⟨_ + 5, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x128.size a ≤ S50000x1x128.size a), EltTy.bits .f32 = 32 ∨ (Rect.block (s := S50000x1x128) S1x1x128.size (cc15_transform_0 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok i).elim fun h _ => h a | 1 => hinb15_1 | 2 => hinb15_2 | 3 => hinb15_3 | 4 => hinb15_4 | ⟨_ + 5, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok i).elim fun _ h => h | 1 => hwx15_1 | 2 => hwx15_2 | 3 => hwx15_3 | 4 => hwx15_4 | ⟨_ + 5, h⟩ => absurd h (Nat.not_lt.2 (Nat.le_add_left _ _))
abbrev spec16_0 : Pipeline.WinSpec sig grid16.rank :=
  Pipeline.WinSpec.ofSpec (Memref.whole main_v2) S1x1x128.size reads16_0 false false 2 stage16_0 sem16_0 nbuf16_0 hstage16_0

abbrev spec16_1 : Pipeline.WinSpec sig grid16.rank :=
  Pipeline.WinSpec.ofSpec (Memref.whole main_v84) S1x1x6.size reads16_1 false false 2 stage16_1 sem16_1 nbuf16_1 hstage16_1

abbrev spec16_2 : Pipeline.WinSpec sig grid16.rank :=
  Pipeline.WinSpec.ofSpec (Memref.whole main_arg5) S6x128.size reads16_2 false true 1 stage16_2 sem16_2 nbuf16_2 hstage16_2

abbrev spec16_3 : Pipeline.WinSpec sig grid16.rank :=
  Pipeline.WinSpec.ofSpec (Memref.whole main_v7) S1x128.size reads16_3 false true 1 stage16_3 sem16_3 nbuf16_3 hstage16_3

abbrev spec16_4 : Pipeline.WinSpec sig grid16.rank :=
  Pipeline.WinSpec.ofSpec (Memref.whole main_v86) S1x1x128.size reads16_4 true false 2 stage16_4 sem16_4 nbuf16_4 hstage16_4

abbrev spec16 : Fin 5 → Pipeline.WinSpec sig grid16.rank := fun | 0 => spec16_0 | 1 => spec16_1 | 2 => spec16_2 | 3 => spec16_3 | 4 => spec16_4 | ⟨_ + 5, h⟩ => absurd h (Nat.not_lt.2 (Nat.le_add_left _ _))
theorem hcount16 : ∀ w, grid16.bufCount (spec16 w).reads (spec16 w).sync = (spec16 w).nbuf := fun | 0 => nbuf16_0 | 1 => nbuf16_1 | 2 => nbuf16_2 | 3 => nbuf16_3 | 4 => nbuf16_4 | ⟨_ + 5, h⟩ => absurd h (Nat.not_lt.2 (Nat.le_add_left _ _))
abbrev ix16 (pf : pre16.Contents (Elt F)) : (w : Fin 5) → grid16.Coords → Fin (spec16 w).shape.rank → Nat := fun | 0 => cc16_transform_0 k16_off1_inb numel1_S1 pf | 1 => cc16_transform_1 | 2 => cc16_transform_2 | 3 => cc16_transform_3 | 4 => cc16_transform_4 | ⟨_ + 5, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 pf | 1 => hreads16_1 | 2 => hreads16_2 | 3 => hreads16_3 | 4 => hreads16_4 | ⟨_ + 5, h⟩ => absurd h (Nat.not_lt.2 (Nat.le_add_left _ _))
def ok16 (pf : pre16.Contents (Elt F)) : Prop :=
  (∀ i : grid16.Coords, ∃ h : (∀ a, (cc16_transform_0 k16_off1_inb numel1_S1 pf i a + 1) * S1x1x128.size a ≤ S50000x1x128.size a), EltTy.bits .f32 = 32 ∨ (Rect.block (s := S50000x1x128) S1x1x128.size (cc16_transform_0 k16_off1_inb numel1_S1 pf i) h).WholeWords (EltTy.packing .f32))
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun pf hok => fun | 0 => fun i a => (hok i).elim fun h _ => h a | 1 => hinb16_1 | 2 => hinb16_2 | 3 => hinb16_3 | 4 => hinb16_4 | ⟨_ + 5, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun pf hok => fun | 0 => fun i => (hok i).elim fun _ h => h | 1 => hwx16_1 | 2 => hwx16_2 | 3 => hwx16_3 | 4 => hwx16_4 | ⟨_ + 5, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole

variable [Facts]
-- ==== ReferenceIdeal.lean ====
abbrev S50000x128 : Shape := ⟨2, ![50000, 128]⟩
abbrev S800000x2 : Shape := ⟨2, ![800000, 2]⟩
abbrev S800000x6 : Shape := ⟨2, ![800000, 6]⟩
abbrev S128x128 : Shape := ⟨2, ![128, 128]⟩
abbrev S128 : Shape := ⟨1, ![128]⟩
abbrev S6x128 : Shape := ⟨2, ![6, 128]⟩
abbrev S1x128 : Shape := ⟨2, ![1, 128]⟩
abbrev S800000x128 : Shape := ⟨2, ![800000, 128]⟩
abbrev S800000x1 : Shape := ⟨2, ![800000, 1]⟩
abbrev S800000 : Shape := ⟨1, ![800000]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S800000x6, .f32⟩
  | .hbm, ⟨3, _⟩ => ⟨S128x128, .f32⟩
  | .hbm, ⟨4, _⟩ => ⟨S128, .f32⟩
  | .hbm, ⟨5, _⟩ => ⟨S6x128, .f32⟩
  | .hbm, ⟨6, _⟩ => ⟨S128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S800000x128, .f32⟩
  | .hbm, ⟨12, _⟩ => ⟨S1x128, .f32⟩
  | .hbm, ⟨13, _⟩ => ⟨S800000x128, .f32⟩
  | .hbm, ⟨14, _⟩ => ⟨S800000x128, .f32⟩
  | .hbm, ⟨15, _⟩ => ⟨S800000x1, .i32⟩
  | .hbm, ⟨16, _⟩ => ⟨S800000, .i32⟩
  | .hbm, ⟨17, _⟩ => ⟨S800000x1, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S800000x6_S6x128_S800000x128_1_0_0_1_n_n_wf : DotDims.WF S800000x6 S6x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x6_S6x128_S800000x128_1_0_0_1_n_n : DotDims S800000x6 S6x128 S800000x128 where
  lhsContracting := [1]
  rhsContracting := [0]
  lhsNonContracting := [0]
  rhsNonContracting := [1]
  lhsBatch := []
  rhsBatch := []
  wf := dot_S800000x6_S6x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.NodeI.lean ====
/- Region 0 of @main, the node transform: one grid point takes a block of 5000 rows of the node features, the whole
   weight matrix and the bias row, and stores the block's rows times the weights plus the bias. Everything here is
   stated at a parameter `V`, the buffers' contents when the region is entered, and at any float instance. -/
import proofs.«403578_j46067819217039_2_alg».proof.Proof.Gen.KernelIdeal.Launch
import proofs.«403578_j46067819217039_2_alg».proof.Proof.Gen.KernelIdeal.Skeleton
import proofs.«403578_j46067819217039_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` that grid point `t` works on, cut out of the window's array as the region finds it. -/
def nodeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point: where the pipeline fetched it, the fetch
    put it there; where it did not, the block index has not moved since the last fetch. Stated, window by window, for
    any proof data whose entry array is `V`'s and whose body leaves the input block in place. -/
theorem nodeBefore0_of {c : Dev nD} (dat : Dat τ (Elt F) Unit ℕ (UR sig nD τ) ℕ cfg0 c) (hA : dat.A 0 = V c (Pipeline.arrRef spec0 0))
    (hafter : ∀ t, dat.after 0 t = nodeBlk V c 0 t) (t : Fin cfg0.N) (d) : dat.before 0 t d = nodeBlk V c 0 t :=
  (dat.before_in_eq_fetched 0 rfl (fun _ => rfl) (fun _ _ _ => rfl)
      (fun t => by rw [hafter]; unfold Dat.blockOf nodeBlk; rw [hA]; try rfl) t d).trans
    (by unfold Dat.fetched Dat.blockOf nodeBlk; rw [hA]; try rfl)
theorem nodeBefore1_of {c : Dev nD} (dat : Dat τ (Elt F) Unit ℕ (UR sig nD τ) ℕ cfg0 c) (hA : dat.A 1 = V c (Pipeline.arrRef spec0 1))
    (hafter : ∀ t, dat.after 1 t = nodeBlk V c 1 t) (t : Fin cfg0.N) (d) : dat.before 1 t d = nodeBlk V c 1 t :=
  (dat.before_in_eq_fetched 1 rfl (fun _ => rfl) (fun _ _ _ => rfl)
      (fun t => by rw [hafter]; unfold Dat.blockOf nodeBlk; rw [hA]; try rfl) t d).trans
    (by unfold Dat.fetched Dat.blockOf nodeBlk; rw [hA]; try rfl)
theorem nodeBefore2_of {c : Dev nD} (dat : Dat τ (Elt F) Unit ℕ (UR sig nD τ) ℕ cfg0 c) (hA : dat.A 2 = V c (Pipeline.arrRef spec0 2))
    (hafter : ∀ t, dat.after 2 t = nodeBlk V c 2 t) (t : Fin cfg0.N) (d) : dat.before 2 t d = nodeBlk V c 2 t :=
  (dat.before_in_eq_fetched 2 rfl (fun _ => rfl) (fun _ _ _ => rfl)
      (fun t => by rw [hafter]; unfold Dat.blockOf nodeBlk; rw [hA]; try rfl) t d).trans
    (by unfold Dat.fetched Dat.blockOf nodeBlk; rw [hA]; try rfl)

/-- The one rectangle the body reads and writes of each buffer: all of it. -/
abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output's staging buffer: its single store, of the rows-times-weights-plus-bias payload,
    read back as the buffer's contents. -/
def nodeOut (x : Vec F S5000x128 .f32) (w : Vec F S128x128 .f32) (b : Vec F S1x128 .f32) : Vec F S5000x128 .f32 :=
  View.canon [⟨rX, k0_pay1 (View.ld x rX) (View.ld w rW) (View.ld b rB)⟩]

/-- That store writes the whole buffer. -/
theorem nodeCover (p : Vec F S5000x128 .f32) (y : S5000x128.Idx) :
    ∃ pc ∈ ([⟨rX, p⟩] : List (View.Piece (Elt F) S5000x128 .f32)), y ∈ pc.1.set :=
  View.cover_of_tiled [⟨rX, p⟩] S5000x128.size (by rfl) y

set_option maxHeartbeats 4000000 in
/-- The body's triple: run on whole staging buffers, the three inputs at known contents and the output at anything, it
    returns with the inputs as they were and the output at `nodeOut` of them. -/
theorem nodeKernel (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (x : Vec F S5000x128 .f32) (w : Vec F S128x128 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (nodeOut x w b)) -∗ K ⟨⟩))
      ⊢ wp frame (wpE (defs₀ (F := F)) Variants.none c none) E (cc0__node_kernel i arg1 harg1 arg2 harg2 arg3 harg3 arg4 harg4) K := by
  simp only [cc0__node_kernel_eq_skeleton]; unfold cc0__node_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (nodeCover _)

/-- The region's proof data on core `c`: its arrays as found; after the body each input buffer at its block and the
    output buffer at `nodeOut` of the three input blocks; the invariant the scoped rest and the generator register,
    untouched; nothing owed; full shares. -/
def nodeDat (c : Dev nD) : Dat τ (Elt F) Unit ℕ (UR sig nD τ) ℕ cfg0 c where
  A w := V c (Pipeline.arrRef spec0 w)
  after w t := match w with
    | ⟨0, _⟩ => nodeBlk V c 0 t
    | ⟨1, _⟩ => nodeBlk V c 1 t
    | ⟨2, _⟩ => nodeBlk V c 2 t
    | ⟨3, _⟩ => nodeOut (nodeBlk V c 0 t) (nodeBlk V c 1 t) (nodeBlk V c 2 t)
  Φ _ := Pipeline.ΦA spec0 c
  q _ := fullShare
  owed _ := 0

theorem nodeDat_A (c : Dev nD) (w : Fin cfg0.W) : (nodeDat V c).A w = V c (Pipeline.arrRef spec0 w) := by
  dsimp only [nodeDat]
theorem nodeAfter0 (c : Dev nD) (t : Fin cfg0.N) : (nodeDat V c).after 0 t = nodeBlk V c 0 t := by dsimp only [nodeDat]
theorem nodeAfter1 (c : Dev nD) (t : Fin cfg0.N) : (nodeDat V c).after 1 t = nodeBlk V c 1 t := by dsimp only [nodeDat]
theorem nodeAfter2 (c : Dev nD) (t : Fin cfg0.N) : (nodeDat V c).after 2 t = nodeBlk V c 2 t := by dsimp only [nodeDat]
theorem nodeAfter3 (c : Dev nD) (t : Fin cfg0.N) :
    (nodeDat V c).after 3 t = nodeOut (nodeBlk V c 0 t) (nodeBlk V c 1 t) (nodeBlk V c 2 t) := by dsimp only [nodeDat]

theorem nodeBefore0 (c : Dev nD) (t : Fin cfg0.N) (d) : (nodeDat V c).before 0 t d = nodeBlk V c 0 t :=
  nodeBefore0_of V (nodeDat V c) (nodeDat_A V c 0) (nodeAfter0 V c) t d
theorem nodeBefore1 (c : Dev nD) (t : Fin cfg0.N) (d) : (nodeDat V c).before 1 t d = nodeBlk V c 1 t :=
  nodeBefore1_of V (nodeDat V c) (nodeDat_A V c 1) (nodeAfter1 V c) t d
theorem nodeBefore2 (c : Dev nD) (t : Fin cfg0.N) (d) : (nodeDat V c).before 2 t d = nodeBlk V c 2 t :=
  nodeBefore2_of V (nodeDat V c) (nodeDat_A V c 2) (nodeAfter2 V c) t d

/-- The body at any grid point meets the pipeline's obligation: it finds each input buffer at its block, so the triple
    applies; the invariant and what the core owes pass through unread. -/
theorem nodeObligation (c : Dev nD) : BodyObligation (nodeDat (F := F) V c) (defs₀ (F := F)) Variants.none () Set.univ := fun t => by
  rw [bigSep_W0, bigSep_W0]
  show iprop((nodeDat V c).Φ t.castSucc ∗ (nodeDat V c).owesAt () t.castSucc
      ∗ (∃ d, owns (c : Thread nD τ) (st0_0 t) fullShare ((nodeDat V c).before 0 t d))
      ∗ (∃ d, owns (c : Thread nD τ) (st0_1 t) fullShare ((nodeDat V c).before 1 t d))
      ∗ (∃ d, owns (c : Thread nD τ) (st0_2 t) fullShare ((nodeDat V c).before 2 t d))
      ∗ (∃ d, owns (c : Thread nD τ) (st0_3 t) fullShare ((nodeDat V c).before 3 t d)))
    ⊢ wp frame (wpE (defs₀ (F := F)) Variants.none c none) Set.univ (bodyAt0 t) (fun _ =>
      iprop((nodeDat V c).Φ t.succ ∗ (nodeDat V c).owesAt () t.succ
        ∗ owns (c : Thread nD τ) (st0_0 t) fullShare ((nodeDat V c).after 0 t)
        ∗ owns (c : Thread nD τ) (st0_1 t) fullShare ((nodeDat V c).after 1 t)
        ∗ owns (c : Thread nD τ) (st0_2 t) fullShare ((nodeDat V c).after 2 t)
        ∗ owns (c : Thread nD τ) (st0_3 t) fullShare ((nodeDat V c).after 3 t)))
  unfold bodyAt0
  simp only [nodeBefore0, nodeBefore1, nodeBefore2]
  rw [show (nodeDat V c).Φ t.succ = (nodeDat V c).Φ t.castSucc from rfl,
    show (nodeDat V c).owesAt () t.succ = (nodeDat V c).owesAt () t.castSucc from rfl,
    nodeAfter0, nodeAfter1, nodeAfter2, nodeAfter3]
  iintro ⟨HΦ, Ho, ⟨%d0, H0⟩, ⟨%d1, H1⟩, ⟨%d2, H2⟩, ⟨%d3, H3⟩⟩
  iapply (nodeKernel c Set.univ _ _ _ _ _ _ _ _ _ (nodeBlk V c 0 t) (nodeBlk V c 1 t) (nodeBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.GepCommonI.lean ====
/- The rectangles the gather-and-edge-linear kernel reads and writes: each access takes its whole buffer. -/
import proofs.«403578_j46067819217039_2_alg».proof.Proof.Gen.KernelIdeal.Launch
import proofs.«403578_j46067819217039_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

/-- The gathered row's buffer and the output row's buffer, one row of 128 lanes. -/
abbrev rG : Rect S1x1x128 := Rect.unit (s := S1x1x128) ![0, 0, 0] S1x1x128.size inb_S1x1x128_S1x1x128_0_0_0
/-- The edge's six features. -/
abbrev rE : Rect S1x1x6 := Rect.unit (s := S1x1x6) ![0, 0, 0] S1x1x6.size inb_S1x1x6_S1x1x6_0_0_0
/-- The edge weights. -/
abbrev rWe : Rect S6x128 := Rect.unit (s := S6x128) ![0, 0] S6x128.size inb_S6x128_S6x128_0_0
/-- The edge bias row. -/
abbrev rBe : Rect S1x128 := Rect.unit (s := S1x128) ![0, 0] S1x128.size inb_S1x128_S1x128_0_0

end Cert.KernelIdeal.Hand

end
-- ==== Proof.Gep1I.lean ====
/- Region 1 of @main, edges 0 to 49999: one grid point is one edge. The pipeline fetches the row of the transformed
   node features that the edge's source index names (the block index of window 0 is the prefetched table's word at the
   point), the edge's six features, the edge weights and the edge bias; the body stores the gathered row plus the
   features times the weights plus the bias. Everything here is stated at a parameter `V`, the buffers' contents when
   the region is entered, at a parameter `a`, admissible contents of the table, and at any float instance. -/
import proofs.«403578_j46067819217039_2_alg».proof.Proof.GepCommonI
import proofs.«403578_j46067819217039_2_alg».proof.Proof.Gen.KernelIdeal.Launch
import proofs.«403578_j46067819217039_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg1 (F := F)).Adm)

/-- The block of window `w` that grid point `t` works on, cut out of the window's array as the region finds it. -/
def gepBlk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- An input window's staging buffer holds the window's block at every point, fetched there or not: unfetched, the
    block index (for window 0, the table's word) has not moved since the last fetch. Window by window. -/
theorem gepBefore1_0_of {c : Dev nD} (dat : Dat τ (Elt F) Unit ℕ (UR sig nD τ) ℕ (cfg1 a) c) (hA : dat.A 0 = V c (Pipeline.arrRef spec1 0))
    (hafter : ∀ t, dat.after 0 t = gepBlk1 V a c 0 t) (t : Fin (cfg1 a).N) (d) : dat.before 0 t d = gepBlk1 V a c 0 t :=
  (dat.before_in_eq_fetched 0 rfl (fun _ => rfl) (fun _ _ _ => rfl)
      (fun t => by rw [hafter]; unfold Dat.blockOf gepBlk1; rw [hA]; try rfl) t d).trans
    (by unfold Dat.fetched Dat.blockOf gepBlk1; rw [hA]; try rfl)
theorem gepBefore1_1_of {c : Dev nD} (dat : Dat τ (Elt F) Unit ℕ (UR sig nD τ) ℕ (cfg1 a) c) (hA : dat.A 1 = V c (Pipeline.arrRef spec1 1))
    (hafter : ∀ t, dat.after 1 t = gepBlk1 V a c 1 t) (t : Fin (cfg1 a).N) (d) : dat.before 1 t d = gepBlk1 V a c 1 t :=
  (dat.before_in_eq_fetched 1 rfl (fun _ => rfl) (fun _ _ _ => rfl)
      (fun t => by rw [hafter]; unfold Dat.blockOf gepBlk1; rw [hA]; try rfl) t d).trans
    (by unfold Dat.fetched Dat.blockOf gepBlk1; rw [hA]; try rfl)
theorem gepBefore1_2_of {c : Dev nD} (dat : Dat τ (Elt F) Unit ℕ (UR sig nD τ) ℕ (cfg1 a) c) (hA : dat.A 2 = V c (Pipeline.arrRef spec1 2))
    (hafter : ∀ t, dat.after 2 t = gepBlk1 V a c 2 t) (t : Fin (cfg1 a).N) (d) : dat.before 2 t d = gepBlk1 V a c 2 t :=
  (dat.before_in_eq_fetched 2 rfl (fun _ => rfl) (fun _ _ _ => rfl)
      (fun t => by rw [hafter]; unfold Dat.blockOf gepBlk1; rw [hA]; try rfl) t d).trans
    (by unfold Dat.fetched Dat.blockOf gepBlk1; rw [hA]; try rfl)
theorem gepBefore1_3_of {c : Dev nD} (dat : Dat τ (Elt F) Unit ℕ (UR sig nD τ) ℕ (cfg1 a) c) (hA : dat.A 3 = V c (Pipeline.arrRef spec1 3))
    (hafter : ∀ t, dat.after 3 t = gepBlk1 V a c 3 t) (t : Fin (cfg1 a).N) (d) : dat.before 3 t d = gepBlk1 V a c 3 t :=
  (dat.before_in_eq_fetched 3 rfl (fun _ => rfl) (fun _ _ _ => rfl)
      (fun t => by rw [hafter]; unfold Dat.blockOf gepBlk1; rw [hA]; try rfl) t d).trans
    (by unfold Dat.fetched Dat.blockOf gepBlk1; rw [hA]; try rfl)

/-- What the body leaves in the output's staging buffer: its single store, read back as the buffer's contents. The
    payload takes the edge features, the edge weights, the gathered row and the bias row, in the order the body reads
    them. -/
def gepOut1 (g : Vec F S1x1x128 .f32) (e : Vec F S1x1x6 .f32) (w : Vec F S6x128 .f32) (b : Vec F S1x128 .f32) : Vec F S1x1x128 .f32 :=
  View.canon [⟨rG, k1_pay1 (View.ld e rE) (View.ld w rWe) (View.ld g rG) (View.ld b rBe)⟩]

/-- That store writes the whole buffer. -/
theorem gepCover1 (p : Vec F S1x1x128 .f32) (y : S1x1x128.Idx) :
    ∃ pc ∈ ([⟨rG, p⟩] : List (View.Piece (Elt F) S1x1x128 .f32)), y ∈ pc.1.set :=
  View.cover_of_tiled [⟨rG, p⟩] S1x1x128.size (by rfl) y

set_option maxHeartbeats 4000000 in
/-- The body's triple: run on whole staging buffers, the four inputs at known contents and the output at anything, it
    returns with the inputs as they were and the output at `gepOut1` of them. The table's memref is an argument the
    body never reads. -/
theorem gepKernel1 (c : Dev nD) (E : Set ℕ) (i : grid1.Coords)
    (arg1 : Memref sig .tc .smem S50000 .i32) (harg1 : arg1.IsWhole)
    (arg2 : Memref sig .tc .vmem S1x1x128 .f32) (harg2 : arg2.IsWhole) (arg3 : Memref sig .tc .vmem S1x1x6 .f32) (harg3 : arg3.IsWhole)
    (arg4 : Memref sig .tc .vmem S6x128 .f32) (harg4 : arg4.IsWhole) (arg5 : Memref sig .tc .vmem S1x128 .f32) (harg5 : arg5.IsWhole)
    (arg6 : Memref sig .tc .vmem S1x1x128 .f32) (harg6 : arg6.IsWhole)
    (g : Vec F S1x1x128 .f32) (e : Vec F S1x1x6 .f32) (w : Vec F S6x128 .f32) (b : Vec F S1x128 .f32) (K : PUnit → sProp 𝕄) :
    iprop(owns (c : Thread nD τ) arg2 fullShare g ∗ owns (c : Thread nD τ) arg3 fullShare e ∗ owns (c : Thread nD τ) arg4 fullShare w
        ∗ owns (c : Thread nD τ) arg5 fullShare b ∗ (∃ d, owns (c : Thread nD τ) arg6 fullShare d)
        ∗ (iprop(owns (c : Thread nD τ) arg2 fullShare g ∗ owns (c : Thread nD τ) arg3 fullShare e ∗ owns (c : Thread nD τ) arg4 fullShare w
            ∗ owns (c : Thread nD τ) arg5 fullShare b ∗ owns (c : Thread nD τ) arg6 fullShare (gepOut1 g e w b)) -∗ K ⟨⟩))
      ⊢ wp frame (wpE (defs₀ (F := F)) Variants.none c none) E
          (cc1__gep_kernel i arg1 harg1 arg2 harg2 arg3 harg3 arg4 harg4 arg5 harg5 arg6 harg6) K := by
  simp only [cc1__gep_kernel_eq_skeleton]; unfold cc1__gep_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (gepCover1 _)

/-- The region's proof data on core `c`: its arrays as found; after the body each input buffer at its block and the
    output buffer at `gepOut1` of the four input blocks; the invariant the scoped rest, the generator register and the
    table, held whole and never touched; nothing owed; full shares. -/
def gepDat1 (c : Dev nD) : Dat τ (Elt F) Unit ℕ (UR sig nD τ) ℕ (cfg1 a) c where
  A w := V c (Pipeline.arrRef spec1 w)
  after w t := match w with
    | ⟨0, _⟩ => gepBlk1 V a c 0 t
    | ⟨1, _⟩ => gepBlk1 V a c 1 t
    | ⟨2, _⟩ => gepBlk1 V a c 2 t
    | ⟨3, _⟩ => gepBlk1 V a c 3 t
    | ⟨4, _⟩ => gepOut1 (gepBlk1 V a c 0 t) (gepBlk1 V a c 1 t) (gepBlk1 V a c 2 t) (gepBlk1 V a c 3 t)
  Φ _ := iprop(Pipeline.ΦA spec1 c ∗ Pipeline.prefHeld pre1 c (fun _ => fullShare) a.1)
  q _ := fullShare
  owed _ := 0

theorem gepDat1_A (c : Dev nD) (w : Fin (cfg1 a).W) : (gepDat1 V a c).A w = V c (Pipeline.arrRef spec1 w) := by
  dsimp only [gepDat1]
theorem gepAfter1_0 (c : Dev nD) (t : Fin (cfg1 a).N) : (gepDat1 V a c).after 0 t = gepBlk1 V a c 0 t := by dsimp only [gepDat1]; try rfl
theorem gepAfter1_1 (c : Dev nD) (t : Fin (cfg1 a).N) : (gepDat1 V a c).after 1 t = gepBlk1 V a c 1 t := by dsimp only [gepDat1]; try rfl
theorem gepAfter1_2 (c : Dev nD) (t : Fin (cfg1 a).N) : (gepDat1 V a c).after 2 t = gepBlk1 V a c 2 t := by dsimp only [gepDat1]; try rfl
theorem gepAfter1_3 (c : Dev nD) (t : Fin (cfg1 a).N) : (gepDat1 V a c).after 3 t = gepBlk1 V a c 3 t := by dsimp only [gepDat1]; try rfl
theorem gepAfter1_4 (c : Dev nD) (t : Fin (cfg1 a).N) :
    (gepDat1 V a c).after 4 t = gepOut1 (gepBlk1 V a c 0 t) (gepBlk1 V a c 1 t) (gepBlk1 V a c 2 t) (gepBlk1 V a c 3 t) := by
  dsimp only [gepDat1]; try rfl

theorem gepBefore1_0 (c : Dev nD) (t : Fin (cfg1 a).N) (d) : (gepDat1 V a c).before 0 t d = gepBlk1 V a c 0 t :=
  gepBefore1_0_of V a (gepDat1 V a c) (gepDat1_A V a c 0) (gepAfter1_0 V a c) t d
theorem gepBefore1_1 (c : Dev nD) (t : Fin (cfg1 a).N) (d) : (gepDat1 V a c).before 1 t d = gepBlk1 V a c 1 t :=
  gepBefore1_1_of V a (gepDat1 V a c) (gepDat1_A V a c 1) (gepAfter1_1 V a c) t d
theorem gepBefore1_2 (c : Dev nD) (t : Fin (cfg1 a).N) (d) : (gepDat1 V a c).before 2 t d = gepBlk1 V a c 2 t :=
  gepBefore1_2_of V a (gepDat1 V a c) (gepDat1_A V a c 2) (gepAfter1_2 V a c) t d
theorem gepBefore1_3 (c : Dev nD) (t : Fin (cfg1 a).N) (d) : (gepDat1 V a c).before 3 t d = gepBlk1 V a c 3 t :=
  gepBefore1_3_of V a (gepDat1 V a c) (gepDat1_A V a c 3) (gepAfter1_3 V a c) t d

/-- The staging buffer window `w` is on at point `t`. -/
abbrev gepSt1_0 (t : Fin (cfg1 a).N) := spec1_0.stage ((cfg1 a).slots t 0)
abbrev gepSt1_1 (t : Fin (cfg1 a).N) := spec1_1.stage ((cfg1 a).slots t 1)
abbrev gepSt1_2 (t : Fin (cfg1 a).N) := spec1_2.stage ((cfg1 a).slots t 2)
abbrev gepSt1_3 (t : Fin (cfg1 a).N) := spec1_3.stage ((cfg1 a).slots t 3)
abbrev gepSt1_4 (t : Fin (cfg1 a).N) := spec1_4.stage ((cfg1 a).slots t 4)

/-- The kernel body as the pipeline calls it at point `t`. -/
abbrev gepBodyAt1 (t : Fin (cfg1 a).N) : Prog (TpuEff nD τ sig (Elt F) Λ₀ .tc) PUnit :=
  cc1__gep_kernel (grid1.coords t) (Memref.whole main_v10) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))

/-- The body at any grid point meets the pipeline's obligation: it finds each input buffer at its block, so the triple
    applies; the invariant and what the core owes pass through unread. -/
theorem gepObligation1 (c : Dev nD) : BodyObligation (gepDat1 (F := F) V a c) (defs₀ (F := F)) Variants.none () Set.univ := fun t => by
  rw [bigSep_W1, bigSep_W1]
  show iprop((gepDat1 V a c).Φ t.castSucc ∗ (gepDat1 V a c).owesAt () t.castSucc
      ∗ (∃ d, owns (c : Thread nD τ) (gepSt1_0 a t) fullShare ((gepDat1 V a c).before 0 t d))
      ∗ (∃ d, owns (c : Thread nD τ) (gepSt1_1 a t) fullShare ((gepDat1 V a c).before 1 t d))
      ∗ (∃ d, owns (c : Thread nD τ) (gepSt1_2 a t) fullShare ((gepDat1 V a c).before 2 t d))
      ∗ (∃ d, owns (c : Thread nD τ) (gepSt1_3 a t) fullShare ((gepDat1 V a c).before 3 t d))
      ∗ (∃ d, owns (c : Thread nD τ) (gepSt1_4 a t) fullShare ((gepDat1 V a c).before 4 t d)))
    ⊢ wp frame (wpE (defs₀ (F := F)) Variants.none c none) Set.univ (gepBodyAt1 a t) (fun _ =>
      iprop((gepDat1 V a c).Φ t.succ ∗ (gepDat1 V a c).owesAt () t.succ
        ∗ owns (c : Thread nD τ) (gepSt1_0 a t) fullShare ((gepDat1 V a c).after 0 t)
        ∗ owns (c : Thread nD τ) (gepSt1_1 a t) fullShare ((gepDat1 V a c).after 1 t)
        ∗ owns (c : Thread nD τ) (gepSt1_2 a t) fullShare ((gepDat1 V a c).after 2 t)
        ∗ owns (c : Thread nD τ) (gepSt1_3 a t) fullShare ((gepDat1 V a c).after 3 t)
        ∗ owns (c : Thread nD τ) (gepSt1_4 a t) fullShare ((gepDat1 V a c).after 4 t)))
  unfold gepBodyAt1
  simp only [gepBefore1_0, gepBefore1_1, gepBefore1_2, gepBefore1_3]
  rw [show (gepDat1 V a c).Φ t.succ = (gepDat1 V a c).Φ t.castSucc from rfl,
    show (gepDat1 V a c).owesAt () t.succ = (gepDat1 V a c).owesAt () t.castSucc from rfl,
    gepAfter1_0, gepAfter1_1, gepAfter1_2, gepAfter1_3, gepAfter1_4]
  iintro ⟨HΦ, Ho, ⟨%d0, H0⟩, ⟨%d1, H1⟩, ⟨%d2, H2⟩, ⟨%d3, H3⟩, ⟨%d4, H4⟩⟩
  iapply (gepKernel1 c Set.univ _ _ _ _ _ _ _ _ _ _ _ _ _
    (gepBlk1 V a c 0 t) (gepBlk1 V a c 1 t) (gepBlk1 V a c 2 t) (gepBlk1 V a c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hand

end
-- ==== Proof.StateI.lean ====
/- What rides beside the buffers through every item of @main: the core's generator register at some state and the core
   owing nothing; no level is assigned, no variant is used. -/
import proofs.«403578_j46067819217039_2_alg».proof.Proof.FoldI

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
/-- The same beside every item. -/
abbrev E : Fin 18 → Dev nD → sProp 𝕄 := fun _ c => R (F := F) c

end Cert.KernelIdeal.Hand

end
-- ==== Proof.Reg0I.lean ====
/- Region 0 of @main as a segment of the run: entered from every unscoped buffer at the contents after the first host
   stretch, left with its output array at what its write-backs leave and every other buffer as entered. Its four
   arrays are split out of the unscoped buffers at entry and put back at exit; the generator register goes into the
   pipeline's invariant and comes back; nothing is owed; the kernel has no semaphore of its own. -/
import proofs.«403578_j46067819217039_2_alg».proof.Proof.StateI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- After the region each of its arrays holds what the pipeline leaves there: the inputs what they held, the output its
    write-backs. -/
theorem exitArr0 (c : Dev nD) (w : Fin cfg0.W) : (pdats m hO 0 c).arrAt w cfg0.N = (fun b : Ref sig .tc => W2 m c b) (Pipeline.arrRef spec0 w) :=
  match w with
  | ⟨0, _⟩ => ((nodeDat (U1 m) c).arrAt_in 0 rfl _).trans ((nodeDat_A (U1 m) c 0).trans (Function.update_of_ne (StableHlo.devRef_ne_of_ne (by decide)) _ _).symm)
  | ⟨1, _⟩ => ((nodeDat (U1 m) c).arrAt_in 1 rfl _).trans ((nodeDat_A (U1 m) c 1).trans (Function.update_of_ne (StableHlo.devRef_ne_of_ne (by decide)) _ _).symm)
  | ⟨2, _⟩ => ((nodeDat (U1 m) c).arrAt_in 2 rfl _).trans ((nodeDat_A (U1 m) c 2).trans (Function.update_of_ne (StableHlo.devRef_ne_of_ne (by decide)) _ _).symm)
  | ⟨3, _⟩ => by
    show X0 m c = Function.update (W1 m c) _ (X0 m c) _
    rw [Function.update_self]

/-- Every buffer that is none of the region's arrays is as entered. -/
theorem exitRest0 (c : Dev nD) : ∀ b : Ref sig .tc, b ∉ Finset.univ.image (Pipeline.arrRef spec0) → (fun b : Ref sig .tc => W2 m c b) b = U1 m c b :=
  fun b hb => Function.update_of_ne (StableHlo.devRef_ne_of_ne fun e => hb (Finset.mem_image.mpr ⟨3, Finset.mem_univ _, (show Pipeline.arrRef spec0 3 = b from e.symm)⟩)) _ _

set_option backward.isDefEq.respectTransparency.types false in
def reg0 : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (nodeObligation (U1 m) c).loose
  hwaits := Pipeline.hwaits_of_owed_zero _ _ _ _ L lv 0 fun _ _ => rfl
  pre c := iprop(StableHlo.held (c : Thread nD τ) (Pipeline.ucRefs τ sig) (W1 m c) ∗ R (F := F) c)
  post c := iprop(StableHlo.held (c : Thread nD τ) (Pipeline.ucRefs τ sig) (W2 m c) ∗ R (F := F) c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (U1 m c) (fun b : Ref sig .tc => W2 m c b) ((pdats m hO 0 c).arrAt · cfg0.N) (exitArr0 m hO c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1I.lean ====
/- Region 1 of @main as a segment of the run: entered from every unscoped buffer at the contents before it, left with
   its output array at what its write-backs leave and every other buffer as entered. Its five arrays and its table are
   split out of the unscoped buffers at entry; the table and the generator register go into the pipeline's invariant
   and come back; at exit arrays, table and rest are put together again; nothing is owed; the kernel has no semaphore
   of its own. -/
import proofs.«403578_j46067819217039_2_alg».proof.Proof.StateI
import proofs.«403578_j46067819217039_2_alg».proof.Proof.TblI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (hO : Oks m)

/-- An input window's array is never written: at every point it holds what the region found, whatever the table. -/
theorem gepArrIn1_0 (V : (c : Dev nD) → (b : Ref sig .tc) → Buf (Elt F) ((c : Thread nD τ).loc b)) (a : (pcfg1 (F := F)).Adm) (c : Dev nD) (n : ℕ) :
    (gepDat1 V a c).arrAt 0 n = V c (Pipeline.arrRef spec1 0) :=
  ((gepDat1 V a c).arrAt_in 0 rfl n).trans (gepDat1_A V a c 0)
theorem gepArrIn1_1 (V : (c : Dev nD) → (b : Ref sig .tc) → Buf (Elt F) ((c : Thread nD τ).loc b)) (a : (pcfg1 (F := F)).Adm) (c : Dev nD) (n : ℕ) :
    (gepDat1 V a c).arrAt 1 n = V c (Pipeline.arrRef spec1 1) :=
  ((gepDat1 V a c).arrAt_in 1 rfl n).trans (gepDat1_A V a c 1)
theorem gepArrIn1_2 (V : (c : Dev nD) → (b : Ref sig .tc) → Buf (Elt F) ((c : Thread nD τ).loc b)) (a : (pcfg1 (F := F)).Adm) (c : Dev nD) (n : ℕ) :
    (gepDat1 V a c).arrAt 2 n = V c (Pipeline.arrRef spec1 2) :=
  ((gepDat1 V a c).arrAt_in 2 rfl n).trans (gepDat1_A V a c 2)
theorem gepArrIn1_3 (V : (c : Dev nD) → (b : Ref sig .tc) → Buf (Elt F) ((c : Thread nD τ).loc b)) (a : (pcfg1 (F := F)).Adm) (c : Dev nD) (n : ℕ) :
    (gepDat1 V a c).arrAt 3 n = V c (Pipeline.arrRef spec1 3) :=
  ((gepDat1 V a c).arrAt_in 3 rfl n).trans (gepDat1_A V a c 3)

/-- After the region each of its arrays holds what the pipeline leaves there: the inputs what they held, the output its
    write-backs. -/
theorem exitArr1 (c : Dev nD) (w : Fin 5) :
    (pdats m hO 1 c).arrAt w (cfg1 (adm1 m hO)).N = (fun b : Ref sig .tc => W4 m hO c b) (Pipeline.arrRef spec1 w) :=
  match w with
  | 0 => (gepArrIn1_0 (U3 m hO) (adm1 m hO) c _).trans (Function.update_of_ne (StableHlo.devRef_ne_of_ne (by decide)) _ _).symm
  | 1 => (gepArrIn1_1 (U3 m hO) (adm1 m hO) c _).trans (Function.update_of_ne (StableHlo.devRef_ne_of_ne (by decide)) _ _).symm
  | 2 => (gepArrIn1_2 (U3 m hO) (adm1 m hO) c _).trans (Function.update_of_ne (StableHlo.devRef_ne_of_ne (by decide)) _ _).symm
  | 3 => (gepArrIn1_3 (U3 m hO) (adm1 m hO) c _).trans (Function.update_of_ne (StableHlo.devRef_ne_of_ne (by decide)) _ _).symm
  | 4 => by
    show X1 m hO c = Function.update (W3 m hO c) _ (X1 m hO c) _
    rw [Function.update_self]
  | ⟨_ + 5, h⟩ => absurd h (Nat.not_lt.2 (Nat.le_add_left _ _))

/-- Every buffer that is none of the region's arrays is as entered. -/
theorem exitRest1 (c : Dev nD) : ∀ b : Ref sig .tc, b ∉ Finset.univ.image (Pipeline.arrRef spec1) → (fun b : Ref sig .tc => W4 m hO c b) b = U3 m hO c b :=
  fun b hb => Function.update_of_ne (StableHlo.devRef_ne_of_ne fun e => hb (Finset.mem_image.mpr ⟨4, Finset.mem_univ _, (show Pipeline.arrRef spec1 4 = b from e.symm)⟩)) _ _

set_option backward.isDefEq.respectTransparency.types false in
def reg1 : Pipeline.RegionSeg (pcfgs (F := F)) (adm m hO) (pdats m hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (gepObligation1 (U3 m hO) (adm1 m hO) c).loose
  hwaits := Pipeline.hwaits_of_owed_zero _ _ _ _ L lv 1 fun _ _ => rfl
  pre c := iprop(StableHlo.held (c : Thread nD τ) (Pipeline.ucRefs τ sig) (W3 m hO c) ∗ R (F := F) c)
  post c := iprop(StableHlo.held (c : Thread nD τ) (Pipeline.ucRefs τ sig) (W4 m hO c) ∗ R (F := F) c)
  X c := iprop(∃ r, prngReg c r)
  Y c := iprop((∃ r, prngReg c r) ∗ Pipeline.prefHeld (Ix := Unit) (Name := ℕ) (U := UR sig nD τ) (Lvl := ℕ) pre1 c (fun _ => fullShare) (tbl1 m))
  Z c := Pipeline.unscopedRestP (Ix := Unit) (Name := ℕ) (U := UR sig nD τ) (Lvl := ℕ) pre1 spec1 c (U3 m hO c)
  hentry c := by
    rw [Pipeline.ownSems0_none]
    have hsplit := Pipeline.arrays_of_unscopedBufs (p := 1) (pcfgs (F := F)) (adm m hO) (pdats m hO) (launch1 (F := F)).win (launch1 (F := F)).arr_whole c
      ((pdats m hO 1 c).share_full fun _ => rfl) (U3 m hO c) fun _ => rfl
    have htbl : (fun k => U3 m hO c ((pcfgs (F := F) 1).pre.ref k)) = tbl1 m := tbl_at1 m hO c
    rw [Pipeline.unscopedBufs_held, Pipeline.unscopedRest_split (launch1 (F := F)).pre c (U3 m hO c), htbl] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld pre1 c (fun _ => fullShare) (tbl1 m)) from rfl]; unfold Pipeline.ΦA
    iintro ⟨Hp, Ht, Hr⟩
    isplitr [Ht]
    · isplitl [Hr]; · iexact Hr
      iexact Hp
    iexact Ht
  hout c := by
    rw [Pipeline.ownSems0_none, show (pdats m hO 1 c).Φ (Fin.last _) = iprop(Pipeline.ΦA spec1 c ∗ Pipeline.prefHeld pre1 c (fun _ => fullShare) (tbl1 m)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m hO) ((pdats m hO 1 c).share_full fun _ => rfl)
      (U3 m hO c) (fun b : Ref sig .tc => W4 m hO c b) ((pdats m hO 1 c).arrAt · (cfg1 (adm1 m hO)).N) (exitArr1 m hO c) (exitRest1 m hO c)
    have htbl : (fun k => U3 m hO c ((pcfgs (F := F) 1).pre.ref k)) = tbl1 m := tbl_at1 m hO c
    rw [Pipeline.unscopedBufs_held, Pipeline.unscopedRest_split (launch1 (F := F)).pre c (U3 m hO c), htbl] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Cert.KernelIdeal.Hand

end
-- ==== Proof.ResultI.lean ====
/- The kernel program's run with its result named: every weakly fair execution of @main terminates, the result buffer
   holds the last contents of the fold at that buffer, and the seven argument arrays hold what they held at launch. -/
import proofs.«403578_j46067819217039_2_alg».proof.Proof.RunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg) (hO : Oks m)

theorem result_run : θ_run defs (onTc (τ := τ) (main (F := F))) ⟨m, fun _ => 0, ρ⟩ (fun r => ∀ c : Dev nD,
      r.2.mem ((c.tc : Thread nD τ).loc main_v92) = W36 m hO c main_v92
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v92 (by decide))).trans (congrFun (V36_eq m hO c) _),
     (h c _ (mem_uc main_arg0 (by decide))).trans (Gen.V36_main_arg0 m (outs m hO) c),
     (h c _ (mem_uc main_arg1 (by decide))).trans (Gen.V36_main_arg1 m (outs m hO) c),
     (h c _ (mem_uc main_arg2 (by decide))).trans (Gen.V36_main_arg2 m (outs m hO) c),
     (h c _ (mem_uc main_arg3 (by decide))).trans (Gen.V36_main_arg3 m (outs m hO) c),
     (h c _ (mem_uc main_arg4 (by decide))).trans (Gen.V36_main_arg4 m (outs m hO) c),
     (h c _ (mem_uc main_arg5 (by decide))).trans (Gen.V36_main_arg5 m (outs m hO) c),
     (h c _ (mem_uc main_arg6 (by decide))).trans (Gen.V36_main_arg6 m (outs m hO) c)⟩)
    (run_all m ρ hO)

end Cert.KernelIdeal.Hand

end
-- ==== Proof.PreSrc.lean ====
/-
  THE PRECONDITION DECODED AT THE SOURCE-NODE COLUMN. The printed predicate `Cert.Pre_finite_inputs.fn` is a conjunction of
  eight one-bit words: six say that an argument array holds finite floats only, the last two say of the edge table
  `edgeIndex : i32[800000, 2]` that every entry of its column 0 is at least 0 and below 50000, both compared SIGNED:
  `jnp.all(edgeIndex[:, 0] >= 0)` and `jnp.all(edgeIndex[:, 0] < 50000)`. Each `jnp.all` is a reduction by `and` from the
  constant 1 into a one-index result, so when the predicate is the true word each compared bit is 1 at every edge `e`
  (`Host.reduce_andi_all`); the compared array is column 0 of the table, sliced to [800000, 1] and reshaped to [800000],
  which at `e` is the table at (e, 0) (`col0_apply`); and a word that is at least 0 and below 50000 signed has its
  signed value in [0, 50000), hence also its unsigned value below 50000 (`word_range`, `word_toNat_lt`).
  Everything is stated over the predicate's own function at ANY float instance, so it serves the bit-exact and the
  idealized program alike (`src_in_range_bits`, `src_in_range_ideal`).
-/
import proofs.«403578_j46067819217039_2_alg».proof.Defs
import Idealize.ShloMosaic.Lib.ReduceAll
import Idealize.ShloMosaic.Lib.ValueIdx
import Idealize.ShloMosaic.Lib.Pipeline.Value

noncomputable section

namespace Cert.PreSrc

open Idealize.ShloMosaic Idealize.SL.Sem
open Cert.Pre_finite_inputs

/-- The scalar shape has one index. -/
instance : Subsingleton S_.Idx := ⟨fun a b => funext fun d => d.elim0⟩

/-! ## Words -/

theorem ofBool_eq_one (b : Bool) : BitVec.ofBool b = 1#1 ↔ b = true := by cases b <;> decide

/-- A 32-bit word that compares at least 0 and below 50000, signed, has its signed value in [0, 50000). -/
theorem word_range (w : BitVec 32) (h0 : IntOp.cmpi .sge w 0#32 = 1#1) (h1 : IntOp.cmpi .slt w 50000#32 = 1#1) :
    0 ≤ w.toInt ∧ w.toInt < 50000 := by
  unfold IntOp.cmpi at h0 h1
  rw [ofBool_eq_one] at h0 h1
  simp only [BitVec.slt, BitVec.sle, decide_eq_true_eq] at h0 h1
  have z : (0#32 : BitVec 32).toInt = 0 := by decide
  have k : (50000#32 : BitVec 32).toInt = 50000 := by decide
  rw [z] at h0
  rw [k] at h1
  exact ⟨h0, h1⟩

/-- A 32-bit word whose signed value is in [0, 50000) has its unsigned value below 50000. -/
theorem word_toNat_lt (w : BitVec 32) (h : 0 ≤ w.toInt ∧ w.toInt < 50000) : w.toNat < 50000 := by
  obtain ⟨h0, h1⟩ := h
  have h32 := w.isLt
  unfold BitVec.toInt at h0 h1
  split at h1 <;> omega

/-! ## Column 0 of the edge table, read at an edge -/

/-- The [800000, 2] table sliced to its column 0 and reshaped to a vector reads, at edge `e`, the table at (e, 0). -/
theorem col0_apply {α : Type} (x : S800000x2.Idx → α) (hs : S800000x2.Slices ![0, 0] S800000x1) (hc : S800000x1.ShapeCasts S800000)
    (e : Fin 800000) :
    shapeCast S800000 (extractStridedSlice S800000x1 ![0, 0] x hs) hc (ValueIdx.ix1 e) = x (ValueIdx.ix2 e 0) := by
  refine (shapeCast_apply _ hc (ValueIdx.ix1 e) (ValueIdx.ix2 e (0 : Fin 1)) ?_).trans ?_
  · rw [Shape.rowMajor_val_two, Shape.rowMajor_val_one]
    simp
  · refine extractStridedSlice_apply _ x hs _ (ValueIdx.ix2 e (0 : Fin 2)) (fun a => ?_)
    fin_cases a <;> simp

variable [hPre_finite_inputs : Cert.Pre_finite_inputs.Facts]

/-! ## The predicate decoded -/

/-- When the printed predicate is the true word, both compares of column 0 are 1 at every edge. -/
theorem src_cmp {F : FTy → Type} [FloatOps F] (a0 : FVec F S50000x128 .f32) (a1 : IVec S800000x2 32) (a2 : FVec F S800000x6 .f32)
    (a3 : FVec F S128x128 .f32) (a4 : FVec F S128 .f32) (a5 : FVec F S6x128 .f32) (a6 : FVec F S128 .f32)
    (h : (Cert.Pre_finite_inputs.fn (F := F) a0 a1 a2 a3 a4 a5 a6) = (fun _ => 1#1)) (e : Fin 800000) :
    IntOp.cmpi .sge (a1 (ValueIdx.ix2 e 0)) 0#32 = 1#1 ∧ IntOp.cmpi .slt (a1 (ValueIdx.ix2 e 0)) 50000#32 = 1#1 := by
  have e0 := congrFun h ValueIdx.ix0
  dsimp only [Cert.Pre_finite_inputs.fn, Cert.Pre_finite_inputs.fn_part1, Cert.Pre_finite_inputs.fn_part2] at e0
  simp only [andi] at e0
  rw [IntOp.andi_eq_one, IntOp.andi_eq_one] at e0
  obtain ⟨⟨-, hge⟩, hlt⟩ := e0
  have g := Host.reduce_andi_all _ _ _ _ _ hge (ValueIdx.ix1 e)
  have l := Host.reduce_andi_all _ _ _ _ _ hlt (ValueIdx.ix1 e)
  simp only [cmpi, broadcastInDim, constantI, col0_apply] at g l
  exact ⟨g, l⟩

/-- THE PRECONDITION DECODED at edge `e`: the source node `edgeIndex[e, 0]` is in [0, 50000), read signed. -/
theorem src_in_range {F : FTy → Type} [FloatOps F] (a0 : FVec F S50000x128 .f32) (a1 : IVec S800000x2 32) (a2 : FVec F S800000x6 .f32)
    (a3 : FVec F S128x128 .f32) (a4 : FVec F S128 .f32) (a5 : FVec F S6x128 .f32) (a6 : FVec F S128 .f32)
    (h : (Cert.Pre_finite_inputs.fn (F := F) a0 a1 a2 a3 a4 a5 a6) = (fun _ => 1#1)) (e : Fin 800000) :
    0 ≤ (a1 (ValueIdx.ix2 e 0)).toInt ∧ (a1 (ValueIdx.ix2 e 0)).toInt < 50000 :=
  word_range _ (src_cmp a0 a1 a2 a3 a4 a5 a6 h e).1 (src_cmp a0 a1 a2 a3 a4 a5 a6 h e).2

/-- The same read unsigned: the source node `edgeIndex[e, 0]` is below 50000 as a natural number. -/
theorem src_toNat_lt {F : FTy → Type} [FloatOps F] (a0 : FVec F S50000x128 .f32) (a1 : IVec S800000x2 32) (a2 : FVec F S800000x6 .f32)
    (a3 : FVec F S128x128 .f32) (a4 : FVec F S128 .f32) (a5 : FVec F S6x128 .f32) (a6 : FVec F S128 .f32)
    (h : (Cert.Pre_finite_inputs.fn (F := F) a0 a1 a2 a3 a4 a5 a6) = (fun _ => 1#1)) (e : Fin 800000) :
    (a1 (ValueIdx.ix2 e 0)).toNat < 50000 :=
  word_toNat_lt _ (src_in_range a0 a1 a2 a3 a4 a5 a6 h e)

/-! ## At the two programs' argument buffers -/

/-- The idealized kernel's edge table, on every device. -/
theorem src_in_range_ideal (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    0 ≤ (m ((c.tc : Thread Cert.KernelIdeal.nD Cert.KernelIdeal.τ).loc Cert.KernelIdeal.main_arg1) (ValueIdx.ix2 e 0)).toInt
      ∧ (m ((c.tc : Thread Cert.KernelIdeal.nD Cert.KernelIdeal.τ).loc Cert.KernelIdeal.main_arg1) (ValueIdx.ix2 e 0)).toInt < 50000 :=
  src_in_range _ _ _ _ _ _ _ (h c) e

theorem src_toNat_lt_ideal (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    (m ((c.tc : Thread Cert.KernelIdeal.nD Cert.KernelIdeal.τ).loc Cert.KernelIdeal.main_arg1) (ValueIdx.ix2 e 0)).toNat < 50000 :=
  src_toNat_lt _ _ _ _ _ _ _ (h c) e

/-- The bit-exact kernel's edge table, on every device. -/
theorem src_in_range_bits (m : (ℓ : Loc Cert.Kernel.nD Cert.Kernel.τ Cert.Kernel.sig) → Buf (Elt Bits) ℓ)
    (h : Cert.Pre_Kernel m) (c : Dev Cert.Kernel.nD) (e : Fin 800000) :
    0 ≤ (m ((c.tc : Thread Cert.Kernel.nD Cert.Kernel.τ).loc Cert.Kernel.main_arg1) (ValueIdx.ix2 e 0)).toInt
      ∧ (m ((c.tc : Thread Cert.Kernel.nD Cert.Kernel.τ).loc Cert.Kernel.main_arg1) (ValueIdx.ix2 e 0)).toInt < 50000 :=
  src_in_range _ _ _ _ _ _ _ (h c) e

theorem src_toNat_lt_bits (m : (ℓ : Loc Cert.Kernel.nD Cert.Kernel.τ Cert.Kernel.sig) → Buf (Elt Bits) ℓ)
    (h : Cert.Pre_Kernel m) (c : Dev Cert.Kernel.nD) (e : Fin 800000) :
    (m ((c.tc : Thread Cert.Kernel.nD Cert.Kernel.τ).loc Cert.Kernel.main_arg1) (ValueIdx.ix2 e 0)).toNat < 50000 :=
  src_toNat_lt _ _ _ _ _ _ _ (h c) e

end Cert.PreSrc

end
-- ==== Proof.OksPre.lean ====
/-
  THE PRECONDITION, IN THE FORMS THE ASSEMBLY TAKES IT. The printed precondition says of the edge table that every
  source index `edgeIndex[e, 0]` is in [0, 50000) read signed (`Cert.PreSrc`). Two consequences are stated here over each
  program's launch memory. Read unsigned, every source index is below 50000, so each of the sixteen prefetched tables —
  a slice of the source indices — keeps every gathered block inside the [50000, 1, 128] array of node features:
  `oks_ideal` for the idealized program, `oks_bits` for the bit-exact one. And the signed range itself, at the
  idealized program's edge table on every device: `src_range_ideal`.
-/
import proofs.«403578_j46067819217039_2_alg».proof.Proof.PreSrc
import proofs.«403578_j46067819217039_2_alg».proof.Proof.TblValI
import proofs.«403578_j46067819217039_2_alg».proof.Proof.TblValB

noncomputable section

namespace Cert.OksPre

open Idealize.ShloMosaic Idealize.SL.Sem

variable [hPre_finite_inputs : Cert.Pre_finite_inputs.Facts]

/-- Under the precondition every table of the idealized program keeps every gathered block in range. -/
theorem oks_ideal (m : (ℓ : Loc Cert.KernelIdeal.nD Cert.KernelIdeal.τ Cert.KernelIdeal.sig) → Buf (Elt Ideal) ℓ)
    (h : Cert.Pre_KernelIdeal m) : Cert.KernelIdeal.Hand.Oks m :=
  Cert.KernelIdeal.Hand.oks_of_src m (fun e => Cert.PreSrc.src_toNat_lt_ideal m h 0 e)

/-- Under the precondition every table of the bit-exact program keeps every gathered block in range. -/
theorem oks_bits (m : (ℓ : Loc Cert.Kernel.nD Cert.Kernel.τ Cert.Kernel.sig) → Buf (Elt Bits) ℓ)
    (h : Cert.Pre_Kernel m) : Cert.Kernel.Hand.Oks m :=
  Cert.Kernel.Hand.oks_of_src m (fun e => Cert.PreSrc.src_toNat_lt_bits m h 0 e)

section Ideal

open Cert.KernelIdeal Idealize.ShloMosaic.TcCoe

/-- Under the precondition every source index of the idealized program's edge table is in [0, 50000), read signed. -/
theorem src_range_ideal (m : (ℓ : Loc nD τ sig) → Buf (Elt Ideal) ℓ) (h : Cert.Pre_KernelIdeal m) (c : Dev nD) (e : Fin 800000) :
    0 ≤ (m ((c : Thread nD τ).loc main_arg1) (ValueIdx.ix2 e 0)).toInt
      ∧ (m ((c : Thread nD τ).loc main_arg1) (ValueIdx.ix2 e 0)).toInt < 50000 :=
  Cert.PreSrc.src_in_range_ideal m h c e

end Ideal

end Cert.OksPre

end
-- ==== Proof.GepValCommon.lean ====
/- The gather-and-edge-linear kernel's result as ONE function of its arrays: row i is row src(i) of the transformed node
   features, plus edge i's six features times the edge weights, plus the bias row. Beside it the body's arithmetic as one
   term of the four blocks it loads, that term read at an index (the product into a zero accumulator is the plain sum
   over the six features), and the step from the four blocks at a point to one row of the result. Nothing here names
   a region: every shape is literal. -/
import proofs.«403578_j46067819217039_2_alg».proof.Proof.GepCommonI
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic
open scoped BigOperators

/-- Row i of the result: row src(i) of the transformed node features, plus the edge's six features times the
    edge weights, plus the bias row. -/
def gepG (src : Fin 50000 → Fin 50000) (T3 : Vec Ideal S50000x1x128 .f32) (ef3 : Vec Ideal S50000x1x6 .f32)
    (We : Vec Ideal S6x128 .f32) (be2 : Vec Ideal S1x128 .f32) : Vec Ideal S50000x1x128 .f32 :=
  fun i => (T3 (ValueIdx.ix3 (src (i 0)) 0 (i 2)) + ∑ k : Fin 6, ef3 (ValueIdx.ix3 (i 0) 0 k) * We (ValueIdx.ix2 k (i 2)))
    + be2 (ValueIdx.ix2 0 (i 2))

theorem hz3 : (![0, 0, 0] : Fin 3 → Nat) = fun _ => 0 := funext fun a => by fin_cases a <;> rfl
theorem hz2 : (![0, 0] : Fin 2 → Nat) = fun _ => 0 := funext fun a => by fin_cases a <;> rfl

section Payload
variable {F : FTy → Type} [FloatOps F]

/-- The body's arithmetic as one term of its four loaded blocks: the gathered row and the bias row with their unit
    axes dropped, the features times the weights into a zero accumulator, the two sums, and the unit axis put back. -/
def gepPay (e : Vec F S1x1x6 .f32) (w : Vec F S6x128 .f32) (g : Vec F S1x1x128 .f32) (b : Vec F S1x128 .f32) :
    FVec F S1x1x128 .f32 :=
  have v1 : FVec F S1x6 .f32 := shapeCast S1x6 e shapeCasts_S1x1x6_S1x6
  have cst : FVec F S1x128 .f32 := constant S1x128 .f32 0x00000000#32
  have v3 : FVec F S1x128 .f32 := matmul dot_S1x6_S6x128_S1x128_1_0_0_1_n_n (some .fp32) v1 w cst
  have v5 : FVec F S1x128 .f32 := shapeCast S1x128 g shapeCasts_S1x1x128_S1x128
  have v6 : FVec F S1x128 .f32 := addf v5 v3
  have v8 : FVec F S1x128 .f32 := shapeCast S1x128 b shapeCasts_S1x128_S1x128
  have v9 : FVec F S1x128 .f32 := addf v6 v8
  shapeCast S1x1x128 v9 shapeCasts_S1x128_S1x1x128

end Payload

/-! ## The features-times-weights product at an index -/

/-- The product's dimension numbers: the left operand's axis 0 is the result's row, -/
theorem gepDot_lhs_0 (i : S1x128.Idx) (q : dot_S1x6_S6x128_S1x128_1_0_0_1_n_n.contr.Idx) :
    (dot_S1x6_S6x128_S1x128_1_0_0_1_n_n.lhsIdx i q 0).val = (i 0).val := by
  unfold DotDims.lhsIdx
  rw [dif_neg (show ¬(0 : Fin S1x6.rank) ∈ dot_S1x6_S6x128_S1x128_1_0_0_1_n_n.lhsBatch by decide), dif_pos (show (0 : Fin S1x6.rank) ∈ dot_S1x6_S6x128_S1x128_1_0_0_1_n_n.lhsNonContracting by decide)]
  rfl
/-- its axis 1 the contraction's one coordinate; -/
theorem gepDot_lhs_1 (i : S1x128.Idx) (q : dot_S1x6_S6x128_S1x128_1_0_0_1_n_n.contr.Idx) :
    (dot_S1x6_S6x128_S1x128_1_0_0_1_n_n.lhsIdx i q 1).val = (q ⟨0, by decide⟩).val :=
  dot_S1x6_S6x128_S1x128_1_0_0_1_n_n.lhsIdx_val_of_single rfl i q
/-- the right operand's axis 0 is the contraction's coordinate, -/
theorem gepDot_rhs_0 (i : S1x128.Idx) (q : dot_S1x6_S6x128_S1x128_1_0_0_1_n_n.contr.Idx) :
    (dot_S1x6_S6x128_S1x128_1_0_0_1_n_n.rhsIdx i q 0).val = (q ⟨0, by decide⟩).val :=
  dot_S1x6_S6x128_S1x128_1_0_0_1_n_n.rhsIdx_val_of_single rfl i q
/-- its axis 1 the result's lane. -/
theorem gepDot_rhs_1 (i : S1x128.Idx) (q : dot_S1x6_S6x128_S1x128_1_0_0_1_n_n.contr.Idx) :
    (dot_S1x6_S6x128_S1x128_1_0_0_1_n_n.rhsIdx i q 1).val = (i 1).val := by
  unfold DotDims.rhsIdx
  rw [dif_neg (show ¬(1 : Fin S6x128.rank) ∈ dot_S1x6_S6x128_S1x128_1_0_0_1_n_n.rhsBatch by decide), dif_pos (show (1 : Fin S6x128.rank) ∈ dot_S1x6_S6x128_S1x128_1_0_0_1_n_n.rhsNonContracting by decide)]
  rfl

/-- Into a zero accumulator the product at (u, q) is the sum over the six features of feature k times weight (k, q). -/
theorem gepMM_apply (l : FVec Ideal S1x6 .f32) (r : FVec Ideal S6x128 .f32) (u : Fin 1) (q : Fin 128) :
    matmul dot_S1x6_S6x128_S1x128_1_0_0_1_n_n (some .fp32) l r (constant (F := Ideal) S1x128 .f32 0x00000000#32) (ValueIdx.ix2 u q)
      = ∑ k : Fin 6, l (ValueIdx.ix2 u k) * r (ValueIdx.ix2 k q) := by
  refine (Ideal.matmul_constant_zero_apply dot_S1x6_S6x128_S1x128_1_0_0_1_n_n (some .fp32) l r (ValueIdx.ix2 u q)).trans ?_
  rw [← Equiv.sum_comp (ValueIdx.contrEquiv1 dot_S1x6_S6x128_S1x128_1_0_0_1_n_n 6 rfl rfl).symm]
  refine Finset.sum_congr rfl fun k _ => ?_
  have hk := ValueIdx.contrEquiv1_symm_val dot_S1x6_S6x128_S1x128_1_0_0_1_n_n 6 rfl rfl k
  have el : dot_S1x6_S6x128_S1x128_1_0_0_1_n_n.lhsIdx (ValueIdx.ix2 u q) ((ValueIdx.contrEquiv1 dot_S1x6_S6x128_S1x128_1_0_0_1_n_n 6 rfl rfl).symm k) = ValueIdx.ix2 u k := funext fun a => Fin.ext (by
    match a with
    | ⟨0, _⟩ => exact gepDot_lhs_0 _ _
    | ⟨1, _⟩ => exact (gepDot_lhs_1 _ _).trans hk)
  have er : dot_S1x6_S6x128_S1x128_1_0_0_1_n_n.rhsIdx (ValueIdx.ix2 u q) ((ValueIdx.contrEquiv1 dot_S1x6_S6x128_S1x128_1_0_0_1_n_n 6 rfl rfl).symm k) = ValueIdx.ix2 k q := funext fun a => Fin.ext (by
    match a with
    | ⟨0, _⟩ => exact (gepDot_rhs_0 _ _).trans hk
    | ⟨1, _⟩ => exact gepDot_rhs_1 _ _)
  rw [el, er]

/-! ## The payload at an index -/

/-- Lane q of the payload: lane q of the gathered row, plus the six features times column q of the weights, plus
    lane q of the bias row. -/
theorem gepPay_apply (e : FVec Ideal S1x1x6 .f32) (w : FVec Ideal S6x128 .f32) (g : FVec Ideal S1x1x128 .f32) (b : FVec Ideal S1x128 .f32)
    (u v : Fin 1) (q : Fin 128) :
    gepPay (F := Ideal) e w g b (ValueIdx.ix3 u v q)
      = (g (ValueIdx.ix3 0 0 q) + ∑ k : Fin 6, e (ValueIdx.ix3 0 0 k) * w (ValueIdx.ix2 k q)) + b (ValueIdx.ix2 0 q) := by
  obtain rfl : v = 0 := Subsingleton.elim _ _
  unfold gepPay
  refine (ValueIdx.shapeCast_ab_1ab_apply _ shapeCasts_S1x128_S1x1x128 u 0 q).trans ?_
  show (shapeCast S1x128 g shapeCasts_S1x1x128_S1x128 (ValueIdx.ix2 0 q)
      + matmul dot_S1x6_S6x128_S1x128_1_0_0_1_n_n (some .fp32) (shapeCast S1x6 e shapeCasts_S1x1x6_S1x6) w (constant (F := Ideal) S1x128 .f32 0x00000000#32) (ValueIdx.ix2 0 q))
    + shapeCast S1x128 b shapeCasts_S1x128_S1x128 (ValueIdx.ix2 0 q) = _
  rw [ValueIdx.shapeCast_1ab_ab_apply g shapeCasts_S1x1x128_S1x128 0 q, gepMM_apply, shapeCast_self b shapeCasts_S1x128_S1x128]
  refine congrArg (fun s => (g (ValueIdx.ix3 0 0 q) + s) + b (ValueIdx.ix2 0 q)) ?_
  refine Finset.sum_congr rfl fun k _ => ?_
  rw [ValueIdx.shapeCast_1ab_ab_apply e shapeCasts_S1x1x6_S1x6 0 k]

/-! ## One row of the result from the four blocks a point reads -/

/-- A 32-bit word made of a number below 50000 is that number. -/
theorem gepWord_toNat (n : Nat) (h : n < 50000) : (BitVec.ofNat 32 n).toNat = n := by
  rw [BitVec.toNat_ofNat]; exact Nat.mod_eq_of_lt (by omega)

/-- When the gathered block is row src(r) of the node features, the feature block row r of the edge features, and the
    weight and bias blocks the whole arrays, the payload is row r of the result. -/
theorem gepPay_row (src : Fin 50000 → Fin 50000) (T3 : Vec Ideal S50000x1x128 .f32) (ef3 : Vec Ideal S50000x1x6 .f32)
    (We : Vec Ideal S6x128 .f32) (be2 : Vec Ideal S1x128 .f32)
    (e : FVec Ideal S1x1x6 .f32) (w : FVec Ideal S6x128 .f32) (g : FVec Ideal S1x1x128 .f32) (b : FVec Ideal S1x128 .f32)
    (r : Fin 50000)
    (hg : ∀ q : Fin 128, g (ValueIdx.ix3 0 0 q) = T3 (ValueIdx.ix3 (src r) 0 q))
    (he : ∀ k : Fin 6, e (ValueIdx.ix3 0 0 k) = ef3 (ValueIdx.ix3 r 0 k))
    (hw : ∀ (k : Fin 6) (q : Fin 128), w (ValueIdx.ix2 k q) = We (ValueIdx.ix2 k q))
    (hb : ∀ q : Fin 128, b (ValueIdx.ix2 0 q) = be2 (ValueIdx.ix2 0 q))
    (u v : Fin 1) (q : Fin 128) :
    gepPay (F := Ideal) e w g b (ValueIdx.ix3 u v q) = gepG src T3 ef3 We be2 (ValueIdx.ix3 r 0 q) := by
  rw [gepPay_apply, hg, hb]
  show _ = (T3 (ValueIdx.ix3 (src r) 0 q) + ∑ k : Fin 6, ef3 (ValueIdx.ix3 r 0 k) * We (ValueIdx.ix2 k q)) + be2 (ValueIdx.ix2 0 q)
  refine congrArg (fun s => (T3 (ValueIdx.ix3 (src r) 0 q) + s) + be2 (ValueIdx.ix2 0 q)) (Finset.sum_congr rfl fun k _ => ?_)
  rw [he, hw]

end Cert.KernelIdeal.Hand

end
-- ==== Proof.GepVal1.lean ====
/- Region 1's output array as one function. At grid point t the pipeline hands the body row src(t) of the transformed
   node features (the gather window's block index is the table's word at t), row t of the edge features, the edge
   weights and the bias row; the body's one store is the payload of those four blocks; the output window's block at
   t is row t. So point t writes row t of the result, every row is some point's, and the array ends as the result.
   The table's contents stay a variable throughout: only its admissibility is used, for src(t) < 50000. -/
import proofs.«403578_j46067819217039_2_alg».proof.Proof.Gep1I
import proofs.«403578_j46067819217039_2_alg».proof.Proof.GepValCommon
import Idealize.ShloMosaic.Lib.ValueIdx
import Idealize.ShloMosaic.Lib.Pipeline.Value

noncomputable section

namespace Cert.KernelIdeal.Hand

open Cert.KernelIdeal Cert.KernelIdeal.Gen
open Idealize.ShloMosaic
open scoped BigOperators

open Idealize.ShloMosaic.TcCoe Idealize.SL.Sem
open Idealize.ShloMosaic.Pipeline (Dat Cfg Window)

/-! ## The table's word at a point -/

/-- Window 0's block index at grid coordinates i: the table's word at i, then zeros. -/
theorem gepTbl1 {F : FTy → Type} [FloatOps F] (pf : pre1.Contents (Elt F)) (i : grid1.Coords) :
    cc1_transform_0 k1_off1_inb numel1_S1 pf i = ![(pf 0 (ValueIdx.ix1 (i 0))).toNat, 0, 0] := by
  have hi : (i 0).val < 50000 := (i 0).isLt
  have hemb : (Rect.unit (s := S50000) ![(Scalar.indexCast (BitVec.ofNat 32 (i 0).val)).toNat] S1.size (k1_off1_inb i)).emb
      (Shape.Idx.first (numel1_S1.symm ▸ Nat.one_pos)) = ValueIdx.ix1 (i 0) := by
    funext d
    match d with
    | ⟨0, _⟩ =>
      apply Fin.ext
      show (Scalar.indexCast (BitVec.ofNat 32 (i 0).val)).toNat + 1 * 0 = (i 0).val
      rw [show Scalar.indexCast (BitVec.ofNat 32 (i 0).val) = BitVec.ofNat 32 (i 0).val from rfl, gepWord_toNat _ hi]
      omega
  unfold cc1_transform_0
  funext d
  match d with
  | ⟨0, _⟩ => exact congrArg (fun x => (pf 0 x).toNat) hemb
  | ⟨1, _⟩ => rfl
  | ⟨2, _⟩ => rfl

/-! ## The row a point gathers -/

/-- The grid's one coordinate at point t is t. -/
theorem gepCoord1 (t : Fin grid1.N) : (grid1.coords t 0).val = t.val := by
  have ht : t.val < 50000 := N_1 ▸ t.isLt
  have hs : grid1.stride 0 = 1 := by decide
  show t.val / grid1.stride 0 % 50000 = t.val
  rw [hs, Nat.div_one, Nat.mod_eq_of_lt ht]

/-- Admissible contents keep every word below the number of rows. -/
theorem gepSrcLt1 (a : (pcfg1 (F := Ideal)).Adm) (e : Fin 50000) : (a.1 0 (ValueIdx.ix1 e)).toNat < 50000 := by
  obtain ⟨h, -⟩ := a.2 (fun d => match d with | ⟨0, _⟩ => e)
  have h0 := h 0
  rw [gepTbl1] at h0
  have h1 : ((a.1 0 (ValueIdx.ix1 e)).toNat + 1) * 1 ≤ 50000 := h0
  omega

/-- The row of the node features that point e gathers: the table's word at e. -/
def srcOf1 (a : (pcfg1 (F := Ideal)).Adm) : Fin 50000 → Fin 50000 := fun e => ⟨(a.1 0 (ValueIdx.ix1 e)).toNat, gepSrcLt1 a e⟩

theorem srcOf1_val (a : (pcfg1 (F := Ideal)).Adm) (e : Fin 50000) : (srcOf1 a e).val = (a.1 0 (ValueIdx.ix1 e)).toNat := rfl

variable (V : (c : Dev nD) → (b : Ref sig .tc) → Buf (Elt Ideal) ((c : Thread nD τ).loc b)) (a : (pcfg1 (F := Ideal)).Adm)

/-- A grid point as a row number. -/
def gepRow1 (t : Fin (cfg1 a).N) : Fin 50000 := ⟨t.val, lt_of_lt_of_eq t.isLt N_1⟩

/-! ## The windows' block indices at a point -/

/-- The gather window's block at point t is row src(t). -/
theorem gepIdx1_0 (t : Fin (cfg1 a).N) : ((cfg1 a).win 0).index t = ![(srcOf1 a (gepRow1 a t)).val, 0, 0] := by
  show cc1_transform_0 k1_off1_inb numel1_S1 a.1 (grid1.coords t) = _
  rw [gepTbl1]
  have e : grid1.coords t 0 = gepRow1 a t := Fin.ext (gepCoord1 t)
  exact congrArg (fun r : Fin 50000 => ![(a.1 0 (ValueIdx.ix1 r)).toNat, 0, 0]) e

/-- The edge-feature window's block at point t is row t. -/
theorem gepIdx1_1 (t : Fin (cfg1 a).N) : ((cfg1 a).win 1).index t = ![t.val, 0, 0] := by
  show cc1_transform_1 (grid1.coords t) = _
  unfold cc1_transform_1
  funext d
  match d with
  | ⟨0, _⟩ =>
    show (BitVec.ofNat 32 (grid1.coords t 0).val).toNat = t.val
    rw [gepCoord1, gepWord_toNat _ (lt_of_lt_of_eq t.isLt N_1)]
  | ⟨1, _⟩ => rfl
  | ⟨2, _⟩ => rfl

/-- The weights and the bias row are one block each. -/
theorem gepIdx1_2 (t : Fin (cfg1 a).N) : ((cfg1 a).win 2).index t = ![0, 0] := by
  show cc1_transform_2 (grid1.coords t) = _
  unfold cc1_transform_2
  funext d
  match d with
  | ⟨0, _⟩ => rfl
  | ⟨1, _⟩ => rfl
theorem gepIdx1_3 (t : Fin (cfg1 a).N) : ((cfg1 a).win 3).index t = ![0, 0] := by
  show cc1_transform_3 (grid1.coords t) = _
  unfold cc1_transform_3
  funext d
  match d with
  | ⟨0, _⟩ => rfl
  | ⟨1, _⟩ => rfl

/-- The output window's block at point t is row t. -/
theorem gepIdx1_4 (t : Fin (cfg1 a).N) : ((cfg1 a).win 4).index t = ![t.val, 0, 0] := by
  show cc1_transform_4 (grid1.coords t) = _
  unfold cc1_transform_4
  funext d
  match d with
  | ⟨0, _⟩ =>
    show (BitVec.ofNat 32 (grid1.coords t 0).val).toNat = t.val
    rw [gepCoord1, gepWord_toNat _ (lt_of_lt_of_eq t.isLt N_1)]
  | ⟨1, _⟩ => rfl
  | ⟨2, _⟩ => rfl

/-! ## What each input block holds where the payload reads it -/

/-- Lane q of the gathered block is lane q of row src(t) of the node features. -/
theorem gepRead1_0 (c : Dev nD) (t : Fin (cfg1 a).N) (q : Fin 128) :
    gepBlk1 V a c 0 t (ValueIdx.ix3 0 0 q) = V c main_v2 (ValueIdx.ix3 (srcOf1 a (gepRow1 a t)) 0 q) := by
  show V c main_v2 ((((cfg1 a).win 0).blk t).view.emb (ValueIdx.ix3 0 0 q)) = _
  refine congrArg (V c main_v2) ?_
  funext d
  apply Fin.ext
  match d with
  | ⟨0, _⟩ =>
    show ((cfg1 a).win 0).index t (0 : Fin 3) * 1 + 1 * 0 = (srcOf1 a (gepRow1 a t)).val
    rw [gepIdx1_0]; show (srcOf1 a (gepRow1 a t)).val * 1 + 1 * 0 = (srcOf1 a (gepRow1 a t)).val; omega
  | ⟨1, _⟩ =>
    show ((cfg1 a).win 0).index t (1 : Fin 3) * 1 + 1 * 0 = 0
    rw [gepIdx1_0]; rfl
  | ⟨2, _⟩ =>
    show ((cfg1 a).win 0).index t (2 : Fin 3) * 128 + 1 * q.val = q.val
    rw [gepIdx1_0]; show 0 * 128 + 1 * q.val = q.val; omega

/-- Feature k of the edge-feature block is feature k of row t. -/
theorem gepRead1_1 (c : Dev nD) (t : Fin (cfg1 a).N) (k : Fin 6) :
    gepBlk1 V a c 1 t (ValueIdx.ix3 0 0 k) = V c main_v9 (ValueIdx.ix3 (gepRow1 a t) 0 k) := by
  show V c main_v9 ((((cfg1 a).win 1).blk t).view.emb (ValueIdx.ix3 0 0 k)) = _
  refine congrArg (V c main_v9) ?_
  funext d
  apply Fin.ext
  match d with
  | ⟨0, _⟩ =>
    show ((cfg1 a).win 1).index t (0 : Fin 3) * 1 + 1 * 0 = t.val
    rw [gepIdx1_1]; show t.val * 1 + 1 * 0 = t.val; omega
  | ⟨1, _⟩ =>
    show ((cfg1 a).win 1).index t (1 : Fin 3) * 1 + 1 * 0 = 0
    rw [gepIdx1_1]; rfl
  | ⟨2, _⟩ =>
    show ((cfg1 a).win 1).index t (2 : Fin 3) * 6 + 1 * k.val = k.val
    rw [gepIdx1_1]; show 0 * 6 + 1 * k.val = k.val; omega

/-- The weight block is the weights. -/
theorem gepRead1_2 (c : Dev nD) (t : Fin (cfg1 a).N) (k : Fin 6) (q : Fin 128) :
    gepBlk1 V a c 2 t (ValueIdx.ix2 k q) = V c main_arg5 (ValueIdx.ix2 k q) := by
  show V c main_arg5 ((((cfg1 a).win 2).blk t).view.emb (ValueIdx.ix2 k q)) = _
  refine congrArg (V c main_arg5) ?_
  funext d
  apply Fin.ext
  match d with
  | ⟨0, _⟩ =>
    show ((cfg1 a).win 2).index t (0 : Fin 2) * 6 + 1 * k.val = k.val
    rw [gepIdx1_2]; show 0 * 6 + 1 * k.val = k.val; omega
  | ⟨1, _⟩ =>
    show ((cfg1 a).win 2).index t (1 : Fin 2) * 128 + 1 * q.val = q.val
    rw [gepIdx1_2]; show 0 * 128 + 1 * q.val = q.val; omega

/-- The bias block is the bias row. -/
theorem gepRead1_3 (c : Dev nD) (t : Fin (cfg1 a).N) (q : Fin 128) :
    gepBlk1 V a c 3 t (ValueIdx.ix2 0 q) = V c main_v7 (ValueIdx.ix2 0 q) := by
  show V c main_v7 ((((cfg1 a).win 3).blk t).view.emb (ValueIdx.ix2 0 q)) = _
  refine congrArg (V c main_v7) ?_
  funext d
  apply Fin.ext
  match d with
  | ⟨0, _⟩ =>
    show ((cfg1 a).win 3).index t (0 : Fin 2) * 1 + 1 * 0 = 0
    rw [gepIdx1_3]; rfl
  | ⟨1, _⟩ =>
    show ((cfg1 a).win 3).index t (1 : Fin 2) * 128 + 1 * q.val = q.val
    rw [gepIdx1_3]; show 0 * 128 + 1 * q.val = q.val; omega

/-! ## From the blocks to the array -/

/-- What the body's one store leaves in the output buffer is the payload of the four blocks. -/
theorem gepOut1_eq (g : Vec Ideal S1x1x128 .f32) (e : Vec Ideal S1x1x6 .f32) (w : Vec Ideal S6x128 .f32) (b : Vec Ideal S1x128 .f32) :
    gepOut1 (F := Ideal) g e w b = gepPay e w g b := by
  unfold gepOut1
  rw [View.canon_unit_zero hz3]
  simp only [View.ld_unit_zero (S := S1x1x128) hz3, View.ld_unit_zero (S := S1x1x6) hz3, View.ld_unit_zero (S := S6x128) hz2,
    View.ld_unit_zero (S := S1x128) hz2]
  rfl

/-- The output's block index moves at every step, so every point writes its block back. -/
theorem gepFlush1 (t : Fin (cfg1 a).N) : ((cfg1 a).win 4).flush t = true := by
  have hN : t.val < 50000 := lt_of_lt_of_eq t.isLt N_1
  rw [Window.flush_out _ rfl]
  by_cases h : t.val + 1 = 50000
  · exact Or.inl (h.trans N_1.symm)
  · refine Or.inr ⟨lt_of_lt_of_eq (show t.val + 1 < 50000 by omega) N_1.symm, fun e => ?_⟩
    rw [gepIdx1_4, gepIdx1_4] at e
    have e0 : t.val + 1 = t.val := congrFun e 0
    omega

set_option backward.isDefEq.respectTransparency.types false in
/-- What point t writes back is the result read through the point's block. -/
theorem gepFlushed1 (c : Dev nD) (t : Fin (cfg1 a).N) :
    (gepDat1 (F := Ideal) V a c).flushed 4 t
      = (((cfg1 a).win 4).blk t).view.read (Elt Ideal) (gepG (srcOf1 a) (V c main_v2) (V c main_v9) (V c main_arg5) (V c main_v7)) := by
  show ((cfg1 a).win 4).cut ((cfg1 a).grid.coords t) ((gepDat1 V a c).after 4 t) = _
  rw [gepAfter1_4, gepOut1_eq]
  refine funext fun (y : S1x1x128.Idx) => ?_
  obtain ⟨u, v, q, rfl⟩ : ∃ (u v : Fin 1) (q : Fin 128), y = ValueIdx.ix3 u v q := ⟨y 0, y 1, y 2, ValueIdx.eq_ix3 y⟩
  show gepPay (gepBlk1 V a c 1 t) (gepBlk1 V a c 2 t) (gepBlk1 V a c 0 t) (gepBlk1 V a c 3 t) (ValueIdx.ix3 u v q)
    = gepG (srcOf1 a) (V c main_v2) (V c main_v9) (V c main_arg5) (V c main_v7) ((((cfg1 a).win 4).blk t).view.emb (ValueIdx.ix3 u v q))
  have hemb : (((cfg1 a).win 4).blk t).view.emb (ValueIdx.ix3 u v q) = ValueIdx.ix3 (gepRow1 a t) 0 q := by
    funext d
    apply Fin.ext
    match d with
    | ⟨0, _⟩ =>
      show ((cfg1 a).win 4).index t (0 : Fin 3) * 1 + 1 * u.val = t.val
      rw [gepIdx1_4]; show t.val * 1 + 1 * u.val = t.val; omega
    | ⟨1, _⟩ =>
      show ((cfg1 a).win 4).index t (1 : Fin 3) * 1 + 1 * v.val = 0
      rw [gepIdx1_4]; show 0 * 1 + 1 * v.val = 0; omega
    | ⟨2, _⟩ =>
      show ((cfg1 a).win 4).index t (2 : Fin 3) * 128 + 1 * q.val = q.val
      rw [gepIdx1_4]; show 0 * 128 + 1 * q.val = q.val; omega
  rw [hemb]
  exact gepPay_row (srcOf1 a) (V c main_v2) (V c main_v9) (V c main_arg5) (V c main_v7)
    (gepBlk1 V a c 1 t) (gepBlk1 V a c 2 t) (gepBlk1 V a c 0 t) (gepBlk1 V a c 3 t) (gepRow1 a t)
    (gepRead1_0 V a c t) (gepRead1_1 V a c t) (gepRead1_2 V a c t) (gepRead1_3 V a c t) u v q

set_option backward.isDefEq.respectTransparency.types false in
/-- An index of the output is in point t's block iff each coordinate is in the block's range on its axis. -/
theorem gepMem1 (t : Fin (cfg1 a).N) (i : S50000x1x128.Idx) :
    i ∈ (((cfg1 a).win 4).blk t).view.set ↔ ∀ d : Fin 3, ((cfg1 a).win 4).index t d * S1x1x128.size d ≤ (i d).val
      ∧ (i d).val < ((cfg1 a).win 4).index t d * S1x1x128.size d + S1x1x128.size d := by
  show i ∈ ((View.whole main_v11).slice (((cfg1 a).win 4).rect t)).set ↔ _
  rw [View.set_slice_whole]
  exact Rect.mem_set_unit

/-- Row r of the output is in the block of point r. -/
theorem gepCovered1 (i : S50000x1x128.Idx) :
    ∃ t : Fin (cfg1 a).N, ((cfg1 a).win 4).flush t = true ∧ i ∈ (((cfg1 a).win 4).blk t).view.set := by
  have hr : (i 0).val < 50000 := (i 0).isLt
  have hu : (i 1).val < 1 := (i 1).isLt
  have hq : (i 2).val < 128 := (i 2).isLt
  refine ⟨⟨(i 0).val, lt_of_lt_of_eq hr N_1.symm⟩, gepFlush1 a _, ?_⟩
  rw [gepMem1, gepIdx1_4]
  intro d
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 128 ≤ (i 2).val ∧ (i 2).val < 0 * 128 + 128; omega

/-- The region leaves in its output array, row by row, the gathered node row plus the edge's features times the
    weights plus the bias. -/
theorem gepFinal1 (c : Dev nD) :
    (gepDat1 (F := Ideal) V a c).arrAt 4 (cfg1 a).N = gepG (srcOf1 a) (V c main_v2) (V c main_v9) (V c main_arg5) (V c main_v7) :=
  (gepDat1 (F := Ideal) V a c).arrAt_eq_of_cover 4 (gepG (srcOf1 a) (V c main_v2) (V c main_v9) (V c main_arg5) (V c main_v7))
    (fun t _ => gepFlushed1 V a c t) (gepCovered1 a)

end Cert.KernelIdeal.Hand

end
-- ==== Proof.NodeVal.lean ====
/- Region 0 of @main, the node transform, read as ONE whole-array function: after the region the output array holds,
   at row r and column q, the sum over k of the node features at (r, k) times the weights at (k, q), plus the bias at
   column q. Stated at the ideal instance, where a format change is the identity and a product into a zero
   accumulator is the plain sum over the contracted axis. -/
import proofs.«403578_j46067819217039_2_alg».proof.Proof.NodeI
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe
open Idealize.SL.Sem
open Idealize.ShloMosaic.Pipeline (Dat Cfg Window)

/-- The node transform as a function of whole arrays: row r of the features times the weight matrix, plus the bias row. -/
def nodeG (x : Vec Ideal S50000x128 .f32) (w : Vec Ideal S128x128 .f32) (b2 : Vec Ideal S1x128 .f32) : Vec Ideal S50000x128 .f32 :=
  fun i => (∑ k : Fin 128, x (ValueIdx.ix2 (n0 := 50000) (n1 := 128) (i 0) k) * w (ValueIdx.ix2 (n0 := 128) (n1 := 128) k (i 1)))
    + b2 (ValueIdx.ix2 (n0 := 1) (n1 := 128) 0 (i 1))

/-! ## The contraction's operand indices, axis by axis -/

theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at row p and column q: the sum over the contracted axis. -/
theorem node_matmul_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ValueIdx.ix2 p q)
      = ∑ k : Fin 128, a (ValueIdx.ix2 p k) * b (ValueIdx.ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_node_0 _ _).trans hk
    | ⟨1, _⟩ => exact rhs_node_1 _ _)
  rw [el, er]

/-- The body's payload at row p and column q of the block. -/
theorem node_pay_apply (x0 : Vec Ideal S5000x128 .f32) (w0 : Vec Ideal S128x128 .f32) (b0 : Vec Ideal S1x128 .f32) (p : Fin 5000) (q : Fin 128) :
    k0_pay1 (F := Ideal) x0 w0 b0 (ValueIdx.ix2 p q)
      = (∑ k : Fin 128, x0 (ValueIdx.ix2 p k) * w0 (ValueIdx.ix2 k q)) + b0 (ValueIdx.ix2 (n0 := 1) 0 q) := by
  unfold k0_pay1
  rw [ValueIdx.addf_apply]
  rw [node_matmul_apply]
  rw [shapeCast_self, broadcastTo_apply b0 broadcasts_S1x128_S5000x128 (ValueIdx.ix2 p q) (ValueIdx.ix2 (n0 := 1) 0 q)
    (fun a => by match a with | ⟨0, _⟩ => rfl | ⟨1, _⟩ => rfl)]
  simp only [ValueIdx.truncf_apply]

/-! ## The staging buffer after the body, as a function of the three input blocks -/

theorem hzero : (![0, 0] : Fin 2 → Nat) = fun _ => 0 := funext fun a => by fin_cases a <;> rfl

/-- The body's single store covers the whole buffer, and its loads read whole buffers: the buffer ends at the payload. -/
theorem nodeOut_eq (x0 : Vec Ideal S5000x128 .f32) (w0 : Vec Ideal S128x128 .f32) (b0 : Vec Ideal S1x128 .f32) :
    nodeOut (F := Ideal) x0 w0 b0 = k0_pay1 x0 w0 b0 := by
  unfold nodeOut
  rw [View.canon_unit_zero hzero]
  simp only [View.ld_unit_zero (S := S5000x128) hzero, View.ld_unit_zero (S := S128x128) hzero, View.ld_unit_zero (S := S1x128) hzero]

/-- The buffer after the body at a block index j is the whole-array function at an array index i, as soon as the
    feature block's row (j 0) is the array's row (i 0), the weight and bias blocks are the whole arrays, and the
    columns agree. -/
theorem nodeOut_eq_G (x : Vec Ideal S50000x128 .f32) (w : Vec Ideal S128x128 .f32) (b : Vec Ideal S1x128 .f32)
    (x0 : Vec Ideal S5000x128 .f32) (w0 : Vec Ideal S128x128 .f32) (b0 : Vec Ideal S1x128 .f32)
    (j : S5000x128.Idx) (i : S50000x128.Idx)
    (hx : ∀ k : Fin 128, x0 (ValueIdx.ix2 (n0 := 5000) (n1 := 128) (j 0) k) = x (ValueIdx.ix2 (n0 := 50000) (n1 := 128) (i 0) k))
    (hw : w0 = w) (hb : b0 = b) (hq : i 1 = j 1) :
    nodeOut (F := Ideal) x0 w0 b0 j = nodeG x w b i := by
  subst hw; subst hb
  rw [nodeOut_eq]
  refine (congrArg (k0_pay1 (F := Ideal) x0 w0 b0) (ValueIdx.eq_ix2 (n0 := 5000) (n1 := 128) j)).trans ?_
  refine (node_pay_apply x0 w0 b0 (j 0) (j 1)).trans ?_
  unfold nodeG
  rw [hq]
  simp only [hx]

/-! ## From blocks to the array -/

variable (V : (c : Dev nD) → (b : Ref sig .tc) → Buf (Elt Ideal) ((c : Thread nD τ).loc b))

/-- The windows' block indices, decided over the grid: the feature window and the output window are at block row t
    at point t, the weight and bias windows stay at block 0. -/
theorem node_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function of the arrays as the region finds them. -/
theorem node_flushed_eq (c : Dev nD) (t : Fin cfg0.N) :
    (nodeDat (F := Ideal) V c).flushed 3 t
      = ((cfg0.win 3).blk t).view.read (Elt Ideal) (nodeG (V c main_arg0) (V c main_arg3) (V c main_v0)) := by
  show (cfg0.win 3).cut (grid0.coords t) ((nodeDat (F := Ideal) V c).after 3 t) = _
  rw [nodeAfter3]
  obtain ⟨e00, e01, e10, e11, e20, e21, e30, e31⟩ := node_idx t
  funext j
  show nodeOut (F := Ideal) (nodeBlk V c 0 t) (nodeBlk V c 1 t) (nodeBlk V c 2 t) j
    = nodeG (V c main_arg0) (V c main_arg3) (V c main_v0) (((cfg0.win 3).blk t).view.emb j)
  refine nodeOut_eq_G (V c main_arg0) (V c main_arg3) (V c main_v0) (nodeBlk V c 0 t) (nodeBlk V c 1 t) (nodeBlk V c 2 t)
    j (((cfg0.win 3).blk t).view.emb j) ?_ ?_ ?_ ?_
  · intro k
    show V c main_arg0 (((cfg0.win 0).blk t).view.emb (ValueIdx.ix2 (n0 := 5000) (n1 := 128) (j 0) k))
      = V c main_arg0 (ValueIdx.ix2 (n0 := 50000) (n1 := 128) ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · apply Fin.ext
    show win0_3.index t (1 : Fin 2) * 128 + 1 * (j 1).val = (j 1).val
    omega

/-- An index of the array is in point t's block iff each coordinate is in the block's range on its axis. -/
theorem node_mem_blk (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every index of the output array is in the block of the point its row divided by 5000 names, and every point writes
    its block back. -/
theorem node_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_3 _, ?_⟩
  rw [node_mem_blk]
  obtain ⟨e00, e01, e10, e11, e20, e21, e30, e31⟩ := node_idx ⟨(i 0).val / 5000, hN⟩
  have e30' : win0_3.index ⟨(i 0).val / 5000, hN⟩ (0 : Fin 2) = (i 0).val / 5000 := e30
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    omega

/-- The output array after the region: the whole-array function of the feature, weight and bias arrays as the region
    finds them. -/
theorem nodeFinal (c : Dev nD) :
    (nodeDat (F := Ideal) V c).arrAt 3 cfg0.N = nodeG (V c main_arg0) (V c main_arg3) (V c main_v0) :=
  (nodeDat (F := Ideal) V c).arrAt_eq_of_cover 3 (nodeG (V c main_arg0) (V c main_arg3) (V c main_v0))
    (fun t _ => node_flushed_eq V c t) node_cover

end Cert.KernelIdeal.Hand

end
-- ==== Proof.RefValue.lean ====
/- The reference program's result read as one function of its arguments.

   The reference computes, for node features x [50000, 128], edge list ei [800000, 2] (column 0 the source node,
   column 1 the destination node), edge features ef [800000, 6] and the two linear layers (W, b), (We, be):
     transformed[n, j] = (Σ_k x[n, k] · W[k, j]) + b[j]
     message[e, j]     = transformed[src e, j] + ((Σ_k ef[e, k] · We[k, j]) + be[j])
     result            = relu (scatter-add of the messages into a zero array by destination).
   This file names the message array index by index (`msgRef`), shows that the result is the program's own tail
   (zero array, broadcast destinations, scatter-add, maximum with zero) applied to the program's message stage
   (`ref_result`), and that under the range hypothesis 0 ≤ src e < 50000 that stage is `msgRef` (`msgStage_eq`):
   the wrap of a negative index is then the identity and the gather's clamp does nothing. -/
import proofs.«403578_j46067819217039_2_alg».proof.Proof.Gen.ReferenceIdeal.Run
import proofs.«403578_j46067819217039_2_alg».proof.Proof.Gen.ReferenceIdeal.Read
import Idealize.ShloMosaic.Lib.ValueIdx
import Idealize.ShloMosaic.Lib.Affine
import Idealize.ShloMosaic.PureOps.Ideal

set_option maxRecDepth 16384

noncomputable section

open scoped BigOperators

namespace Cert.RefValue

open Cert.ReferenceIdeal Cert.ReferenceIdeal.Gen Cert.ReferenceIdeal.Read
open Idealize.ShloMosaic Idealize.ShloMosaic.ValueIdx

/-! ## The specification: the message array, index by index -/

/-- The node transform: row `n` of the features times the weights, plus the bias. -/
def nodeT (x : S50000x128.Idx → EReal) (W : S128x128.Idx → EReal) (b : S128.Idx → EReal) : S50000x128.Idx → EReal :=
  fun p => (∑ k : Fin 128, x (ix2 (p 0) k) * W (ix2 k (p 1))) + b (ix1 (p 1))

/-- The row of the transformed features that edge `e` reads: its source word as a natural number, kept below the
    number of nodes (for a source in range, the source itself: `srcIdx_val`). -/
def srcIdx (ei : S800000x2.Idx → BitVec 32) (e : Fin 800000) : Fin 50000 :=
  ⟨min (ei (ix2 e (0 : Fin 2))).toNat (50000 - 1), by omega⟩

/-- The per-edge messages: the transformed source row plus the edge transform. -/
def msgRef (x : S50000x128.Idx → EReal) (ei : S800000x2.Idx → BitVec 32) (ef : S800000x6.Idx → EReal)
    (W : S128x128.Idx → EReal) (b : S128.Idx → EReal) (We : S6x128.Idx → EReal) (be : S128.Idx → EReal) :
    S800000x128.Idx → EReal :=
  fun i => nodeT x W b (ix2 (srcIdx ei (i 0)) (i 1))
    + ((∑ k : Fin 6, ef (ix2 (i 0) k) * We (ix2 k (i 1))) + be (ix1 (i 1)))

/-- The node transform at row `n`, column `j`. -/
theorem nodeT_apply (x : S50000x128.Idx → EReal) (W : S128x128.Idx → EReal) (b : S128.Idx → EReal) (n : Fin 50000) (j : Fin 128) :
    nodeT x W b (ix2 n j) = (∑ k : Fin 128, x (ix2 n k) * W (ix2 k j)) + b (ix1 j) := rfl

/-- The message of edge `e` at column `j`. -/
theorem msgRef_apply (x : S50000x128.Idx → EReal) (ei : S800000x2.Idx → BitVec 32) (ef : S800000x6.Idx → EReal)
    (W : S128x128.Idx → EReal) (b : S128.Idx → EReal) (We : S6x128.Idx → EReal) (be : S128.Idx → EReal)
    (e : Fin 800000) (j : Fin 128) :
    msgRef x ei ef W b We be (ix2 e j)
      = nodeT x W b (ix2 (srcIdx ei e) j) + ((∑ k : Fin 6, ef (ix2 e k) * We (ix2 k j)) + be (ix1 j)) := rfl

/-- For a source in range the row read is the source word itself. -/
theorem srcIdx_val (ei : S800000x2.Idx → BitVec 32) (e : Fin 800000)
    (h : 0 ≤ (ei (ix2 e (0 : Fin 2))).toInt ∧ (ei (ix2 e (0 : Fin 2))).toInt < 50000) :
    (srcIdx ei e).val = (ei (ix2 e (0 : Fin 2))).toNat := by
  have hc := BitVec.toInt_eq_toNat_cond (ei (ix2 e (0 : Fin 2)))
  have hl := (ei (ix2 e (0 : Fin 2))).isLt
  show min (ei (ix2 e (0 : Fin 2))).toNat (50000 - 1) = _
  omega

/-! ## The program's tail and its message stage -/

/-- The zero array the scatter adds into, as the program prints it. -/
abbrev zeros : (⟨S50000x128, .f32⟩ : BufTy).Contents (Elt Ideal) :=
  broadcastInDim S50000x128 ![] bcast_S_S50000x128 (constant (F := Ideal) S_ .f32 0x00000000#32)

/-- The destination column of the edge list as the scatter's index array, as the program prints it. -/
abbrev dstB (ei : (⟨S800000x2, .i32⟩ : BufTy).Contents (Elt Ideal)) : (⟨S800000x1, .i32⟩ : BufTy).Contents (Elt Ideal) :=
  broadcastInDim S800000x1 ![0] bcast_S800000_S800000x1_0
    (shapeCast _ (extractStridedSlice S800000x1 ![0, 1] ei slices_S800000x2_S800000x1_0_1) shapeCasts_S800000x1_S800000)

/-- The final maximum with the zero array, as the program prints it. -/
abbrev reluFn (v : (⟨S50000x128, .f32⟩ : BufTy).Contents (Elt Ideal)) : (⟨S50000x128, .f32⟩ : BufTy).Contents (Elt Ideal) :=
  maximumf v (broadcastInDim S50000x128 ![] bcast_S_S50000x128 (constant (F := Ideal) S_ .f32 0x00000000#32))

/-- The program's own stage for the message array (the gathered rows plus the edge transform). -/
def msgStage (x0 : (⟨S50000x128, .f32⟩ : BufTy).Contents (Elt Ideal)) (x1 : (⟨S800000x2, .i32⟩ : BufTy).Contents (Elt Ideal))
    (x2 : (⟨S800000x6, .f32⟩ : BufTy).Contents (Elt Ideal)) (x3 : (⟨S128x128, .f32⟩ : BufTy).Contents (Elt Ideal))
    (x4 : (⟨S128, .f32⟩ : BufTy).Contents (Elt Ideal)) (x5 : (⟨S6x128, .f32⟩ : BufTy).Contents (Elt Ideal))
    (x6 : (⟨S128, .f32⟩ : BufTy).Contents (Elt Ideal)) : (⟨S800000x128, .f32⟩ : BufTy).Contents (Elt Ideal) :=
  val_main_v19 (F := Ideal) x0 x1 x2 x3 x4 x5 x6

/-- The result buffer's stage is the program's tail applied to its message stage. -/
theorem ref_result (x0 : (⟨S50000x128, .f32⟩ : BufTy).Contents (Elt Ideal)) (x1 : (⟨S800000x2, .i32⟩ : BufTy).Contents (Elt Ideal))
    (x2 : (⟨S800000x6, .f32⟩ : BufTy).Contents (Elt Ideal)) (x3 : (⟨S128x128, .f32⟩ : BufTy).Contents (Elt Ideal))
    (x4 : (⟨S128, .f32⟩ : BufTy).Contents (Elt Ideal)) (x5 : (⟨S6x128, .f32⟩ : BufTy).Contents (Elt Ideal))
    (x6 : (⟨S128, .f32⟩ : BufTy).Contents (Elt Ideal)) :
    val_main_v23 (F := Ideal) x0 x1 x2 x3 x4 x5 x6
      = reluFn (Host.scatterAdd (F := Ideal) (φ := .f32) scatter_S50000x128_S800000x1_S800000x128_1_0_0_1 zeros (dstB x1)
          (msgStage x0 x1 x2 x3 x4 x5 x6)) := rfl

/-! ## The gather of rows, read at an index -/

/-- The program's gather takes whole rows: element `(e, j)` of the result is the operand at row `idx[e, 0]`, read as a
    signed integer and clamped into `[0, 49999]`, and column `j`. -/
theorem gather_row_apply {α : Type} (x : S50000x128.Idx → α) (idx : IVec S800000x1 32) (e : Fin 800000) (j : Fin 128) :
    Host.gather gather_S50000x128_S800000x1_S800000x128_1_0_n_n_0_1_1128 x idx (ix2 e j)
      = x (ix2 (⟨min (idx (ix2 e (0 : Fin 1))).toInt.toNat (50000 - 1), by omega⟩ : Fin 50000) j) := by
  unfold Host.gather
  congr 1
  funext a
  refine Fin.ext ?_
  match a with
  | ⟨0, _⟩ =>
    show gather_S50000x128_S800000x1_S800000x128_1_0_n_n_0_1_1128.start (ix2 e j) idx 0 + gather_S50000x128_S800000x1_S800000x128_1_0_n_n_0_1_1128.batchCoord (ix2 e j) 0 + gather_S50000x128_S800000x1_S800000x128_1_0_n_n_0_1_1128.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S800000x1_S800000x128_1_0_n_n_0_1_1128.startIndexMap from List.mem_singleton.mpr rfl)]
    have hsi : gather_S50000x128_S800000x1_S800000x128_1_0_n_n_0_1_1128.siIdx (ix2 e j) ⟨List.idxOf (0 : Fin 2) gather_S50000x128_S800000x1_S800000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x128_S800000x1_S800000x128_1_0_n_n_0_1_1128.start (ix2 e j) idx 1 + gather_S50000x128_S800000x1_S800000x128_1_0_n_n_0_1_1128.batchCoord (ix2 e j) 1 + gather_S50000x128_S800000x1_S800000x128_1_0_n_n_0_1_1128.offCoord (ix2 e j) 1 = _
    rw [GatherDims.batchCoord_eq_zero _ _ _ List.not_mem_nil]
    unfold GatherDims.start
    rw [dif_neg (show ¬ (1 : Fin 2) ∈ gather_S50000x128_S800000x1_S800000x128_1_0_n_n_0_1_1128.startIndexMap by decide)]
    simp only [Nat.add_zero, Nat.zero_add]
    rfl

/-! ## The stages under the gather and beside it -/

/-- The stage the gather reads is the node transform. -/
theorem nodeStage_eq (x0 : (⟨S50000x128, .f32⟩ : BufTy).Contents (Elt Ideal)) (x3 : (⟨S128x128, .f32⟩ : BufTy).Contents (Elt Ideal))
    (x4 : (⟨S128, .f32⟩ : BufTy).Contents (Elt Ideal)) :
    val_main_v3 (F := Ideal) x0 x3 x4 = nodeT x0 x3 x4 := by
  funext p
  have hl : ∀ k : Fin 128, lidx_main_v0 p k = ix2 (p 0) k := fun k =>
    funext fun a => Fin.ext (by match a with | ⟨0, _⟩ => rfl | ⟨1, _⟩ => rfl)
  have hr : ∀ k : Fin 128, ridx_main_v0 p k = ix2 k (p 1) := fun k =>
    funext fun a => Fin.ext (by match a with | ⟨0, _⟩ => rfl | ⟨1, _⟩ => rfl)
  have hb : idx_main_v1 (idx_main_v2 p) = ix1 (p 1) :=
    funext fun a => Fin.ext (by match a with | ⟨0, _⟩ => rfl)
  rw [val_main_v3_apply, val_main_v0_apply, val_main_v2_apply, val_main_v1_apply]
  simp only [hl, hr, hb, Ideal.addf_def]
  rfl

/-- The edge transform's stage at an index. -/
theorem edgeStage_apply (x2 : (⟨S800000x6, .f32⟩ : BufTy).Contents (Elt Ideal)) (x5 : (⟨S6x128, .f32⟩ : BufTy).Contents (Elt Ideal))
    (x6 : (⟨S128, .f32⟩ : BufTy).Contents (Elt Ideal)) (i : S800000x128.Idx) :
    val_main_v7 (F := Ideal) x2 x5 x6 i = (∑ k : Fin 6, x2 (ix2 (i 0) k) * x5 (ix2 k (i 1))) + x6 (ix1 (i 1)) := by
  have hl : ∀ k : Fin 6, lidx_main_v4 i k = ix2 (i 0) k := fun k =>
    funext fun a => Fin.ext (by match a with | ⟨0, _⟩ => rfl | ⟨1, _⟩ => rfl)
  have hr : ∀ k : Fin 6, ridx_main_v4 i k = ix2 k (i 1) := fun k =>
    funext fun a => Fin.ext (by match a with | ⟨0, _⟩ => rfl | ⟨1, _⟩ => rfl)
  have hb : idx_main_v5 (idx_main_v6 i) = ix1 (i 1) :=
    funext fun a => Fin.ext (by match a with | ⟨0, _⟩ => rfl)
  rw [val_main_v7_apply, val_main_v4_apply, val_main_v6_apply, val_main_v5_apply]
  simp only [hl, hr, hb, Ideal.addf_def]
  rfl

/-- The gather's index array at edge `e`: the source word, wrapped by the number of nodes when negative. -/
theorem srcStage_apply (x1 : (⟨S800000x2, .i32⟩ : BufTy).Contents (Elt Ideal)) (e : Fin 800000) :
    val_main_v17 (F := Ideal) x1 (ix2 e (0 : Fin 1))
      = Scalar.select (IntOp.cmpi .slt (x1 (ix2 e (0 : Fin 2))) 0#32)
          (IntOp.addi (x1 (ix2 e (0 : Fin 2))) 50000#32) (x1 (ix2 e (0 : Fin 2))) := by
  have hs : idx_main_v8 (idx_main_v9 (idx_main_v17 (ix2 e (0 : Fin 1)))) = ix2 e (0 : Fin 2) :=
    funext fun a => Fin.ext (by
      match a with
      | ⟨0, _⟩ => exact Nat.div_one _
      | ⟨1, _⟩ => rfl)
  rw [val_main_v17_apply, val_main_v16_apply, val_main_v13_apply, val_main_v15_apply, val_main_v9_apply,
    val_main_v8_apply, val_main_v12_apply, val_main_v14_apply, val_main_c_apply, val_main_c_0_apply, hs]

/-- For a source in range the wrap is the identity. -/
theorem wrap_of_range (s : BitVec 32) (h : 0 ≤ s.toInt ∧ s.toInt < 50000) :
    Scalar.select (IntOp.cmpi .slt s 0#32) (IntOp.addi s 50000#32) s = s := by
  have hc : IntOp.cmpi .slt s 0#32 = 0#1 := eq_zero_of_ne_one fun h1 => by
    have h2 := IntOp.cmpi_slt.mp h1
    have h0 : (0#32 : BitVec 32).toInt = 0 := by decide
    omega
  rw [hc, select_zero]

/-! ## The message stage is the specification -/

/-- Under the range hypothesis on the sources, the program's message stage is `msgRef`. -/
theorem msgStage_eq (x0 : (⟨S50000x128, .f32⟩ : BufTy).Contents (Elt Ideal)) (x1 : (⟨S800000x2, .i32⟩ : BufTy).Contents (Elt Ideal))
    (x2 : (⟨S800000x6, .f32⟩ : BufTy).Contents (Elt Ideal)) (x3 : (⟨S128x128, .f32⟩ : BufTy).Contents (Elt Ideal))
    (x4 : (⟨S128, .f32⟩ : BufTy).Contents (Elt Ideal)) (x5 : (⟨S6x128, .f32⟩ : BufTy).Contents (Elt Ideal))
    (x6 : (⟨S128, .f32⟩ : BufTy).Contents (Elt Ideal))
    (hsrc : ∀ e : Fin 800000, 0 ≤ (x1 (ix2 e (0 : Fin 2))).toInt ∧ (x1 (ix2 e (0 : Fin 2))).toInt < 50000) :
    msgStage x0 x1 x2 x3 x4 x5 x6 = msgRef x0 x1 x2 x3 x4 x5 x6 := by
  funext i
  obtain ⟨e, j, rfl⟩ : ∃ (e : Fin 800000) (j : Fin 128), i = ix2 e j := ⟨i 0, i 1, eq_ix2 i⟩
  have hrow : (⟨min (val_main_v17 (F := Ideal) x1 (ix2 e (0 : Fin 1))).toInt.toNat (50000 - 1), by omega⟩ : Fin 50000)
      = srcIdx x1 e := by
    refine Fin.ext ?_
    show min (val_main_v17 (F := Ideal) x1 (ix2 e (0 : Fin 1))).toInt.toNat (50000 - 1) = (srcIdx x1 e).val
    rw [srcStage_apply, wrap_of_range _ (hsrc e), srcIdx_val x1 e (hsrc e)]
    have hc := BitVec.toInt_eq_toNat_cond (x1 (ix2 e (0 : Fin 2)))
    have hl := (x1 (ix2 e (0 : Fin 2))).isLt
    have := hsrc e
    omega
  have hg : val_main_v18 (F := Ideal) x0 x1 x3 x4 (ix2 e j) = nodeT x0 x3 x4 (ix2 (srcIdx x1 e) j) := by
    unfold val_main_v18
    rw [gather_row_apply, hrow, nodeStage_eq]
  show val_main_v19 (F := Ideal) x0 x1 x2 x3 x4 x5 x6 (ix2 e j) = _
  rw [val_main_v19_apply, hg, edgeStage_apply, Ideal.addf_def]
  rfl

end Cert.RefValue

end
-- ==== Proof.TailEq.lean ====
/- The two programs end alike: each scatter-adds a per-edge message array [800000, 128] by the destination column of the
   edge table into a zero array [50000, 128] and takes the maximum with zero. The kernel program and the reference
   program spell that tail over their own shape names and their own dimension records, which are separate constants
   with equal values; `tail_eq` says the two tails are one function of the edge table and the message array. With it,
   the kernel program's result at the end of its run is the reference's result stage as soon as the kernel's message
   array is the reference's messages `msgRef` (`kernel_result_eq`): under the range hypothesis on the sources the
   reference's own message stage is `msgRef` too, and its result stage is its tail applied to that stage. -/
import proofs.«403578_j46067819217039_2_alg».proof.Proof.TopVal
import proofs.«403578_j46067819217039_2_alg».proof.Proof.RefValue

set_option maxRecDepth 16384

noncomputable section

namespace Cert.TailEq

open Idealize.ShloMosaic Idealize.ShloMosaic.TcCoe Idealize.SL.Sem

/-- The kernel program's tail and the reference's, applied to one edge table and one message array, are equal: the
    shapes, the scatter's dimension numbers and the printed zero array and destination broadcast agree by computation. -/
theorem tail_eq (ei : (⟨Cert.KernelIdeal.S800000x2, .i32⟩ : BufTy).Contents (Elt Ideal))
    (M : (⟨Cert.KernelIdeal.S800000x128, .f32⟩ : BufTy).Contents (Elt Ideal)) :
    maximumf (Host.scatterAdd (F := Ideal) (φ := .f32) Cert.KernelIdeal.scatter_S50000x128_S800000x1_S800000x128_1_0_0_1
        Cert.KernelIdeal.Hand.topZeros (Cert.KernelIdeal.Hand.topDst ei) M) Cert.KernelIdeal.Hand.topZeros
      = Cert.RefValue.reluFn (Host.scatterAdd (F := Ideal) (φ := .f32) Cert.ReferenceIdeal.scatter_S50000x128_S800000x1_S800000x128_1_0_0_1
          Cert.RefValue.zeros (Cert.RefValue.dstB ei) M) := rfl

/-- The kernel program's result buffer at the end of its run is the reference's result stage of the same arguments,
    given that the sources are in range and that the kernel's message array is `msgRef` of the arguments. -/
theorem kernel_result_eq (m : (ℓ : Loc Cert.KernelIdeal.nD Cert.KernelIdeal.τ Cert.KernelIdeal.sig) → Buf (Elt Ideal) ℓ) (hO : Cert.KernelIdeal.Hand.Oks m) (c : Dev Cert.KernelIdeal.nD)
    (hsrc : ∀ e : Fin 800000, 0 ≤ ((m ((c : Thread Cert.KernelIdeal.nD Cert.KernelIdeal.τ).loc Cert.KernelIdeal.main_arg1) : (⟨Cert.ReferenceIdeal.S800000x2, .i32⟩ : BufTy).Contents (Elt Ideal)) (ValueIdx.ix2 e (0 : Fin 2))).toInt
      ∧ ((m ((c : Thread Cert.KernelIdeal.nD Cert.KernelIdeal.τ).loc Cert.KernelIdeal.main_arg1) : (⟨Cert.ReferenceIdeal.S800000x2, .i32⟩ : BufTy).Contents (Elt Ideal)) (ValueIdx.ix2 e (0 : Fin 2))).toInt < 50000)
    (hmsg : Cert.KernelIdeal.Hand.msgK m hO c = Cert.RefValue.msgRef
        (m ((c : Thread Cert.KernelIdeal.nD Cert.KernelIdeal.τ).loc Cert.KernelIdeal.main_arg0) : (⟨Cert.ReferenceIdeal.S50000x128, .f32⟩ : BufTy).Contents (Elt Ideal))
        (m ((c : Thread Cert.KernelIdeal.nD Cert.KernelIdeal.τ).loc Cert.KernelIdeal.main_arg1) : (⟨Cert.ReferenceIdeal.S800000x2, .i32⟩ : BufTy).Contents (Elt Ideal))
        (m ((c : Thread Cert.KernelIdeal.nD Cert.KernelIdeal.τ).loc Cert.KernelIdeal.main_arg2) : (⟨Cert.ReferenceIdeal.S800000x6, .f32⟩ : BufTy).Contents (Elt Ideal))
        (m ((c : Thread Cert.KernelIdeal.nD Cert.KernelIdeal.τ).loc Cert.KernelIdeal.main_arg3) : (⟨Cert.ReferenceIdeal.S128x128, .f32⟩ : BufTy).Contents (Elt Ideal))
        (m ((c : Thread Cert.KernelIdeal.nD Cert.KernelIdeal.τ).loc Cert.KernelIdeal.main_arg4) : (⟨Cert.ReferenceIdeal.S128, .f32⟩ : BufTy).Contents (Elt Ideal))
        (m ((c : Thread Cert.KernelIdeal.nD Cert.KernelIdeal.τ).loc Cert.KernelIdeal.main_arg5) : (⟨Cert.ReferenceIdeal.S6x128, .f32⟩ : BufTy).Contents (Elt Ideal))
        (m ((c : Thread Cert.KernelIdeal.nD Cert.KernelIdeal.τ).loc Cert.KernelIdeal.main_arg6) : (⟨Cert.ReferenceIdeal.S128, .f32⟩ : BufTy).Contents (Elt Ideal))) :
    Cert.KernelIdeal.Hand.W36 m hO c (Proc.devRef .tc Cert.KernelIdeal.main_v92)
      = Cert.ReferenceIdeal.Read.val_main_v23 (F := Ideal)
        (m ((c : Thread Cert.KernelIdeal.nD Cert.KernelIdeal.τ).loc Cert.KernelIdeal.main_arg0) : (⟨Cert.ReferenceIdeal.S50000x128, .f32⟩ : BufTy).Contents (Elt Ideal))
        (m ((c : Thread Cert.KernelIdeal.nD Cert.KernelIdeal.τ).loc Cert.KernelIdeal.main_arg1) : (⟨Cert.ReferenceIdeal.S800000x2, .i32⟩ : BufTy).Contents (Elt Ideal))
        (m ((c : Thread Cert.KernelIdeal.nD Cert.KernelIdeal.τ).loc Cert.KernelIdeal.main_arg2) : (⟨Cert.ReferenceIdeal.S800000x6, .f32⟩ : BufTy).Contents (Elt Ideal))
        (m ((c : Thread Cert.KernelIdeal.nD Cert.KernelIdeal.τ).loc Cert.KernelIdeal.main_arg3) : (⟨Cert.ReferenceIdeal.S128x128, .f32⟩ : BufTy).Contents (Elt Ideal))
        (m ((c : Thread Cert.KernelIdeal.nD Cert.KernelIdeal.τ).loc Cert.KernelIdeal.main_arg4) : (⟨Cert.ReferenceIdeal.S128, .f32⟩ : BufTy).Contents (Elt Ideal))
        (m ((c : Thread Cert.KernelIdeal.nD Cert.KernelIdeal.τ).loc Cert.KernelIdeal.main_arg5) : (⟨Cert.ReferenceIdeal.S6x128, .f32⟩ : BufTy).Contents (Elt Ideal))
        (m ((c : Thread Cert.KernelIdeal.nD Cert.KernelIdeal.τ).loc Cert.KernelIdeal.main_arg6) : (⟨Cert.ReferenceIdeal.S128, .f32⟩ : BufTy).Contents (Elt Ideal)) := by
  rw [Cert.KernelIdeal.Hand.top_value m hO c, hmsg, tail_eq, ← Cert.RefValue.msgStage_eq _ _ _ _ _ _ _ hsrc,
    ← Cert.RefValue.ref_result]

end Cert.TailEq

end
-- ==== Proof.lean ====
/- The claim of this certificate. The kernel computes, per edge e with source index s and per lane j,
     (T[s, j] + Σ_k ef[e, k] · We[k, j]) + be[j],   T[n, j] = Σ_k x[n, k] · W[k, j] + b[j],
   in seventeen kernel regions (the node transform, then sixteen gather-and-edge-linear regions of 50000 edges each,
   whose gather reads its row through a prefetched table of source indices), concatenates the regions' rows,
   scatter-adds them by destination index and applies relu. The reference computes
     T[s, j] + (Σ_k ef[e, k] · We[k, j] + be[j])
   in one piece and applies the same scatter-add and relu. The two messages arrays are equal entry by entry by the
   associativity of addition on the extended reals; the scatter-add and the relu are the same operations of the same
   arguments on both sides and are never opened. The precondition bounds every source index to [0, 50000): it keeps
   every gathered block inside the array of transformed features (the frames of both kernel programs need it) and makes
   the reference's wrap of negative indices the identity. The three frames: the two kernel programs' runs are the launch
   of @main's thirty-six items as segments; the reference's frame is its run with the result dropped. -/
import proofs.«403578_j46067819217039_2_alg».proof.Defs
import proofs.«403578_j46067819217039_2_alg».proof.Proof.Gen.Kernel
import proofs.«403578_j46067819217039_2_alg».proof.Proof.Gen.KernelIdeal
import proofs.«403578_j46067819217039_2_alg».proof.Proof.Gen.ReferenceIdeal
import proofs.«403578_j46067819217039_2_alg».proof.Proof.Gen.Pre_finite_inputs
import proofs.«403578_j46067819217039_2_alg».proof.Proof.Gen.ReferenceIdeal.Run
import proofs.«403578_j46067819217039_2_alg».proof.Proof.Gen.ReferenceIdeal.Read
import proofs.«403578_j46067819217039_2_alg».proof.Proof.RunB
import proofs.«403578_j46067819217039_2_alg».proof.Proof.ResultI
import proofs.«403578_j46067819217039_2_alg».proof.Proof.OksPre
import proofs.«403578_j46067819217039_2_alg».proof.Proof.TopVal
import proofs.«403578_j46067819217039_2_alg».proof.Proof.Bridge
import proofs.«403578_j46067819217039_2_alg».proof.Proof.TailEq
import proofs.«403578_j46067819217039_2_alg».proof.Proof.RefValue
import Idealize.ShloMosaic.Adequacy
import Idealize.ShloMosaic.Init

set_option maxRecDepth 16384

noncomputable section

namespace Cert.Proof

open Idealize.ShloMosaic Idealize.SL.Sem

/-- The kernel program's result buffer at the end of the fold is the reference's result term at the same arguments:
    both are relu of the scatter-add of one messages array, and the two messages arrays are equal. -/
theorem kernel_result [hPre_finite_inputs : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Hand.W36 m (Cert.OksPre.oks_ideal m hpre) c (Proc.devRef .tc Cert.KernelIdeal.main_v92)
      = Cert.ReferenceIdeal.Read.val_main_v23 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) :=
  Cert.TailEq.kernel_result_eq m (Cert.OksPre.oks_ideal m hpre) c (Cert.OksPre.src_range_ideal m hpre c)
    (Cert.KernelIdeal.Hand.msgK_eq m (Cert.OksPre.oks_ideal m hpre) c (Cert.OksPre.src_range_ideal m hpre c))

theorem claim : Cert.Claim := ⟨Cert.Kernel.Gen.facts, Cert.KernelIdeal.Gen.facts, Cert.ReferenceIdeal.Gen.facts, Cert.Pre_finite_inputs.Gen.facts,
  fun m ρ h => Cert.Kernel.Hand.frame_run m ρ (Cert.OksPre.oks_bits m h),
  fun m ρ h => Cert.KernelIdeal.Hand.frame_run m ρ (Cert.OksPre.oks_ideal m h),
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.KernelIdeal.Hand.W36 m (Cert.OksPre.oks_ideal m hpre) c (Proc.devRef .tc Cert.KernelIdeal.main_v92),
     Cert.KernelIdeal.Hand.result_run m ρ (Cert.OksPre.oks_ideal m hpre),
     (θ_run Cert.ReferenceIdeal.defs _ _).mono (fun _ h c =>
        ⟨by
          rw [(h c).1, Cert.ReferenceIdeal.Read.val_main_v23_eq, (hagree c).1, (hagree c).2.1, (hagree c).2.2.1, (hagree c).2.2.2.1,
            (hagree c).2.2.2.2.1, (hagree c).2.2.2.2.2.1, (hagree c).2.2.2.2.2.2]
          exact (kernel_result m hpre c).symm,
         (h c).2⟩)
       (Cert.ReferenceIdeal.Value.run (F := Ideal) m' ρ')⟩⟩

end Cert.Proof

end
